-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x64 : Shape := ⟨2, ![256, 64]⟩
abbrev S128x1 : Shape := ⟨2, ![128, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S8192x256 .f32) (main_arg1 : IVec S8192x8192 32) (main_arg2 : FVec F S256x64 .f32) (main_arg3 : FVec F S128x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S256x64 : Shape := ⟨2, ![256, 64]⟩
abbrev S128x1 : Shape := ⟨2, ![128, 1]⟩
abbrev S64x1 : Shape := ⟨2, ![64, 1]⟩
abbrev S1x64 : Shape := ⟨2, ![1, 64]⟩
abbrev S8192x128 : Shape := ⟨2, ![8192, 128]⟩
abbrev S8192x1 : Shape := ⟨2, ![8192, 1]⟩
abbrev S1024x256 : Shape := ⟨2, ![1024, 256]⟩
abbrev S1024x128 : Shape := ⟨2, ![1024, 128]⟩
abbrev S1024x1 : Shape := ⟨2, ![1024, 1]⟩
abbrev S1024x64 : Shape := ⟨2, ![1024, 64]⟩
abbrev S1024x63 : Shape := ⟨2, ![1024, 63]⟩
abbrev S1024 : Shape := ⟨1, ![1024]⟩
abbrev S1x8192 : Shape := ⟨2, ![1, 8192]⟩
abbrev S8192x64 : Shape := ⟨2, ![8192, 64]⟩
abbrev S1x1024 : Shape := ⟨2, ![1, 1024]⟩
abbrev S1024x1024 : Shape := ⟨2, ![1024, 1024]⟩

abbrev nBuf : Space → Nat
  | .hbm => 13
  | .vmem => 23
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x64, .f32⟩
  | .hbm, ⟨3, _⟩ => ⟨S128x1, .f32⟩
  | .hbm, ⟨4, _⟩ => ⟨S64x1, .f32⟩
  | .hbm, ⟨5, _⟩ => ⟨S1x64, .f32⟩
  | .hbm, ⟨6, _⟩ => ⟨S64x1, .f32⟩
  | .hbm, ⟨7, _⟩ => ⟨S1x64, .f32⟩
  | .hbm, ⟨8, _⟩ => ⟨S8192x128, .bf16⟩
  | .hbm, ⟨9, _⟩ => ⟨S8192x1, .f32⟩
  | .hbm, ⟨10, _⟩ => ⟨S8192x1, .f32⟩
  | .hbm, ⟨11, _⟩ => ⟨S1x8192, .f32⟩
  | .hbm, ⟨12, _⟩ => ⟨S8192x64, .f32⟩
  | .local _ .vmem, ⟨0, _⟩ => ⟨S1024x256, .f32⟩
  | .local _ .vmem, ⟨1, _⟩ => ⟨S1024x256, .f32⟩
  | .local _ .vmem, ⟨2, _⟩ => ⟨S256x64, .f32⟩
  | .local _ .vmem, ⟨3, _⟩ => ⟨S1x64, .f32⟩
  | .local _ .vmem, ⟨4, _⟩ => ⟨S1x64, .f32⟩
  | .local _ .vmem, ⟨5, _⟩ => ⟨S1024x128, .bf16⟩
  | .local _ .vmem, ⟨6, _⟩ => ⟨S1024x128, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1x1024, .f32⟩
  | .local _ .vmem, ⟨14, _⟩ => ⟨S1x1024, .f32⟩
  | .local _ .vmem, ⟨15, _⟩ => ⟨S1024x1024, .i32⟩
  | .local _ .vmem, ⟨16, _⟩ => ⟨S1024x1024, .i32⟩
  | .local _ .vmem, ⟨17, _⟩ => ⟨S8192x128, .bf16⟩
  | .local _ .vmem, ⟨18, _⟩ => ⟨S1024x64, .f32⟩
  | .local _ .vmem, ⟨19, _⟩ => ⟨S1024x64, .f32⟩
  | .local _ .vmem, ⟨20, _⟩ => ⟨S1024x1, .f32⟩
  | .local _ .vmem, ⟨21, _⟩ => ⟨S1024x1, .f32⟩
  | .local _ .vmem, ⟨22, _⟩ => ⟨S1024x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v31 : BitVec 32 := Scalar.muli arg1 c1024_i32
  v31
def k1_off1 (i : grid1.Coords) : Fin 2 → Nat :=
  let arg1 : BitVec 32 := BitVec.ofNat 32 (i 1).val
  let c1024_i32 : BitVec 32 := 1024#32
  let v31 : BitVec 32 := Scalar.muli arg1 c1024_i32
  let v32 : BitVec 32 := v31
  let v33 : Index := Scalar.indexCast v32
  let c0_14 : Index := 0#32
  ![v33.toNat, 0]
def k1_cond2 (i : grid1.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_26 : BitVec 32 := 0#32
  let v57 : BitVec 1 := Scalar.cmpi .ne v56 c0_i32_26
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8192x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S128x1_S64x1_0_0 : S128x1.Slices ![0, 0] S64x1
  shapeCasts_S64x1_S1x64 : S64x1.ShapeCasts S1x64
  slices_S128x1_S64x1_64_0 : S128x1.Slices ![64, 0] S64x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1024x128_S1024x64_0_0 : ∀ a, (![0, 0] : Fin 2 → Nat) a + S1024x64.size a ≤ S1024x128.size a
  h_S1024x64 : 0 < S1024x64.numel
  packedbf16_S1024x128_S1024x64_0_0 : (Rect.unit (s := S1024x128) ![0, 0] S1024x64.size inb_S1024x128_S1024x64_0_0).PackedRows (EltTy.packing .bf16)
  inb_S1024x128_S1024x1_0_64 : ∀ a, (![0, 64] : Fin 2 → Nat) a + S1024x1.size a ≤ S1024x128.size a
  h_S1024x1 : 0 < S1024x1.numel
  packedbf16_S1024x128_S1024x1_0_64 : (Rect.unit (s := S1024x128) ![0, 64] S1024x1.size inb_S1024x128_S1024x1_0_64).PackedRows (EltTy.packing .bf16)
  inb_S1024x128_S1024x63_0_65 : ∀ a, (![0, 65] : Fin 2 → Nat) a + S1024x63.size a ≤ S1024x128.size a
  h_S1024x63 : 0 < S1024x63.numel
  packedbf16_S1024x128_S1024x63_0_65 : (Rect.unit (s := S1024x128) ![0, 65] S1024x63.size inb_S1024x128_S1024x63_0_65).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  transposes_S8192x1_S1x8192_1_0 : S8192x1.Transposes [1, 0] S1x8192
  shapeCasts_S1024x1_S1024x1 : S1024x1.ShapeCasts S1024x1
  inb_S1024x64_S1024x64_0_0 : ∀ a, (![0, 0] : Fin 2 → Nat) a + S1024x64.size a ≤ S1024x64.size a
  shapeCasts_S1024x64_S1024x64 : S1024x64.ShapeCasts S1024x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  h_S1024x128 : 0 < S1024x128.numel
  shapeCasts_S1024x128_S1024x128 : S1024x128.ShapeCasts S1024x128
  slices_S1024x128_o0_0_S1024x64 : S1024x128.Slices ![0, 0] S1024x64
  slices_S1024x128_o0_64_S1024x1 : S1024x128.Slices ![0, 64] S1024x1
  broadcasts_S1024x1_S1024x64 : S1024x1.Broadcasts S1024x64
  dot_S1024x256_S256x64_S1024x64_1_0_0_1_n_n_wf : DotDims.WF S1024x256 S256x64 S1024x64 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .bf16 = 32 ∨ (Rect.block (s := S8192x128) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .i32 = 32 ∨ (Rect.block (s := S8192x8192) S1024x1024.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S8192x128.size a
  hwx1_3 : ∀ i : grid1.Coords, EltTy.bits .bf16 = 32 ∨ (Rect.block (s := S8192x128) S8192x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S8192x64.size a
  hwx1_4 : ∀ i : grid1.Coords, EltTy.bits .f32 = 32 ∨ (Rect.block (s := S8192x64) S1024x64.size (cc1_transform_4 i) (hinb1_4 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_1) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S8192x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x64 : Shape := ⟨2, ![256, 64]⟩
abbrev S128x1 : Shape := ⟨2, ![128, 1]⟩
abbrev S8192x64 : Shape := ⟨2, ![8192, 64]⟩
abbrev S64x1 : Shape := ⟨2, ![64, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S64x1, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x64, .f32⟩
  | .hbm, ⟨43, _⟩ => ⟨S_, .f32⟩
  | .hbm, ⟨44, _⟩ => ⟨S8192x64, .f32⟩
  | .hbm, ⟨45, _⟩ => ⟨S8192x64, .i1⟩
  | .hbm, ⟨46, _⟩ => ⟨S_, .f32⟩
  | .hbm, ⟨47, _⟩ => ⟨S8192x64, .f32⟩
  | .hbm, ⟨48, _⟩ => ⟨S8192x64, .i1⟩
  | .hbm, ⟨49, _⟩ => ⟨S_, .f32⟩
  | .hbm, ⟨50, _⟩ => ⟨S_, .f32⟩
  | .hbm, ⟨51, _⟩ => ⟨S8192x64, .f32⟩
  | .hbm, ⟨52, _⟩ => ⟨S8192x64, .f32⟩
  | .hbm, ⟨53, _⟩ => ⟨S8192x64, .f32⟩
  | .hbm, ⟨54, _⟩ => ⟨S_, .f32⟩
  | .hbm, ⟨55, _⟩ => ⟨S8192x64, .f32⟩
  | .hbm, ⟨56, _⟩ => ⟨S8192x64, .f32⟩
  | .hbm, ⟨57, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_cst_0 : Ref sig .tc := ⟨.hbm, 46, rfl⟩
abbrev main_call2_v2 : Ref sig .tc := ⟨.hbm, 47, rfl⟩
abbrev main_call2_v3 : Ref sig .tc := ⟨.hbm, 48, rfl⟩
abbrev main_call2_cst_1 : Ref sig .tc := ⟨.hbm, 49, rfl⟩
abbrev main_call2_call0_v0 : Ref sig .tc := ⟨.hbm, 50, rfl⟩
abbrev main_call2_call0_v1 : Ref sig .tc := ⟨.hbm, 51, rfl⟩
abbrev main_call2_v4 : Ref sig .tc := ⟨.hbm, 52, rfl⟩
abbrev main_call2_v5 : Ref sig .tc := ⟨.hbm, 53, rfl⟩
abbrev main_call2_cst_2 : Ref sig .tc := ⟨.hbm, 54, rfl⟩
abbrev main_call2_v6 : Ref sig .tc := ⟨.hbm, 55, rfl⟩
abbrev main_call2_v7 : Ref sig .tc := ⟨.hbm, 56, rfl⟩
abbrev main_v25 : Ref sig .tc := ⟨.hbm, 57, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x64 : S_.BroadcastsInDim S8192x64 (![] : Fin 0 → Fin S8192x64.rank)
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KR0.lean ====
/- REGION 0 of @main, the projection kernel `cc0__proj_kernel` (pipeline 0, seven windows), at the contents `V` the
   TensorCore's buffers hold when the region is entered. Per window its block at a grid point (`iblk0`); for the three
   outputs what the body leaves in the staging buffer, as a function of the input blocks: the extended feature block
   `[h W | 1 | 0 … 0]` in bf16 (`out0_4`) and the two attention logits' columns `(h W) · a1` and `(h W) · a2`
   (`out0_5`, `out0_6`); the body's triple (`sound_kernel0`); the pipeline's proof data (`dat0`) and its body
   obligation at every point (`body_obligation0`). Stated at any float model `F`. -/
import proofs.«416619_j37056977830238_3_alg».proof.Proof.Gen.Kernel.Launch
import proofs.«416619_j37056977830238_3_alg».proof.Proof.Gen.Kernel.Skeleton
import proofs.«416619_j37056977830238_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: the projection kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the block of input rows): its current staging buffer holds its block at every point, fetched there or not, for
    any proof data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, fetched at the first point only): its current staging buffer holds its block at every point, fetched there or not, for
    any proof data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the first attention vector, fetched at the first point only): its current staging buffer holds its block at every point, fetched there or not, for
    any proof data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the second attention vector, fetched at the first point only): its current staging buffer holds its block at every point, fetched there or not, for
    any proof data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- the 1024 x 256 block of input rows, whole -/
abbrev r0_rows : Rect S1024x256 := Rect.unit (s := S1024x256) ![0, 0] S1024x256.size inb_S1024x256_S1024x256_0_0
/-- the 256 x 64 weight matrix, whole -/
abbrev r0_weights : Rect S256x64 := Rect.unit (s := S256x64) ![0, 0] S256x64.size inb_S256x64_S256x64_0_0
/-- columns 0..63 of the extended feature block: the projected features -/
abbrev r0_feat : Rect S1024x128 := Rect.unit (s := S1024x128) ![0, 0] S1024x64.size inb_S1024x128_S1024x64_0_0
/-- column 64 of the extended feature block: the constant one -/
abbrev r0_one : Rect S1024x128 := Rect.unit (s := S1024x128) ![0, 64] S1024x1.size inb_S1024x128_S1024x1_0_64
/-- columns 65..127 of the extended feature block: the zero padding -/
abbrev r0_pad : Rect S1024x128 := Rect.unit (s := S1024x128) ![0, 65] S1024x63.size inb_S1024x128_S1024x63_0_65
/-- an attention vector's 1 x 64 row, whole -/
abbrev r0_avec : Rect S1x64 := Rect.unit (s := S1x64) ![0, 0] S1x64.size inb_S1x64_S1x64_0_0
/-- a logit column of 1024 rows, whole -/
abbrev r0_logit : Rect S1024x1 := Rect.unit (s := S1024x1) ![0, 0] S1024x1.size inb_S1024x1_S1024x1_0_0

/-! ## What the body leaves in each output window's buffer -/

/-- Window 4's staging buffer after the body, from the input rows `x0` and the weights `x1`: its three stores as pieces,
    LAST FIRST — the zero padding, the column of ones, the projected features rounded to bf16. -/
def out0_4 (x0 : Vec F S1024x256 .f32) (x1 : Vec F S256x64 .f32) : Vec F S1024x128 .bf16 :=
  View.canon [⟨r0_pad, k0_pay4 (F := F)⟩,
    ⟨r0_one, k0_pay3 (F := F)⟩,
    ⟨r0_feat, k0_pay2 (View.ld x0 r0_rows) (View.ld x1 r0_weights)⟩]

/-- Window 5's staging buffer after the body: one whole store, the projected features' products with the first
    attention vector `x2` summed along each row. -/
def out0_5 (x0 : Vec F S1024x256 .f32) (x1 : Vec F S256x64 .f32) (x2 : Vec F S1x64 .f32) : Vec F S1024x1 .f32 :=
  View.canon [⟨r0_logit, k0_pay5 (View.ld x0 r0_rows) (View.ld x1 r0_weights) (View.ld x2 r0_avec)⟩]

/-- Window 6's staging buffer after the body: the same with the second attention vector `x3`. -/
def out0_6 (x0 : Vec F S1024x256 .f32) (x1 : Vec F S256x64 .f32) (x3 : Vec F S1x64 .f32) : Vec F S1024x1 .f32 :=
  View.canon [⟨r0_logit, k0_pay6 (View.ld x0 r0_rows) (View.ld x1 r0_weights) (View.ld x3 r0_avec)⟩]

/-- Window 4's three stores have different widths (63, 1 and 64 columns); cut into single columns of 1024 rows they
    tile the 128 columns (checked by evaluation), so they cover the buffer. -/
theorem cover0_4 (p0 : Vec F S1024x63 .bf16) (p1 : Vec F S1024x1 .bf16) (p2 : Vec F S1024x64 .bf16) (y : S1024x128.Idx) :
    ∃ pc ∈ ([⟨r0_pad, p0⟩, ⟨r0_one, p1⟩, ⟨r0_feat, p2⟩] : List (View.Piece (Elt F) S1024x128 .bf16)), y ∈ pc.1.set :=
  View.cover_of_tiledBy [⟨r0_pad, p0⟩, ⟨r0_one, p1⟩, ⟨r0_feat, p2⟩] ![1024, 1] (by sl_kernel_rfl) y

/-- Window 5's one store is the whole buffer. -/
theorem cover0_5 (p0 : Vec F S1024x1 .f32) (y : S1024x1.Idx) :
    ∃ pc ∈ ([⟨r0_logit, p0⟩] : List (View.Piece (Elt F) S1024x1 .f32)), y ∈ pc.1.set :=
  View.cover_of_tiled [⟨r0_logit, p0⟩] S1024x1.size (by rfl) y

/-- Window 6's one store is the whole buffer. -/
theorem cover0_6 (p0 : Vec F S1024x1 .f32) (y : S1024x1.Idx) :
    ∃ pc ∈ ([⟨r0_logit, p0⟩] : List (View.Piece (Elt F) S1024x1 .f32)), y ∈ pc.1.set :=
  View.cover_of_tiled [⟨r0_logit, p0⟩] S1024x1.size (by rfl) y

/-! ## The body's triple -/

set_option maxHeartbeats 1000000 in
/-- The kernel body on whole staging memrefs, the four inputs' at read contents `x0 … x3` and the three outputs' at
    anything, runs to the continuation holding the inputs' as they were and each output's at `out0_W` of the inputs'.
    The body also reads each output rectangle before it stores there; those values are used nowhere. -/
theorem sound_kernel0 (c : Dev nD) (E : Set ℕ) (i : grid0.Coords)
    (arg1 : Memref sig .tc .vmem S1024x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1024x128 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x256 .f32) (x1 : Vec F S256x64 .f32) (x2 : Vec F S1x64 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_4 _ _ _)
  isplitl [H6]
  · iexists _; isplitr
    swap; · iexact H6
    ipureintro
    exact View.read_writes_eq_canon _ _ _ (cover0_5 _)
  iexists _; isplitr
  swap; · iexact H7
  ipureintro
  exact View.read_writes_eq_canon _ _ _ (cover0_6 _)

/-! ## The pipeline's proof data -/

/-- The proof data of pipeline 0 on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.KR1Runs.lean ====
/- Region 1, the attention kernel over the grid 8 × 8 (point t = 8·qi + ki): what the three runs of its body share.
   Each window's block at a point, read off the contents `V` the region is entered with; the four input windows'
   staging buffers hold their blocks at every point; the body's two branch conditions decided over the grid (at
   ki = 0 the running row maximum, the denominator and the accumulator are reset; at ki = 7 the accumulator is divided
   by the denominator, passed through ELU and stored into the output block); where the output window is idle; the
   staging and scratch memrefs; and the class invariant with the three scratch buffers owned as memrefs. -/
import proofs.«416619_j37056977830238_3_alg».proof.Proof.Gen.Kernel.Launch
import proofs.«416619_j37056977830238_3_alg».proof.Proof.Gen.Kernel.Skeleton
import proofs.«416619_j37056977830238_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when region 1 is entered: the parameter its half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (it is fetched where ki = 0 and kept along the row of points), for any
    proof data whose array is `V`'s (`hA`) and whose body leaves the block in place (`hafter`): where the window is
    not fetched its block index has not moved, so the block the point before left is this point's; the window is
    uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (it is fetched at every point), for any
    proof data whose array is `V`'s (`hA`) and whose body leaves the block in place (`hafter`): where the window is
    not fetched its block index has not moved, so the block the point before left is this point's; the window is
    uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (it is fetched at every point), for any
    proof data whose array is `V`'s (`hA`) and whose body leaves the block in place (`hafter`): where the window is
    not fetched its block index has not moved, so the block the point before left is this point's; the window is
    uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (the whole array, fetched once at the first point), for any
    proof data whose array is `V`'s (`hA`) and whose body leaves the block in place (`hafter`): where the window is
    not fetched its block index has not moved, so the block the point before left is this point's; the window is
    uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first branch (reset of the running maximum, denominator and accumulator), from the
    grid coordinates: `ki = 0` as the kernel's scalar chain computes it. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second branch (final divide, ELU and store of the output block): `ki = 7`. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- At the points of case A (ki = 0) output 4 is idle: the case stores nothing into it. -/
theorem idleAt1_4_A : ∀ t : Fin cfg1.N, cond1_0 (grid1.coords t) → ¬cond1_1 (grid1.coords t) → cfg1.idle 4 (grid1.coords t) = true := by decide +kernel
/-- At the points of case A the pipeline does not write output 4's block back. -/
theorem noFlush1_4_A : ∀ t : Fin cfg1.N, cond1_0 (grid1.coords t) → ¬cond1_1 (grid1.coords t) → (cfg1.win 4).flush t = false := by decide +kernel
/-- At the points of case B (0 < ki < 7) output 4 is idle: the case stores nothing into it. -/
theorem idleAt1_4_B : ∀ t : Fin cfg1.N, ¬cond1_0 (grid1.coords t) → ¬cond1_1 (grid1.coords t) → cfg1.idle 4 (grid1.coords t) = true := by decide +kernel
/-- At the points of case B the pipeline does not write output 4's block back. -/
theorem noFlush1_4_B : ∀ t : Fin cfg1.N, ¬cond1_0 (grid1.coords t) → ¬cond1_1 (grid1.coords t) → (cfg1.win 4).flush t = false := by decide +kernel
/-- At the points of case C (ki = 7) output 4 is live: the case stores into it. -/
theorem liveAt1_4_C : ∀ t : Fin cfg1.N, ¬cond1_0 (grid1.coords t) → cond1_1 (grid1.coords t) → cfg1.idle 4 (grid1.coords t) = false := by decide +kernel

/-! ## The kernel body's memrefs -/

/-- One staging buffer of output window 4, through which its contents are stated (the choice does not matter). -/
abbrev VO1_4 : View sig .tc .vmem S1024x64 .f32 := (Memref.whole cc1_stg4_0 : Memref sig .tc .vmem S1024x64 .f32).view
/-- Each window's current staging memref at point `t`, spelled as the pipeline passes it, and its wholeness. -/
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows — the running row
    maximum, the softmax denominator, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
/-- The three scratch the kernel carries between points, as views: what they hold is stated through them. -/
abbrev VS1_0 : View sig .tc .vmem S1024x1 .f32 := scM1_0.view
abbrev VS1_1 : View sig .tc .vmem S1024x1 .f32 := scM1_1.view
abbrev VS1_2 : View sig .tc .vmem S1024x64 .f32 := scM1_2.view

/-- The core's scoped buffers that belong to the projection kernel's pipeline (its eleven staging buffers), each whole
    at some contents: region 1 never touches them, and its invariant carries them along unopened. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The class invariant of region 1 with the scratch operands as memrefs owned at some contents, the projection
    kernel's staging buffers riding along: what the body obligation hands the run and takes back. -/
theorem PhiA1_eq (c : Dev nD) :
    (Pipeline.ΦA spec1 c : sProp 𝕄)
      = iprop(otherScoped1 (F := F) c ∗ (∃ d, owns (c : Thread nD τ) scM1_0 fullShare d) ∗ (∃ d, owns (c : Thread nD τ) scM1_1 fullShare d)
          ∗ (∃ d, owns (c : Thread nD τ) scM1_2 fullShare d) ∗ (∃ r, prngReg c r)) := by
  unfold Pipeline.ΦA otherScoped1; rw [scopedRest1_eq]; simp only [scM1_0, scM1_1, scM1_2, owns_whole]
  refine BI.Entails.antisymm ?_ ?_
  · show BIBase.Entails (PROP := sProp 𝕄) _ _
    iintro ⟨⟨H0, H1, H2, H3, H4, H5, H6, H7, H8, H9, H10, S0, S1, S2⟩, R⟩
    iframe
  · show BIBase.Entails (PROP := sProp 𝕄) _ _
    iintro ⟨⟨H0, H1, H2, H3, H4, H5, H6, H7, H8, H9, H10⟩, S0, S1, S2, R⟩
    iframe

end Cert.Kernel.Hand

end
-- ==== Proof.KR1RunA.lean ====
/- Region 1, the attention kernel: the run of the whole body in case A (ki = 0, the first point of a row of the grid).
   The pieces each buffer ends with are the witness; the triple is the body's memory operations run in order, each
   branch decided by the case's hypotheses. -/
import proofs.«416619_j37056977830238_3_alg».proof.Proof.KR1Runs

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the three scratch, as pieces (last first), IN
    CASE A (ki = 0: the reset branch taken, the final branch not taken), with the proof that on whole memrefs — the four
    inputs' at their contents, the output's at contents `xi4` handed back untouched (no store, the window idle and
    not written back at the case's points), the three scratch at anything — the body runs to the continuation holding
    the inputs' as they were and each scratch with its pieces written: the reset stores, then the update of the
    denominator, the accumulator and the running maximum. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) :
    Σ' (L4 : List (View.Piece (Elt F) S1024x64 .f32)) (LS0 : List (View.Piece (Elt F) S1024x1 .f32)) (LS1 : List (View.Piece (Elt F) S1024x1 .f32)), { LS2 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.KR1RunB.lean ====
/- Region 1, the attention kernel: the run of the whole body in case B (0 < ki < 7, a middle point of a row).
   The pieces each buffer ends with are the witness; the triple is the body's memory operations run in order, each
   branch decided by the case's hypotheses. -/
import proofs.«416619_j37056977830238_3_alg».proof.Proof.KR1RunA

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the three scratch, as pieces (last first), IN
    CASE B (0 < ki < 7: neither branch taken), with the proof that on whole memrefs — the four inputs' at their
    contents, the output's at contents `xi4` handed back untouched (no store, the window idle and not written back at
    the case's points), the three scratch at what the point before left (`xs0`, `xs1`, `xs2`) — the body runs to the
    continuation holding the inputs' as they were and each scratch with its pieces written: the update of the
    denominator, the accumulator and the running maximum. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) :
    Σ' (L4 : List (View.Piece (Elt F) S1024x64 .f32)) (LS0 : List (View.Piece (Elt F) S1024x1 .f32)) (LS1 : List (View.Piece (Elt F) S1024x1 .f32)), { LS2 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.KR1RunC.lean ====
/- Region 1, the attention kernel: the run of the whole body in case C (ki = 7, the last point of a row).
   The pieces each buffer ends with are the witness; the triple is the body's memory operations run in order, each
   branch decided by the case's hypotheses. -/
import proofs.«416619_j37056977830238_3_alg».proof.Proof.KR1RunB

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the three scratch, as pieces (last first), IN
    CASE C (ki = 7: the reset branch not taken, the final branch taken), with the proof that on whole memrefs — the four
    inputs' at their contents, the output's at anything, the three scratch at what the point before left (`xs0`,
    `xs1`, `xs2`) — the body runs to the continuation holding the inputs' as they were, each scratch with its pieces
    written (the update of the denominator, the accumulator and the running maximum) and the output's buffer with the
    stored block: the accumulator divided by the denominator, through ELU. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) :
    Σ' (L4 : List (View.Piece (Elt F) S1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.KR1.lean ====
/- Region 1, the attention kernel over the grid 8 × 8 (point t = 8·qi + ki): its proof data and its body obligation at
   the contents `V` the region is entered with. Per case of the position within a query block (first key block: the
   running row maximum, the denominator and the accumulator are reset, then updated; middle key block: updated; last key
   block: updated, then the accumulator is divided by the denominator, passed through ELU and stored into the output
   block) what the stores leave in the output block and in the three carried buffers, and that they cover them; what
   those four buffers hold after each point, by recursion along the grid; the region invariant that carries the three
   buffers from point to point; the proof data; the body obligation at a generic point; and that the class invariant
   is the invariant before the first point and is given back after the last. -/
import proofs.«416619_j37056977830238_3_alg».proof.Proof.KR1RunC

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave in the output block and in the three carried buffers -/

/-- At the first key block of a query block (the carried buffers are reset, then updated) nothing is stored into the output block: a placeholder (junk read back) that nothing
    consults, since at these points the output window is neither written back nor read at the next point. -/
def out1_A_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x64 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- At the first key block of a query block (the carried buffers are reset, then updated): the pieces stored into the buffer of the running row maximum tile it, so they cover it. -/
theorem scover1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What that point leaves in the buffer of the running row maximum: its pieces read back over junk. -/
def sout1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- At the first key block of a query block (the carried buffers are reset, then updated): the pieces stored into the buffer of the running denominator tile it, so they cover it. -/
theorem scover1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What that point leaves in the buffer of the running denominator: its pieces read back over junk. -/
def sout1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- At the first key block of a query block (the carried buffers are reset, then updated): the pieces stored into the buffer of the running accumulator tile it, so they cover it. -/
theorem scover1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) (y : S1024x64.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x64.size (by sl_kernel_rfl) y

/-- What that point leaves in the buffer of the running accumulator: its pieces read back over junk. -/
def sout1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x64 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- At a middle key block (the carried buffers are updated) nothing is stored into the output block: a placeholder (junk read back) that nothing
    consults, since at these points the output window is neither written back nor read at the next point. -/
def out1_B_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x64 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- At a middle key block (the carried buffers are updated): the pieces stored into the buffer of the running row maximum tile it, so they cover it. -/
theorem scover1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What that point leaves in the buffer of the running row maximum: its pieces read back over junk. -/
def sout1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- At a middle key block (the carried buffers are updated): the pieces stored into the buffer of the running denominator tile it, so they cover it. -/
theorem scover1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What that point leaves in the buffer of the running denominator: its pieces read back over junk. -/
def sout1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- At a middle key block (the carried buffers are updated): the pieces stored into the buffer of the running accumulator tile it, so they cover it. -/
theorem scover1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x64.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x64.size (by sl_kernel_rfl) y

/-- What that point leaves in the buffer of the running accumulator: its pieces read back over junk. -/
def sout1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x64 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- At the last key block of a query block (the carried buffers are updated, the output block is normalised and stored): the pieces stored into the output block tile it, so they cover it. -/
theorem cover1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x64.size (by sl_kernel_rfl) y

/-- What the last key block leaves in the output's staging buffer: its pieces read back over junk. -/
def out1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x64 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- At the last key block of a query block (the carried buffers are updated, the output block is normalised and stored): the pieces stored into the buffer of the running row maximum tile it, so they cover it. -/
theorem scover1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What that point leaves in the buffer of the running row maximum: its pieces read back over junk. -/
def sout1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- At the last key block of a query block (the carried buffers are updated, the output block is normalised and stored): the pieces stored into the buffer of the running denominator tile it, so they cover it. -/
theorem scover1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What that point leaves in the buffer of the running denominator: its pieces read back over junk. -/
def sout1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- At the last key block of a query block (the carried buffers are updated, the output block is normalised and stored): the pieces stored into the buffer of the running accumulator tile it, so they cover it. -/
theorem scover1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x64.size (by sl_kernel_rfl) y

/-- What that point leaves in the buffer of the running accumulator: its pieces read back over junk. -/
def sout1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x64 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

section Region1
-- the TensorCore's buffer contents when region 1 is entered: the parameter its half is stated at
variable (V : (c : Dev nD) → (b : Ref sig .tc) → Buf (Elt F) ((c : Thread nD τ).loc b))

/-! ## What the output block and the carried buffers hold after each point -/

/-- THE ACCUMULATION. What the output's staging buffer and the three carried buffers (row maximum, denominator,
    accumulator) hold after the body at position `n` (a tuple: the output, then the three carried buffers): the case
    the position selects (first, middle or last key block of its query block), run at the point's memrefs and input
    blocks, the carried buffers at what the position before left in them. A position that is both first and last is
    no position (`False.elim`). -/
def outsAt1 (c : Dev nD) : (n : ℕ) → n < cfg1.N → Vec F S1024x64 .f32 × Vec F S1024x1 .f32 × Vec F S1024x1 .f32 × Vec F S1024x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by have hN : n + 1 < 64 := lt_of_lt_of_eq hn (show cfg1.N = 64 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first key block: that case's contents. -/
theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a middle key block: that case's contents, over what the point before left. -/
theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last key block: that case's contents, over what the point before left. -/
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`, the kernel CARRYING three buffers between points: before the first point
    the class invariant (every scoped buffer outside the pipeline at anything); afterwards the projection kernel's
    staging buffers still at anything, the running row maximum, the denominator and the accumulator each at what the
    point before left in it (`outsAt1`'s last three components), and the generator register at some state. -/
def PhiS1 (c : Dev nD) : (n : ℕ) → n ≤ cfg1.N → sProp 𝕄
  | 0, _ => Pipeline.ΦA spec1 c
  | n + 1, hn => iprop(otherScoped1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the three carried buffers at that point's contents. -/
theorem PhiS1_succ (c : Dev nD) (n : ℕ) (hn : n < cfg1.N) :
    PhiS1 V c (n + 1) hn = iprop(otherScoped1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

/-- Before a point that is not the first: the three carried buffers at what the point before left. -/
theorem PhiS1_pos (c : Dev nD) (n : ℕ) (h : n ≤ cfg1.N) (hz : n ≠ 0) :
    PhiS1 V c n h = iprop(otherScoped1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-! ## The pipeline's proof data -/

/-- The proof data of region 1's pipeline on core `c`: the arrays as the region finds them (`V`); after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the position within the query block says which case
    the point is in; so that case's run applies; the invariant hands the body the three carried buffers at what the
    point before left (at anything at the very first point, and at a later first key block their named contents are
    forgotten: the reset overwrites them), the projection kernel's staging buffers and the generator register pass
    through unopened, and the invariant takes the carried buffers back at this point's contents; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨HR, HS0, HS1, HS2, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨HR, HS0, HS1, HS2, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1 sout1_C_2; (try dsimp only)
      by_cases hz : t.val = 0
      · exfalso; omega
      · rw [PhiS1_castSucc V c t, PhiS1_pos V c _ _ hz]
        iintro ⟨⟨HR, HS0, HS1, HS2, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨HR, HS0, HS1, HS2, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the carried buffers' named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, HS0, HS1, HS2, Hg⟩
  isplitl [HR]; · iexact HR
  isplitl [HS0]; · iexists _; iexact HS0
  isplitl [HS1]; · iexists _; iexact HS1
  isplitl [HS2]; · iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Hand

end
-- ==== Proof.KRun.lean ====
/- The launch of the graph-attention program. @main is a stretch of host operations (the two halves of the attention
   vector sliced out of main_arg3 and laid as rows), the projection region (h = x·W, extended by a column of ones, with
   the two score columns f1 = h·a1 and f2 = h·a2), one more host operation (f2 transposed to a row), and the attention
   region (the masked softmax of leakyrelu(f1 + f2ᵀ) over each row's neighbours, applied to the extended features,
   divided and passed through ELU). The buffer contents at each of the four boundaries are a fold from the launch memory;
   each region is a segment entered from "every unscoped buffer at the boundary's contents" and left at the next
   boundary's; the run of the four segments ends with every unscoped buffer at the last fold W4: in particular the four
   argument arrays as launched, and the result array at what the attention region's write-backs leave. -/
import proofs.«416619_j37056977830238_3_alg».proof.Proof.KR0
import proofs.«416619_j37056977830238_3_alg».proof.Proof.KR1
import proofs.«416619_j37056977830238_3_alg».proof.Proof.Gen.Kernel.Launch
import proofs.«416619_j37056977830238_3_alg».proof.Proof.Gen.Kernel.Skeleton
import proofs.«416619_j37056977830238_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding which window's array a buffer is walks the windows' printed records
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's four segments from the launch to the return

## The buffer contents at each segment boundary: a fold through @main -/

/-- Core c's buffers at launch. -/
abbrev W0 : Dev nD → Valuation τ sig (Elt F) := fun c b => (s₀ m ρ).mem ((c : Dev nD), b)
/-- After the first host stretch (the two halves of the attention vector sliced out of main_arg3 and laid as
    rows): the projection region's entry. -/
abbrev W1 : Dev nD → Valuation τ sig (Elt F) := fun c => StableHlo.after hostOps0 (W0 m ρ c)
/-- The same read at the TensorCore's references (what the projection region's proof data take). -/
abbrev V1 : (c : Dev nD) → (b : Ref sig .tc) → Buf (Elt F) ((c : Thread nD τ).loc b) := fun c b => W1 m ρ c b
/-- At the projection region's exit: its seven arrays at what the pipeline leaves (the four inputs as entered, the
    extended features and the two score columns at their write-backs folded), every other buffer as entered. -/
def W2 (c : Dev nD) : Valuation τ sig (Elt F) :=
  Pipeline.withArrays spec0 c (W1 m ρ c) fun w => (dat0 (V1 m ρ) c).arrAt w cfg0.N
/-- The projection region's arrays after it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the projection region's exit contents). -/
abbrev V2 : (c : Dev nD) → (b : Ref sig .tc) → Buf (Elt F) ((c : Thread nD τ).loc b) := fun c b => W2 m ρ c b
/-- At the projection region's exit each of its arrays holds what the pipeline leaves and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the column of right-hand scores transposed to a row): the attention region's
    entry. -/
abbrev W3 : Dev nD → Valuation τ sig (Elt F) := fun c => StableHlo.after hostOps1 (W2 m ρ c)
/-- The same read at the TensorCore's references (what the attention region's proof data take). -/
abbrev V3 : (c : Dev nD) → (b : Ref sig .tc) → Buf (Elt F) ((c : Thread nD τ).loc b) := fun c b => W3 m ρ c b
/-- At the attention region's exit: its five arrays at what the pipeline leaves (the four inputs as entered, the
    output at its eight write-backs folded), every other buffer as entered. -/
def W4 (c : Dev nD) : Valuation τ sig (Elt F) :=
  Pipeline.withArrays spec1 c (W3 m ρ c) fun w => (dat1 (V3 m ρ) c).arrAt w cfg1.N
/-- The attention region's arrays after it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the attention region's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### What the host stretches leave alone -/

/-- The first host stretch writes main_v0, main_v1, main_v2, main_v3 and nothing else. -/
theorem W1_of (c : Dev nD) (b : Ref sig .tc) (h0 : b ≠ main_v0) (h1 : b ≠ main_v1) (h2 : b ≠ main_v2) (h3 : b ≠ main_v3) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))
/-- The second host stretch writes main_v5 and nothing else. -/
theorem W3_of (c : Dev nD) (b : Ref sig .tc) (h : b ≠ main_v5) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne h))

/-- The attention region's entry contents are the second host stretch run from the projection region's exit
    contents, -/
theorem V3_eq (c : Dev nD) (b : Ref sig .tc) : V3 m ρ c b = StableHlo.after hostOps1 (W2 m ρ c) (Proc.devRef .tc b) := rfl
/-- and the projection region's the first host stretch run from the launch memory. -/
theorem V1_eq (c : Dev nD) (b : Ref sig .tc) :
    V1 m ρ c b = StableHlo.after hostOps0 (fun b' => m ((c : Dev nD), b')) (Proc.devRef .tc b) := rfl
/-- Away from the transposed row the attention region is entered at what the projection region left. -/
theorem V3_of (c : Dev nD) (b : Ref sig .tc) (h : b ≠ main_v5) : V3 m ρ c b = W2 m ρ c (Proc.devRef .tc b) :=
  W3_of m ρ c b h
/-- The attention region reads the extended features, and the left-hand scores, as the projection region's
    write-backs left them, -/
theorem V3_main_v4_0 (c : Dev nD) : V3 m ρ c main_v4_0 = (dat0 (V1 m ρ) c).arrAt 4 cfg0.N :=
  (W3_of m ρ c main_v4_0 (by decide)).trans (W2_arr m ρ c 4)
theorem V3_main_v4_1 (c : Dev nD) : V3 m ρ c main_v4_1 = (dat0 (V1 m ρ) c).arrAt 5 cfg0.N :=
  (W3_of m ρ c main_v4_1 (by decide)).trans (W2_arr m ρ c 5)
/-- and the second host stretch reads the right-hand scores so. -/
theorem W2_main_v4_2 (c : Dev nD) : W2 m ρ c (Proc.devRef .tc main_v4_2) = (dat0 (V1 m ρ) c).arrAt 6 cfg0.N :=
  W2_arr m ρ c 6

/-! ### The arguments end as launched: no host operation and no region writes one (a region reads it through an
    input window or bypasses it), so the fold at an argument's buffer walks back to the launch memory -/

/-- The node features: the projection region's window 0, an input. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide) (by decide) (by decide) (by decide)
    _ = m ((c : Thread nD τ).loc main_arg0) := rfl

/-- The adjacency: the attention region's window 2, an input. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide) (by decide) (by decide) (by decide)
    _ = m ((c : Thread nD τ).loc main_arg1) := rfl

/-- The weights: the projection region's window 1, an input. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide) (by decide) (by decide) (by decide)
    _ = m ((c : Thread nD τ).loc main_arg2) := rfl

/-- The attention vector: read by the first host stretch only, no region's array. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide) (by decide) (by decide) (by decide)
    _ = m ((c : Thread nD τ).loc main_arg3) := rfl

/-- The result array ends at what the attention region's write-backs leave in its window 4. -/
theorem W4_main_v6 (c : Dev nD) : W4 m ρ c (Proc.devRef .tc main_v6) = (dat1 (V3 m ρ) c).arrAt 4 cfg1.N :=
  W4_arr m ρ c 4

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owes, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: its post is those
    references at the stretch's fold of W, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents W4, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- THE PROJECTION REGION over the thread state: entered from every unscoped buffer at W1, left at W2. Its seven
    arrays split out of the unscoped buffers and put back at the exit contents; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ATTENTION REGION over the thread state: entered from every unscoped buffer at W3, left at W4 (what the launch
    reads at the end). Its five arrays split out of the unscoped buffers and put back at the exit contents. Its
    invariant carries the running maximum, the denominator and the accumulator between points, so it is entered
    through the scoped rest and the generator register (from which the first point's invariant is made) and left
    through them (to which the last point's invariant gives the three scratch buffers back); nothing owed; no
    semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine Idealize.SL.BI.BIBase.Entails.trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine Idealize.SL.BI.BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments: the chain of its items, against which the segments' run unfolds. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and every final state holds EVERY unscoped buffer of every core at the last boundary's
    contents W4: the four arguments (W4_main_arg0 … W4_main_arg3) and the result (W4_main_v6) among them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME, at any F: every weakly fair execution of @main terminates, nothing faulting, and every final state has
    the four argument arrays as launched: each read off the run's last contents and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.KIR0.lean ====
/- REGION 0 of @main, the projection kernel `cc0__proj_kernel` (pipeline 0, seven windows), at the contents `V` the
   TensorCore's buffers hold when the region is entered. Per window its block at a grid point (`iblk0`); for the three
   outputs what the body leaves in the staging buffer, as a function of the input blocks: the extended feature block
   `[h W | 1 | 0 … 0]` in bf16 (`out0_4`) and the two attention logits' columns `(h W) · a1` and `(h W) · a2`
   (`out0_5`, `out0_6`); the body's triple (`sound_kernel0`); the pipeline's proof data (`dat0`) and its body
   obligation at every point (`body_obligation0`). Stated at any float model `F`. -/
import proofs.«416619_j37056977830238_3_alg».proof.Proof.Gen.KernelIdeal.Launch
import proofs.«416619_j37056977830238_3_alg».proof.Proof.Gen.KernelIdeal.Skeleton
import proofs.«416619_j37056977830238_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: the projection kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the block of input rows): its current staging buffer holds its block at every point, fetched there or not, for
    any proof data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, fetched at the first point only): its current staging buffer holds its block at every point, fetched there or not, for
    any proof data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the first attention vector, fetched at the first point only): its current staging buffer holds its block at every point, fetched there or not, for
    any proof data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the second attention vector, fetched at the first point only): its current staging buffer holds its block at every point, fetched there or not, for
    any proof data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- the 1024 x 256 block of input rows, whole -/
abbrev r0_rows : Rect S1024x256 := Rect.unit (s := S1024x256) ![0, 0] S1024x256.size inb_S1024x256_S1024x256_0_0
/-- the 256 x 64 weight matrix, whole -/
abbrev r0_weights : Rect S256x64 := Rect.unit (s := S256x64) ![0, 0] S256x64.size inb_S256x64_S256x64_0_0
/-- columns 0..63 of the extended feature block: the projected features -/
abbrev r0_feat : Rect S1024x128 := Rect.unit (s := S1024x128) ![0, 0] S1024x64.size inb_S1024x128_S1024x64_0_0
/-- column 64 of the extended feature block: the constant one -/
abbrev r0_one : Rect S1024x128 := Rect.unit (s := S1024x128) ![0, 64] S1024x1.size inb_S1024x128_S1024x1_0_64
/-- columns 65..127 of the extended feature block: the zero padding -/
abbrev r0_pad : Rect S1024x128 := Rect.unit (s := S1024x128) ![0, 65] S1024x63.size inb_S1024x128_S1024x63_0_65
/-- an attention vector's 1 x 64 row, whole -/
abbrev r0_avec : Rect S1x64 := Rect.unit (s := S1x64) ![0, 0] S1x64.size inb_S1x64_S1x64_0_0
/-- a logit column of 1024 rows, whole -/
abbrev r0_logit : Rect S1024x1 := Rect.unit (s := S1024x1) ![0, 0] S1024x1.size inb_S1024x1_S1024x1_0_0

/-! ## What the body leaves in each output window's buffer -/

/-- Window 4's staging buffer after the body, from the input rows `x0` and the weights `x1`: its three stores as pieces,
    LAST FIRST — the zero padding, the column of ones, the projected features rounded to bf16. -/
def out0_4 (x0 : Vec F S1024x256 .f32) (x1 : Vec F S256x64 .f32) : Vec F S1024x128 .bf16 :=
  View.canon [⟨r0_pad, k0_pay4 (F := F)⟩,
    ⟨r0_one, k0_pay3 (F := F)⟩,
    ⟨r0_feat, k0_pay2 (View.ld x0 r0_rows) (View.ld x1 r0_weights)⟩]

/-- Window 5's staging buffer after the body: one whole store, the projected features' products with the first
    attention vector `x2` summed along each row. -/
def out0_5 (x0 : Vec F S1024x256 .f32) (x1 : Vec F S256x64 .f32) (x2 : Vec F S1x64 .f32) : Vec F S1024x1 .f32 :=
  View.canon [⟨r0_logit, k0_pay5 (View.ld x0 r0_rows) (View.ld x1 r0_weights) (View.ld x2 r0_avec)⟩]

/-- Window 6's staging buffer after the body: the same with the second attention vector `x3`. -/
def out0_6 (x0 : Vec F S1024x256 .f32) (x1 : Vec F S256x64 .f32) (x3 : Vec F S1x64 .f32) : Vec F S1024x1 .f32 :=
  View.canon [⟨r0_logit, k0_pay6 (View.ld x0 r0_rows) (View.ld x1 r0_weights) (View.ld x3 r0_avec)⟩]

/-- Window 4's three stores have different widths (63, 1 and 64 columns); cut into single columns of 1024 rows they
    tile the 128 columns (checked by evaluation), so they cover the buffer. -/
theorem cover0_4 (p0 : Vec F S1024x63 .bf16) (p1 : Vec F S1024x1 .bf16) (p2 : Vec F S1024x64 .bf16) (y : S1024x128.Idx) :
    ∃ pc ∈ ([⟨r0_pad, p0⟩, ⟨r0_one, p1⟩, ⟨r0_feat, p2⟩] : List (View.Piece (Elt F) S1024x128 .bf16)), y ∈ pc.1.set :=
  View.cover_of_tiledBy [⟨r0_pad, p0⟩, ⟨r0_one, p1⟩, ⟨r0_feat, p2⟩] ![1024, 1] (by sl_kernel_rfl) y

/-- Window 5's one store is the whole buffer. -/
theorem cover0_5 (p0 : Vec F S1024x1 .f32) (y : S1024x1.Idx) :
    ∃ pc ∈ ([⟨r0_logit, p0⟩] : List (View.Piece (Elt F) S1024x1 .f32)), y ∈ pc.1.set :=
  View.cover_of_tiled [⟨r0_logit, p0⟩] S1024x1.size (by rfl) y

/-- Window 6's one store is the whole buffer. -/
theorem cover0_6 (p0 : Vec F S1024x1 .f32) (y : S1024x1.Idx) :
    ∃ pc ∈ ([⟨r0_logit, p0⟩] : List (View.Piece (Elt F) S1024x1 .f32)), y ∈ pc.1.set :=
  View.cover_of_tiled [⟨r0_logit, p0⟩] S1024x1.size (by rfl) y

/-! ## The body's triple -/

set_option maxHeartbeats 1000000 in
/-- The kernel body on whole staging memrefs, the four inputs' at read contents `x0 … x3` and the three outputs' at
    anything, runs to the continuation holding the inputs' as they were and each output's at `out0_W` of the inputs'.
    The body also reads each output rectangle before it stores there; those values are used nowhere. -/
theorem sound_kernel0 (c : Dev nD) (E : Set ℕ) (i : grid0.Coords)
    (arg1 : Memref sig .tc .vmem S1024x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1024x128 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x256 .f32) (x1 : Vec F S256x64 .f32) (x2 : Vec F S1x64 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_4 _ _ _)
  isplitl [H6]
  · iexists _; isplitr
    swap; · iexact H6
    ipureintro
    exact View.read_writes_eq_canon _ _ _ (cover0_5 _)
  iexists _; isplitr
  swap; · iexact H7
  ipureintro
  exact View.read_writes_eq_canon _ _ _ (cover0_6 _)

/-! ## The pipeline's proof data -/

/-- The proof data of pipeline 0 on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KIR1Runs.lean ====
/- Region 1, the attention kernel over the grid 8 × 8 (point t = 8·qi + ki): what the three runs of its body share.
   Each window's block at a point, read off the contents `V` the region is entered with; the four input windows'
   staging buffers hold their blocks at every point; the body's two branch conditions decided over the grid (at
   ki = 0 the running row maximum, the denominator and the accumulator are reset; at ki = 7 the accumulator is divided
   by the denominator, passed through ELU and stored into the output block); where the output window is idle; the
   staging and scratch memrefs; and the class invariant with the three scratch buffers owned as memrefs. -/
import proofs.«416619_j37056977830238_3_alg».proof.Proof.Gen.KernelIdeal.Launch
import proofs.«416619_j37056977830238_3_alg».proof.Proof.Gen.KernelIdeal.Skeleton
import proofs.«416619_j37056977830238_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when region 1 is entered: the parameter its half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (it is fetched where ki = 0 and kept along the row of points), for any
    proof data whose array is `V`'s (`hA`) and whose body leaves the block in place (`hafter`): where the window is
    not fetched its block index has not moved, so the block the point before left is this point's; the window is
    uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (it is fetched at every point), for any
    proof data whose array is `V`'s (`hA`) and whose body leaves the block in place (`hafter`): where the window is
    not fetched its block index has not moved, so the block the point before left is this point's; the window is
    uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (it is fetched at every point), for any
    proof data whose array is `V`'s (`hA`) and whose body leaves the block in place (`hafter`): where the window is
    not fetched its block index has not moved, so the block the point before left is this point's; the window is
    uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (the whole array, fetched once at the first point), for any
    proof data whose array is `V`'s (`hA`) and whose body leaves the block in place (`hafter`): where the window is
    not fetched its block index has not moved, so the block the point before left is this point's; the window is
    uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first branch (reset of the running maximum, denominator and accumulator), from the
    grid coordinates: `ki = 0` as the kernel's scalar chain computes it. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second branch (final divide, ELU and store of the output block): `ki = 7`. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- At the points of case A (ki = 0) output 4 is idle: the case stores nothing into it. -/
theorem idleAt1_4_A : ∀ t : Fin cfg1.N, cond1_0 (grid1.coords t) → ¬cond1_1 (grid1.coords t) → cfg1.idle 4 (grid1.coords t) = true := by decide +kernel
/-- At the points of case A the pipeline does not write output 4's block back. -/
theorem noFlush1_4_A : ∀ t : Fin cfg1.N, cond1_0 (grid1.coords t) → ¬cond1_1 (grid1.coords t) → (cfg1.win 4).flush t = false := by decide +kernel
/-- At the points of case B (0 < ki < 7) output 4 is idle: the case stores nothing into it. -/
theorem idleAt1_4_B : ∀ t : Fin cfg1.N, ¬cond1_0 (grid1.coords t) → ¬cond1_1 (grid1.coords t) → cfg1.idle 4 (grid1.coords t) = true := by decide +kernel
/-- At the points of case B the pipeline does not write output 4's block back. -/
theorem noFlush1_4_B : ∀ t : Fin cfg1.N, ¬cond1_0 (grid1.coords t) → ¬cond1_1 (grid1.coords t) → (cfg1.win 4).flush t = false := by decide +kernel
/-- At the points of case C (ki = 7) output 4 is live: the case stores into it. -/
theorem liveAt1_4_C : ∀ t : Fin cfg1.N, ¬cond1_0 (grid1.coords t) → cond1_1 (grid1.coords t) → cfg1.idle 4 (grid1.coords t) = false := by decide +kernel

/-! ## The kernel body's memrefs -/

/-- One staging buffer of output window 4, through which its contents are stated (the choice does not matter). -/
abbrev VO1_4 : View sig .tc .vmem S1024x64 .f32 := (Memref.whole cc1_stg4_0 : Memref sig .tc .vmem S1024x64 .f32).view
/-- Each window's current staging memref at point `t`, spelled as the pipeline passes it, and its wholeness. -/
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows — the running row
    maximum, the softmax denominator, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
/-- The three scratch the kernel carries between points, as views: what they hold is stated through them. -/
abbrev VS1_0 : View sig .tc .vmem S1024x1 .f32 := scM1_0.view
abbrev VS1_1 : View sig .tc .vmem S1024x1 .f32 := scM1_1.view
abbrev VS1_2 : View sig .tc .vmem S1024x64 .f32 := scM1_2.view

/-- The core's scoped buffers that belong to the projection kernel's pipeline (its eleven staging buffers), each whole
    at some contents: region 1 never touches them, and its invariant carries them along unopened. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The class invariant of region 1 with the scratch operands as memrefs owned at some contents, the projection
    kernel's staging buffers riding along: what the body obligation hands the run and takes back. -/
theorem PhiA1_eq (c : Dev nD) :
    (Pipeline.ΦA spec1 c : sProp 𝕄)
      = iprop(otherScoped1 (F := F) c ∗ (∃ d, owns (c : Thread nD τ) scM1_0 fullShare d) ∗ (∃ d, owns (c : Thread nD τ) scM1_1 fullShare d)
          ∗ (∃ d, owns (c : Thread nD τ) scM1_2 fullShare d) ∗ (∃ r, prngReg c r)) := by
  unfold Pipeline.ΦA otherScoped1; rw [scopedRest1_eq]; simp only [scM1_0, scM1_1, scM1_2, owns_whole]
  refine BI.Entails.antisymm ?_ ?_
  · show BIBase.Entails (PROP := sProp 𝕄) _ _
    iintro ⟨⟨H0, H1, H2, H3, H4, H5, H6, H7, H8, H9, H10, S0, S1, S2⟩, R⟩
    iframe
  · show BIBase.Entails (PROP := sProp 𝕄) _ _
    iintro ⟨⟨H0, H1, H2, H3, H4, H5, H6, H7, H8, H9, H10⟩, S0, S1, S2, R⟩
    iframe

end Cert.KernelIdeal.Hand

end
-- ==== Proof.KIR1RunA.lean ====
/- Region 1, the attention kernel: the run of the whole body in case A (ki = 0, the first point of a row of the grid).
   The pieces each buffer ends with are the witness; the triple is the body's memory operations run in order, each
   branch decided by the case's hypotheses. -/
import proofs.«416619_j37056977830238_3_alg».proof.Proof.KIR1Runs

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the three scratch, as pieces (last first), IN
    CASE A (ki = 0: the reset branch taken, the final branch not taken), with the proof that on whole memrefs — the four
    inputs' at their contents, the output's at contents `xi4` handed back untouched (no store, the window idle and
    not written back at the case's points), the three scratch at anything — the body runs to the continuation holding
    the inputs' as they were and each scratch with its pieces written: the reset stores, then the update of the
    denominator, the accumulator and the running maximum. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) :
    Σ' (L4 : List (View.Piece (Elt F) S1024x64 .f32)) (LS0 : List (View.Piece (Elt F) S1024x1 .f32)) (LS1 : List (View.Piece (Elt F) S1024x1 .f32)), { LS2 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KIR1RunB.lean ====
/- Region 1, the attention kernel: the run of the whole body in case B (0 < ki < 7, a middle point of a row).
   The pieces each buffer ends with are the witness; the triple is the body's memory operations run in order, each
   branch decided by the case's hypotheses. -/
import proofs.«416619_j37056977830238_3_alg».proof.Proof.KIR1RunA

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the three scratch, as pieces (last first), IN
    CASE B (0 < ki < 7: neither branch taken), with the proof that on whole memrefs — the four inputs' at their
    contents, the output's at contents `xi4` handed back untouched (no store, the window idle and not written back at
    the case's points), the three scratch at what the point before left (`xs0`, `xs1`, `xs2`) — the body runs to the
    continuation holding the inputs' as they were and each scratch with its pieces written: the update of the
    denominator, the accumulator and the running maximum. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) :
    Σ' (L4 : List (View.Piece (Elt F) S1024x64 .f32)) (LS0 : List (View.Piece (Elt F) S1024x1 .f32)) (LS1 : List (View.Piece (Elt F) S1024x1 .f32)), { LS2 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KIR1RunC.lean ====
/- Region 1, the attention kernel: the run of the whole body in case C (ki = 7, the last point of a row).
   The pieces each buffer ends with are the witness; the triple is the body's memory operations run in order, each
   branch decided by the case's hypotheses. -/
import proofs.«416619_j37056977830238_3_alg».proof.Proof.KIR1RunB

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the three scratch, as pieces (last first), IN
    CASE C (ki = 7: the reset branch not taken, the final branch taken), with the proof that on whole memrefs — the four
    inputs' at their contents, the output's at anything, the three scratch at what the point before left (`xs0`,
    `xs1`, `xs2`) — the body runs to the continuation holding the inputs' as they were, each scratch with its pieces
    written (the update of the denominator, the accumulator and the running maximum) and the output's buffer with the
    stored block: the accumulator divided by the denominator, through ELU. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) :
    Σ' (L4 : List (View.Piece (Elt F) S1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KIR1.lean ====
/- Region 1, the attention kernel over the grid 8 × 8 (point t = 8·qi + ki): its proof data and its body obligation at
   the contents `V` the region is entered with. Per case of the position within a query block (first key block: the
   running row maximum, the denominator and the accumulator are reset, then updated; middle key block: updated; last key
   block: updated, then the accumulator is divided by the denominator, passed through ELU and stored into the output
   block) what the stores leave in the output block and in the three carried buffers, and that they cover them; what
   those four buffers hold after each point, by recursion along the grid; the region invariant that carries the three
   buffers from point to point; the proof data; the body obligation at a generic point; and that the class invariant
   is the invariant before the first point and is given back after the last. -/
import proofs.«416619_j37056977830238_3_alg».proof.Proof.KIR1RunC

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave in the output block and in the three carried buffers -/

/-- At the first key block of a query block (the carried buffers are reset, then updated) nothing is stored into the output block: a placeholder (junk read back) that nothing
    consults, since at these points the output window is neither written back nor read at the next point. -/
def out1_A_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x64 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- At the first key block of a query block (the carried buffers are reset, then updated): the pieces stored into the buffer of the running row maximum tile it, so they cover it. -/
theorem scover1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What that point leaves in the buffer of the running row maximum: its pieces read back over junk. -/
def sout1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- At the first key block of a query block (the carried buffers are reset, then updated): the pieces stored into the buffer of the running denominator tile it, so they cover it. -/
theorem scover1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What that point leaves in the buffer of the running denominator: its pieces read back over junk. -/
def sout1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- At the first key block of a query block (the carried buffers are reset, then updated): the pieces stored into the buffer of the running accumulator tile it, so they cover it. -/
theorem scover1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) (y : S1024x64.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x64.size (by sl_kernel_rfl) y

/-- What that point leaves in the buffer of the running accumulator: its pieces read back over junk. -/
def sout1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x64 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- At a middle key block (the carried buffers are updated) nothing is stored into the output block: a placeholder (junk read back) that nothing
    consults, since at these points the output window is neither written back nor read at the next point. -/
def out1_B_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x64 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- At a middle key block (the carried buffers are updated): the pieces stored into the buffer of the running row maximum tile it, so they cover it. -/
theorem scover1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What that point leaves in the buffer of the running row maximum: its pieces read back over junk. -/
def sout1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- At a middle key block (the carried buffers are updated): the pieces stored into the buffer of the running denominator tile it, so they cover it. -/
theorem scover1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What that point leaves in the buffer of the running denominator: its pieces read back over junk. -/
def sout1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- At a middle key block (the carried buffers are updated): the pieces stored into the buffer of the running accumulator tile it, so they cover it. -/
theorem scover1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x64.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x64.size (by sl_kernel_rfl) y

/-- What that point leaves in the buffer of the running accumulator: its pieces read back over junk. -/
def sout1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x64 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- At the last key block of a query block (the carried buffers are updated, the output block is normalised and stored): the pieces stored into the output block tile it, so they cover it. -/
theorem cover1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x64.size (by sl_kernel_rfl) y

/-- What the last key block leaves in the output's staging buffer: its pieces read back over junk. -/
def out1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x64 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- At the last key block of a query block (the carried buffers are updated, the output block is normalised and stored): the pieces stored into the buffer of the running row maximum tile it, so they cover it. -/
theorem scover1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What that point leaves in the buffer of the running row maximum: its pieces read back over junk. -/
def sout1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- At the last key block of a query block (the carried buffers are updated, the output block is normalised and stored): the pieces stored into the buffer of the running denominator tile it, so they cover it. -/
theorem scover1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What that point leaves in the buffer of the running denominator: its pieces read back over junk. -/
def sout1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- At the last key block of a query block (the carried buffers are updated, the output block is normalised and stored): the pieces stored into the buffer of the running accumulator tile it, so they cover it. -/
theorem scover1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x64.size (by sl_kernel_rfl) y

/-- What that point leaves in the buffer of the running accumulator: its pieces read back over junk. -/
def sout1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) : Vec F S1024x64 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

section Region1
-- the TensorCore's buffer contents when region 1 is entered: the parameter its half is stated at
variable (V : (c : Dev nD) → (b : Ref sig .tc) → Buf (Elt F) ((c : Thread nD τ).loc b))

/-! ## What the output block and the carried buffers hold after each point -/

/-- THE ACCUMULATION. What the output's staging buffer and the three carried buffers (row maximum, denominator,
    accumulator) hold after the body at position `n` (a tuple: the output, then the three carried buffers): the case
    the position selects (first, middle or last key block of its query block), run at the point's memrefs and input
    blocks, the carried buffers at what the position before left in them. A position that is both first and last is
    no position (`False.elim`). -/
def outsAt1 (c : Dev nD) : (n : ℕ) → n < cfg1.N → Vec F S1024x64 .f32 × Vec F S1024x1 .f32 × Vec F S1024x1 .f32 × Vec F S1024x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by have hN : n + 1 < 64 := lt_of_lt_of_eq hn (show cfg1.N = 64 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first key block: that case's contents. -/
theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a middle key block: that case's contents, over what the point before left. -/
theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last key block: that case's contents, over what the point before left. -/
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`, the kernel CARRYING three buffers between points: before the first point
    the class invariant (every scoped buffer outside the pipeline at anything); afterwards the projection kernel's
    staging buffers still at anything, the running row maximum, the denominator and the accumulator each at what the
    point before left in it (`outsAt1`'s last three components), and the generator register at some state. -/
def PhiS1 (c : Dev nD) : (n : ℕ) → n ≤ cfg1.N → sProp 𝕄
  | 0, _ => Pipeline.ΦA spec1 c
  | n + 1, hn => iprop(otherScoped1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the three carried buffers at that point's contents. -/
theorem PhiS1_succ (c : Dev nD) (n : ℕ) (hn : n < cfg1.N) :
    PhiS1 V c (n + 1) hn = iprop(otherScoped1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

/-- Before a point that is not the first: the three carried buffers at what the point before left. -/
theorem PhiS1_pos (c : Dev nD) (n : ℕ) (h : n ≤ cfg1.N) (hz : n ≠ 0) :
    PhiS1 V c n h = iprop(otherScoped1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-! ## The pipeline's proof data -/

/-- The proof data of region 1's pipeline on core `c`: the arrays as the region finds them (`V`); after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the position within the query block says which case
    the point is in; so that case's run applies; the invariant hands the body the three carried buffers at what the
    point before left (at anything at the very first point, and at a later first key block their named contents are
    forgotten: the reset overwrites them), the projection kernel's staging buffers and the generator register pass
    through unopened, and the invariant takes the carried buffers back at this point's contents; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨HR, HS0, HS1, HS2, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨HR, HS0, HS1, HS2, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1 sout1_C_2; (try dsimp only)
      by_cases hz : t.val = 0
      · exfalso; omega
      · rw [PhiS1_castSucc V c t, PhiS1_pos V c _ _ hz]
        iintro ⟨⟨HR, HS0, HS1, HS2, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨HR, HS0, HS1, HS2, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the carried buffers' named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, HS0, HS1, HS2, Hg⟩
  isplitl [HR]; · iexact HR
  isplitl [HS0]; · iexists _; iexact HS0
  isplitl [HS1]; · iexists _; iexact HS1
  isplitl [HS2]; · iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Hand

end
-- ==== Proof.KIRun.lean ====
/- The launch of the graph-attention program. @main is a stretch of host operations (the two halves of the attention
   vector sliced out of main_arg3 and laid as rows), the projection region (h = x·W, extended by a column of ones, with
   the two score columns f1 = h·a1 and f2 = h·a2), one more host operation (f2 transposed to a row), and the attention
   region (the masked softmax of leakyrelu(f1 + f2ᵀ) over each row's neighbours, applied to the extended features,
   divided and passed through ELU). The buffer contents at each of the four boundaries are a fold from the launch memory;
   each region is a segment entered from "every unscoped buffer at the boundary's contents" and left at the next
   boundary's; the run of the four segments ends with every unscoped buffer at the last fold W4: in particular the four
   argument arrays as launched, and the result array at what the attention region's write-backs leave. -/
import proofs.«416619_j37056977830238_3_alg».proof.Proof.KIR0
import proofs.«416619_j37056977830238_3_alg».proof.Proof.KIR1
import proofs.«416619_j37056977830238_3_alg».proof.Proof.Gen.KernelIdeal.Launch
import proofs.«416619_j37056977830238_3_alg».proof.Proof.Gen.KernelIdeal.Skeleton
import proofs.«416619_j37056977830238_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding which window's array a buffer is walks the windows' printed records
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's four segments from the launch to the return

## The buffer contents at each segment boundary: a fold through @main -/

/-- Core c's buffers at launch. -/
abbrev W0 : Dev nD → Valuation τ sig (Elt F) := fun c b => (s₀ m ρ).mem ((c : Dev nD), b)
/-- After the first host stretch (the two halves of the attention vector sliced out of main_arg3 and laid as
    rows): the projection region's entry. -/
abbrev W1 : Dev nD → Valuation τ sig (Elt F) := fun c => StableHlo.after hostOps0 (W0 m ρ c)
/-- The same read at the TensorCore's references (what the projection region's proof data take). -/
abbrev V1 : (c : Dev nD) → (b : Ref sig .tc) → Buf (Elt F) ((c : Thread nD τ).loc b) := fun c b => W1 m ρ c b
/-- At the projection region's exit: its seven arrays at what the pipeline leaves (the four inputs as entered, the
    extended features and the two score columns at their write-backs folded), every other buffer as entered. -/
def W2 (c : Dev nD) : Valuation τ sig (Elt F) :=
  Pipeline.withArrays spec0 c (W1 m ρ c) fun w => (dat0 (V1 m ρ) c).arrAt w cfg0.N
/-- The projection region's arrays after it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the projection region's exit contents). -/
abbrev V2 : (c : Dev nD) → (b : Ref sig .tc) → Buf (Elt F) ((c : Thread nD τ).loc b) := fun c b => W2 m ρ c b
/-- At the projection region's exit each of its arrays holds what the pipeline leaves and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the column of right-hand scores transposed to a row): the attention region's
    entry. -/
abbrev W3 : Dev nD → Valuation τ sig (Elt F) := fun c => StableHlo.after hostOps1 (W2 m ρ c)
/-- The same read at the TensorCore's references (what the attention region's proof data take). -/
abbrev V3 : (c : Dev nD) → (b : Ref sig .tc) → Buf (Elt F) ((c : Thread nD τ).loc b) := fun c b => W3 m ρ c b
/-- At the attention region's exit: its five arrays at what the pipeline leaves (the four inputs as entered, the
    output at its eight write-backs folded), every other buffer as entered. -/
def W4 (c : Dev nD) : Valuation τ sig (Elt F) :=
  Pipeline.withArrays spec1 c (W3 m ρ c) fun w => (dat1 (V3 m ρ) c).arrAt w cfg1.N
/-- The attention region's arrays after it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the attention region's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### What the host stretches leave alone -/

/-- The first host stretch writes main_v0, main_v1, main_v2, main_v3 and nothing else. -/
theorem W1_of (c : Dev nD) (b : Ref sig .tc) (h0 : b ≠ main_v0) (h1 : b ≠ main_v1) (h2 : b ≠ main_v2) (h3 : b ≠ main_v3) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))
/-- The second host stretch writes main_v5 and nothing else. -/
theorem W3_of (c : Dev nD) (b : Ref sig .tc) (h : b ≠ main_v5) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne h))

/-- The attention region's entry contents are the second host stretch run from the projection region's exit
    contents, -/
theorem V3_eq (c : Dev nD) (b : Ref sig .tc) : V3 m ρ c b = StableHlo.after hostOps1 (W2 m ρ c) (Proc.devRef .tc b) := rfl
/-- and the projection region's the first host stretch run from the launch memory. -/
theorem V1_eq (c : Dev nD) (b : Ref sig .tc) :
    V1 m ρ c b = StableHlo.after hostOps0 (fun b' => m ((c : Dev nD), b')) (Proc.devRef .tc b) := rfl
/-- Away from the transposed row the attention region is entered at what the projection region left. -/
theorem V3_of (c : Dev nD) (b : Ref sig .tc) (h : b ≠ main_v5) : V3 m ρ c b = W2 m ρ c (Proc.devRef .tc b) :=
  W3_of m ρ c b h
/-- The attention region reads the extended features, and the left-hand scores, as the projection region's
    write-backs left them, -/
theorem V3_main_v4_0 (c : Dev nD) : V3 m ρ c main_v4_0 = (dat0 (V1 m ρ) c).arrAt 4 cfg0.N :=
  (W3_of m ρ c main_v4_0 (by decide)).trans (W2_arr m ρ c 4)
theorem V3_main_v4_1 (c : Dev nD) : V3 m ρ c main_v4_1 = (dat0 (V1 m ρ) c).arrAt 5 cfg0.N :=
  (W3_of m ρ c main_v4_1 (by decide)).trans (W2_arr m ρ c 5)
/-- and the second host stretch reads the right-hand scores so. -/
theorem W2_main_v4_2 (c : Dev nD) : W2 m ρ c (Proc.devRef .tc main_v4_2) = (dat0 (V1 m ρ) c).arrAt 6 cfg0.N :=
  W2_arr m ρ c 6

/-! ### The arguments end as launched: no host operation and no region writes one (a region reads it through an
    input window or bypasses it), so the fold at an argument's buffer walks back to the launch memory -/

/-- The node features: the projection region's window 0, an input. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide) (by decide) (by decide) (by decide)
    _ = m ((c : Thread nD τ).loc main_arg0) := rfl

/-- The adjacency: the attention region's window 2, an input. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide) (by decide) (by decide) (by decide)
    _ = m ((c : Thread nD τ).loc main_arg1) := rfl

/-- The weights: the projection region's window 1, an input. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide) (by decide) (by decide) (by decide)
    _ = m ((c : Thread nD τ).loc main_arg2) := rfl

/-- The attention vector: read by the first host stretch only, no region's array. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide) (by decide) (by decide) (by decide)
    _ = m ((c : Thread nD τ).loc main_arg3) := rfl

/-- The result array ends at what the attention region's write-backs leave in its window 4. -/
theorem W4_main_v6 (c : Dev nD) : W4 m ρ c (Proc.devRef .tc main_v6) = (dat1 (V3 m ρ) c).arrAt 4 cfg1.N :=
  W4_arr m ρ c 4

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owes, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: its post is those
    references at the stretch's fold of W, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents W4, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- THE PROJECTION REGION over the thread state: entered from every unscoped buffer at W1, left at W2. Its seven
    arrays split out of the unscoped buffers and put back at the exit contents; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ATTENTION REGION over the thread state: entered from every unscoped buffer at W3, left at W4 (what the launch
    reads at the end). Its five arrays split out of the unscoped buffers and put back at the exit contents. Its
    invariant carries the running maximum, the denominator and the accumulator between points, so it is entered
    through the scoped rest and the generator register (from which the first point's invariant is made) and left
    through them (to which the last point's invariant gives the three scratch buffers back); nothing owed; no
    semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine Idealize.SL.BI.BIBase.Entails.trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine Idealize.SL.BI.BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments: the chain of its items, against which the segments' run unfolds. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and every final state holds EVERY unscoped buffer of every core at the last boundary's
    contents W4: the four arguments (W4_main_arg0 … W4_main_arg3) and the result (W4_main_v6) among them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME, at any F: every weakly fair execution of @main terminates, nothing faulting, and every final state has
    the four argument arrays as launched: each read off the run's last contents and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.Spec.lean ====
/-
  The mathematics of one attention row, stated once for both programs.

  A row of the layer has scores `e j` (the masked leaky-ReLU of `f1 i + f2 j`) against the 8192 keys and, for one output
  column, values `h j`. The dense form normalises `exp (e j − M)` by its sum over the whole row, `M` the row maximum.
  The online form walks the keys in eight tiles of 1024, carrying the running maximum `m`, the running denominator `l`
  and the running numerator `acc`, rescaling both by `exp (m − m')` whenever the maximum moves, and divides at the end.
-/
import Idealize.ShloMosaic.PureOps.Ideal
import Idealize.ShloMosaic.PureOps.Ideal.Laws

noncomputable section

namespace Cert.Attn

open Idealize.ShloMosaic

/-- The score of one (query, key) pair from `s = f1 i + f2 j` and the adjacency word: the leaky ReLU of `s` with slope
    the float `0.2` where the word is positive, the large negative float elsewhere. -/
def score (s : EReal) (a : BitVec 32) : EReal :=
  Scalar.select (Scalar.cmpi .sgt a 0#32)
    (Scalar.select (Ideal.cmp .oge s (Ideal.ofBits .f32 0x00000000#32)) s (Ideal.ofBits .f32 0x3E4CCCCD#32 * s))
    (Ideal.ofBits .f32 0xD9FFCB9E#32)

/-- The exponential linear unit as a select between `x` and `exp x − 1`. -/
def elu (x : EReal) : EReal :=
  Scalar.select (Ideal.cmp .ogt x (Ideal.ofBits .f32 0x00000000#32)) x (Ideal.exp x - Ideal.ofBits .f32 0x3F800000#32)

/-- The maximum of a row, folded from `-∞`. -/
def rowMax {n : Nat} (e : Fin n → EReal) : EReal := (Finset.univ : Finset (Fin n)).fold max (⊥ : EReal) e

/-- The dense softmax-weighted sum of a row: `Σ_j (exp (e j − M) / Σ_i exp (e i − M)) · h j` with `M` the row maximum. -/
def dense {n : Nat} (e h : Fin n → EReal) : EReal :=
  ∑ j, Ideal.div (Ideal.exp (e j - rowMax e)) (∑ i, Ideal.exp (e i - rowMax e)) * h j

/-- One tile of the online form: from the carried `(m, l, acc)` and the tile's scores and values to the next triple. -/
def onlineStep (e h : Fin 1024 → EReal) (s : EReal × EReal × EReal) : EReal × EReal × EReal :=
  (max s.1 (rowMax e),
   Ideal.exp (s.1 - max s.1 (rowMax e)) * s.2.1 + ∑ j, Ideal.exp (e j - max s.1 (rowMax e)),
   Ideal.exp (s.1 - max s.1 (rowMax e)) * s.2.2 + ∑ j, Ideal.exp (e j - max s.1 (rowMax e)) * h j)

/-- The carried triple after the first `k` tiles, from `(-∞, 0, 0)`. -/
def onlineAt (e h : ℕ → Fin 1024 → EReal) : ℕ → EReal × EReal × EReal
  | 0 => (⊥, 0, 0)
  | k + 1 => onlineStep (e k) (h k) (onlineAt e h k)

/-- The online form's result after all eight tiles: numerator over denominator. -/
def online (e h : ℕ → Fin 1024 → EReal) : EReal := Ideal.div (onlineAt e h 8).2.2 (onlineAt e h 8).2.1

/-- Key `j` of the row as (tile, position in the tile). -/
def tileOf (j : Fin 8192) : ℕ := j.val / 1024
def posOf (j : Fin 8192) : Fin 1024 := ⟨j.val % 1024, Nat.mod_lt _ (by decide)⟩

/-! ## The whole layer, entry by entry -/

/-- The projection `h = X · W`: entry `(i, d)` is `Σ_k X i k · W k d`. -/
def hProj (X : Fin 8192 → Fin 256 → EReal) (W : Fin 256 → Fin 64 → EReal) (i : Fin 8192) (d : Fin 64) : EReal :=
  ∑ k, X i k * W k d

/-- The source term `f1 i = Σ_d h i d · a d` (the first 64 entries of `a`). -/
def f1Of (h : Fin 8192 → Fin 64 → EReal) (a : Fin 128 → EReal) (i : Fin 8192) : EReal :=
  ∑ d : Fin 64, h i d * a ⟨d.val, by omega⟩

/-- The target term `f2 j = Σ_d h j d · a (64 + d)` (the last 64 entries of `a`). -/
def f2Of (h : Fin 8192 → Fin 64 → EReal) (a : Fin 128 → EReal) (j : Fin 8192) : EReal :=
  ∑ d : Fin 64, h j d * a ⟨64 + d.val, by omega⟩

/-- Key `1024 · k + p`: position `p` of tile `k` (read modulo 8192, so that it is total in `k`). -/
def keyAt (k : ℕ) (p : Fin 1024) : Fin 8192 := ⟨(1024 * k + p.val) % 8192, Nat.mod_lt _ (by decide)⟩

/-- The exponential linear unit as jax spells it: `where (x > 0) x (1 · (exp (where (x > 0) 0 x) − 1))`. -/
def eluRef (x : EReal) : EReal :=
  Scalar.select (Ideal.cmp .ogt x (Ideal.ofBits .f32 0x00000000#32)) x
    (Ideal.ofBits .f32 0x3F800000#32 * (Ideal.exp (Scalar.select (Ideal.cmp .ogt x (Ideal.ofBits .f32 0x00000000#32)) (Ideal.ofBits .f32 0x00000000#32) x) - 1))

/-- Entry `(i, d)` of the layer's output in the dense form: the row's scores against every key, the softmax-weighted
    sum of column `d` of `h`, then the unit. -/
def outDense (X : Fin 8192 → Fin 256 → EReal) (W : Fin 256 → Fin 64 → EReal) (a : Fin 128 → EReal)
    (adj : Fin 8192 → Fin 8192 → BitVec 32) (i : Fin 8192) (d : Fin 64) : EReal :=
  eluRef (dense (fun j => score (f1Of (hProj X W) a i + f2Of (hProj X W) a j) (adj i j)) (fun j => hProj X W j d))

/-- The same entry in the online form: the keys walked tile by tile. -/
def outOnline (X : Fin 8192 → Fin 256 → EReal) (W : Fin 256 → Fin 64 → EReal) (a : Fin 128 → EReal)
    (adj : Fin 8192 → Fin 8192 → BitVec 32) (i : Fin 8192) (d : Fin 64) : EReal :=
  elu (online (fun k p => score (f1Of (hProj X W) a i + f2Of (hProj X W) a (keyAt k p)) (adj i (keyAt k p)))
    (fun k p => hProj X W (keyAt k p) d))

end Cert.Attn

end
-- ==== Proof.KIVal0.lean ====
/-
  What the projection kernel (region 0) leaves in its three output arrays, entry by entry, as functions of the arrays
  it is entered with: the input rows `X` (8192 x 256), the weights `W` (256 x 64) and the two attention rows `a1`, `a2`
  (1 x 64 each).

  * the extended feature array (8192 x 128): columns 0..63 hold the projection `h = X W`, column 64 the constant one,
    columns 65..127 zero;
  * the two logit columns (8192 x 1): `f1 i = Σ_d h i d · a1 d` and `f2 i = Σ_d h i d · a2 d`.

  First each payload of the kernel body is read at an index of its block (the product as a sum over the contracted
  axis, the lane sum as a sum over the 64 columns); then what the three stores leave in the feature block is read column
  range by column range; then the eight row blocks, one per grid point, are put side by side: point `t` writes rows
  `1024 t … 1024 t + 1023`, and every row lies in the block of point `row / 1024`.
-/
import proofs.«416619_j37056977830238_3_alg».proof.Proof.KIR0
import proofs.«416619_j37056977830238_3_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Attn

/-! ## The projection's product at an entry -/

theorem lhs_proj_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl

theorem lhs_proj_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q

theorem rhs_proj_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q

theorem rhs_proj_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- Entry `(r, d)` of the block product: row `r` of the left block against column `d` of the right one. -/
theorem pay1_apply (x0 : Vec Ideal S1024x256 .f32) (x1 : Vec Ideal S256x64 .f32) (r : Fin 1024) (d : Fin 64) :
    k0_pay1 x0 x1 (ix2 r d) = ∑ k : Fin 256, x0 (ix2 r k) * x1 (ix2 k d) := by
  unfold k0_pay1
  simp only [matmul]
  refine (Ideal.matmul_constant_zero_apply dot_S1024x256_S256x64_S1024x64_1_0_0_1_n_n none (truncf .bf16 x0 bitsLt_bf16_f32) (truncf .bf16 x1 bitsLt_bf16_f32) (ix2 r d)).trans ?_
  rw [← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 r d) ((contrEquiv1 dot_S1024x256_S256x64_S1024x64_1_0_0_1_n_n 256 rfl rfl).symm k) = ix2 r k := funext fun a => Fin.ext (by
    match a with
    | ⟨0, _⟩ => exact lhs_proj_0 _ _
    | ⟨1, _⟩ => exact (lhs_proj_1 _ _).trans hk)
  have er : dot_S1024x256_S256x64_S1024x64_1_0_0_1_n_n.rhsIdx (ix2 r d) ((contrEquiv1 dot_S1024x256_S256x64_S1024x64_1_0_0_1_n_n 256 rfl rfl).symm k) = ix2 k d := funext fun a => Fin.ext (by
    match a with
    | ⟨0, _⟩ => exact (rhs_proj_0 _ _).trans hk
    | ⟨1, _⟩ => exact rhs_proj_1 _ _)
  rw [el, er]
  rfl

/-- The features rounded to bf16 are, at the ideal values, the product itself. -/
theorem pay2_apply (x0 : Vec Ideal S1024x256 .f32) (x1 : Vec Ideal S256x64 .f32) (r : Fin 1024) (d : Fin 64) :
    k0_pay2 x0 x1 (ix2 r d) = ∑ k : Fin 256, x0 (ix2 r k) * x1 (ix2 k d) := by
  unfold k0_pay2
  exact pay1_apply x0 x1 r d

/-- The column of ones. -/
theorem pay3_apply (y : S1024x1.Idx) : (k0_pay3 (F := Ideal)) y = Ideal.ofBits .bf16 0x3F80#16 := rfl

/-- The zero padding. -/
theorem pay4_apply (y : S1024x63.Idx) : (k0_pay4 (F := Ideal)) y = Ideal.ofBits .bf16 0x0000#16 := rfl

/-! ## The logit columns at an entry -/

/-- A vector of `a` entries cast to one column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A logit column at row `r`: the row's 64 projected features against the attention row, summed. -/
theorem logit_apply (x0 : Vec Ideal S1024x256 .f32) (x1 : Vec Ideal S256x64 .f32) (x2 : Vec Ideal S1x64 .f32) (r : Fin 1024) (u : Fin 1) :
    shapeCast S1024x1 (multiReduction (F := Ideal) .add [1] S1024 (mulf (k0_pay1 x0 x1) (broadcastTo S1024x64 (shapeCast S1x64 x2 shapeCasts_S1x64_S1x64) broadcasts_S1x64_S1024x64)) 0x00000000#32 reduces_S1024x64_S1024 (.inl rfl) rfl) shapeCasts_S1024_S1024x1 (ix2 r u)
      = ∑ d : Fin 64, (∑ k : Fin 256, x0 (ix2 r k) * x1 (ix2 k d)) * x2 (ix2 (0 : Fin 1) d) := by
  refine (shapeCast_a_a1_apply _ shapeCasts_S1024_S1024x1 r u).trans ?_
  refine (Ideal.multiReduction_add_single _ 0x00000000#32 reduces_S1024x64_S1024 (.inl rfl) rfl (ix1 r)).trans ?_
  show ∑ d : Fin 64, _ = _
  refine Finset.sum_congr rfl fun d _ => ?_
  have el : reduces_S1024x64_S1024.lift (ix1 r) d = ix2 r d := funext fun a => Fin.ext (by
    match a with
    | ⟨0, _⟩ => rfl
    | ⟨1, _⟩ => rfl)
  rw [el, mulf_apply, pay1_apply, broadcastTo_1b_ab_apply, shapeCast_self]

theorem pay5_apply (x0 : Vec Ideal S1024x256 .f32) (x1 : Vec Ideal S256x64 .f32) (x2 : Vec Ideal S1x64 .f32) (r : Fin 1024) (u : Fin 1) :
    k0_pay5 x0 x1 x2 (ix2 r u) = ∑ d : Fin 64, (∑ k : Fin 256, x0 (ix2 r k) * x1 (ix2 k d)) * x2 (ix2 (0 : Fin 1) d) := by
  unfold k0_pay5
  exact logit_apply x0 x1 x2 r u

theorem pay6_apply (x0 : Vec Ideal S1024x256 .f32) (x1 : Vec Ideal S256x64 .f32) (x3 : Vec Ideal S1x64 .f32) (r : Fin 1024) (u : Fin 1) :
    k0_pay6 x0 x1 x3 (ix2 r u) = ∑ d : Fin 64, (∑ k : Fin 256, x0 (ix2 r k) * x1 (ix2 k d)) * x3 (ix2 (0 : Fin 1) d) := by
  unfold k0_pay6
  exact logit_apply x0 x1 x3 r u

/-! ## What the body leaves in each output block, entry by entry -/

theorem hz : (![0, 0] : Fin 2 → Nat) = fun _ => 0 := funext fun a => by fin_cases a <;> rfl

/-- The extended feature block at row `p`, column `q`: the product in columns 0..63, one in column 64, zero in columns
    65..127. (The column of the product is written modulo 64 so that the expression is total in `q`.) -/
def hextBlkAt (x0 : Vec Ideal S1024x256 .f32) (x1 : Vec Ideal S256x64 .f32) (p : Fin 1024) (q : Fin 128) : EReal :=
  if q.val < 64 then ∑ k : Fin 256, x0 (ix2 p k) * x1 (ix2 k (⟨q.val % 64, Nat.mod_lt _ (by decide)⟩ : Fin 64))
  else if q.val = 64 then Ideal.ofBits .bf16 0x3F80#16 else Ideal.ofBits .bf16 0x0000#16

/-- The same as a function of the block's index. -/
def hextBlk (x0 : Vec Ideal S1024x256 .f32) (x1 : Vec Ideal S256x64 .f32) : Vec Ideal S1024x128 .bf16 := fun y =>
  hextBlkAt x0 x1 ⟨(y 0).val, idx2_lt0 y⟩ ⟨(y 1).val, idx2_lt1 y⟩

/-- The three stores of the feature block agree, each on its own columns, with `hextBlk`; together they cover the block. -/
theorem out4_eq (x0 : Vec Ideal S1024x256 .f32) (x1 : Vec Ideal S256x64 .f32) (y : S1024x128.Idx) :
    out0_4 x0 x1 y = hextBlk x0 x1 y := by
  unfold out0_4
  refine View.canon_apply_of_pieces (Val := Elt Ideal) (S := S1024x128) (e := .bf16) (hextBlk x0 x1) _ ?_ y (cover0_4 _ _ _ y)
  intro p hp
  simp only [List.mem_cons, List.mem_singleton, List.not_mem_nil, or_false] at hp
  rcases hp with rfl | rfl | rfl
  · intro x
    have h1 : ((r0_pad.emb x) 1).val = 65 + 1 * (x 1).val := rfl
    show (k0_pay4 (F := Ideal)) x = hextBlkAt x0 x1 ⟨((r0_pad.emb x) 0).val, _⟩ ⟨((r0_pad.emb x) 1).val, _⟩
    unfold hextBlkAt
    rw [if_neg (show ¬ ((r0_pad.emb x) 1).val < 64 by omega), if_neg (show ¬ ((r0_pad.emb x) 1).val = 64 by omega)]
    rfl
  · intro x
    have h1 : ((r0_one.emb x) 1).val = 64 + 1 * (x 1).val := rfl
    have hx : (x 1).val < 1 := (x 1).isLt
    show (k0_pay3 (F := Ideal)) x = hextBlkAt x0 x1 ⟨((r0_one.emb x) 0).val, _⟩ ⟨((r0_one.emb x) 1).val, _⟩
    unfold hextBlkAt
    rw [if_neg (show ¬ ((r0_one.emb x) 1).val < 64 by omega), if_pos (show ((r0_one.emb x) 1).val = 64 by omega)]
    rfl
  · intro x
    obtain ⟨p, q, rfl⟩ : ∃ (p : Fin 1024) (q : Fin 64), x = ix2 p q := ⟨x 0, x 1, eq_ix2 x⟩
    have h0 : ((r0_feat.emb (ix2 p q)) 0).val = 0 + 1 * p.val := rfl
    have h1 : ((r0_feat.emb (ix2 p q)) 1).val = 0 + 1 * q.val := rfl
    have hq : q.val < 64 := q.isLt
    show k0_pay2 (View.ld x0 r0_rows) (View.ld x1 r0_weights) (ix2 p q) = hextBlkAt x0 x1 ⟨((r0_feat.emb (ix2 p q)) 0).val, _⟩ ⟨((r0_feat.emb (ix2 p q)) 1).val, _⟩
    rw [View.ld_unit_zero (S := S1024x256) hz, View.ld_unit_zero (S := S256x64) hz, pay2_apply]
    have e0 : (⟨((r0_feat.emb (ix2 p q)) 0).val, idx2_lt0 (r0_feat.emb (ix2 p q))⟩ : Fin 1024) = p := Fin.ext (by show 0 + 1 * p.val = p.val; omega)
    have e1 : (⟨((r0_feat.emb (ix2 p q)) 1).val, idx2_lt1 (r0_feat.emb (ix2 p q))⟩ : Fin 128) = ⟨q.val, by omega⟩ := Fin.ext (by show 0 + 1 * q.val = q.val; omega)
    rw [e0, e1]
    unfold hextBlkAt
    rw [if_pos (show q.val < 64 from hq)]
    refine Finset.sum_congr rfl fun k _ => ?_
    have e2 : (⟨q.val % 64, Nat.mod_lt _ (by decide)⟩ : Fin 64) = q := Fin.ext (Nat.mod_eq_of_lt hq)
    rw [e2]

/-- The feature block at explicit coordinates. -/
theorem out4_apply (x0 : Vec Ideal S1024x256 .f32) (x1 : Vec Ideal S256x64 .f32) (p : Fin 1024) (q : Fin 128) :
    out0_4 x0 x1 (ix2 p q) = hextBlkAt x0 x1 p q :=
  out4_eq x0 x1 (ix2 p q)

/-- The first logit block. -/
theorem out5_apply (x0 : Vec Ideal S1024x256 .f32) (x1 : Vec Ideal S256x64 .f32) (x2 : Vec Ideal S1x64 .f32) (r : Fin 1024) (u : Fin 1) :
    out0_5 x0 x1 x2 (ix2 r u) = ∑ d : Fin 64, (∑ k : Fin 256, x0 (ix2 r k) * x1 (ix2 k d)) * x2 (ix2 (0 : Fin 1) d) := by
  unfold out0_5
  rw [View.canon_unit_zero hz, View.ld_unit_zero (S := S1024x256) hz, View.ld_unit_zero (S := S256x64) hz, View.ld_unit_zero (S := S1x64) hz]
  exact pay5_apply x0 x1 x2 r u

/-- The second logit block. -/
theorem out6_apply (x0 : Vec Ideal S1024x256 .f32) (x1 : Vec Ideal S256x64 .f32) (x3 : Vec Ideal S1x64 .f32) (r : Fin 1024) (u : Fin 1) :
    out0_6 x0 x1 x3 (ix2 r u) = ∑ d : Fin 64, (∑ k : Fin 256, x0 (ix2 r k) * x1 (ix2 k d)) * x3 (ix2 (0 : Fin 1) d) := by
  unfold out0_6
  rw [View.canon_unit_zero hz, View.ld_unit_zero (S := S1024x256) hz, View.ld_unit_zero (S := S256x64) hz, View.ld_unit_zero (S := S1x64) hz]
  exact pay6_apply x0 x1 x3 r u

/-! ## From blocks to arrays -/

variable (V : (c : Dev nD) → (b : Ref sig .tc) → Buf (Elt Ideal) ((c : Thread nD τ).loc b))

/-- The four arrays the region reads, as it finds them, entry by entry. -/
abbrev xOf (c : Dev nD) : Fin 8192 → Fin 256 → EReal := fun i k => (V c main_arg0 : S8192x256.Idx → EReal) (ix2 i k)
abbrev wOf (c : Dev nD) : Fin 256 → Fin 64 → EReal := fun k d => (V c main_arg2 : S256x64.Idx → EReal) (ix2 k d)
abbrev a1Of (c : Dev nD) : Fin 64 → EReal := fun d => (V c main_v1 : S1x64.Idx → EReal) (ix2 (0 : Fin 1) d)
abbrev a2Of (c : Dev nD) : Fin 64 → EReal := fun d => (V c main_v3 : S1x64.Idx → EReal) (ix2 (0 : Fin 1) d)

/-- Entry `(i, j)` of the extended feature array `[X W | 1 | 0 … 0]`. -/
def hextAt (X : Fin 8192 → Fin 256 → EReal) (Wm : Fin 256 → Fin 64 → EReal) (i : Fin 8192) (j : Fin 128) : EReal :=
  if j.val < 64 then hProj X Wm i ⟨j.val % 64, Nat.mod_lt _ (by decide)⟩
  else if j.val = 64 then Ideal.ofBits .bf16 0x3F80#16 else Ideal.ofBits .bf16 0x0000#16

/-- The extended feature array. -/
def hextArr (X : Fin 8192 → Fin 256 → EReal) (Wm : Fin 256 → Fin 64 → EReal) : S8192x128.Idx → EReal := fun y =>
  hextAt X Wm ⟨(y 0).val, idx2_lt0 y⟩ ⟨(y 1).val, idx2_lt1 y⟩

/-- Row `i` of a logit column: the row's projected features against an attention row. -/
def logitAt (X : Fin 8192 → Fin 256 → EReal) (Wm : Fin 256 → Fin 64 → EReal) (A : Fin 64 → EReal) (i : Fin 8192) : EReal :=
  ∑ d : Fin 64, hProj X Wm i d * A d

/-- A logit column. -/
def logitArr (X : Fin 8192 → Fin 256 → EReal) (Wm : Fin 256 → Fin 64 → EReal) (A : Fin 64 → EReal) : S8192x1.Idx → EReal := fun y =>
  logitAt X Wm A ⟨(y 0).val, idx2_lt0 y⟩

/-- A feature block whose input rows are rows `1024 b …` of `X` and whose weights are `Wm` is rows `1024 b …` of the
    extended feature array. -/
theorem hext_point (X : Fin 8192 → Fin 256 → EReal) (Wm : Fin 256 → Fin 64 → EReal)
    (x0 : Vec Ideal S1024x256 .f32) (x1 : Vec Ideal S256x64 .f32) (b : ℕ)
    (h0 : ∀ (r : Fin 1024) (k : Fin 256) (i : Fin 8192), i.val = 1024 * b + r.val → x0 (ix2 r k) = X i k)
    (h1 : ∀ (k : Fin 256) (d : Fin 64), x1 (ix2 k d) = Wm k d)
    (p : Fin 1024) (q : Fin 128) (i : S8192x128.Idx) (hi0 : (i 0).val = 1024 * b + p.val) (hi1 : (i 1).val = q.val) :
    out0_4 x0 x1 (ix2 p q) = hextArr X Wm i := by
  have e1 : (⟨(i 1).val, idx2_lt1 i⟩ : Fin 128) = q := Fin.ext hi1
  unfold hextArr
  rw [e1, out4_apply]
  unfold hextBlkAt hextAt hProj
  by_cases h : q.val < 64
  · rw [if_pos h, if_pos h]
    exact Finset.sum_congr rfl fun k _ => by rw [h0 p k ⟨(i 0).val, idx2_lt0 i⟩ hi0, h1]
  · rw [if_neg h, if_neg h]

/-- The same for a logit block against an attention row `A`. -/
theorem logit_point (X : Fin 8192 → Fin 256 → EReal) (Wm : Fin 256 → Fin 64 → EReal) (A : Fin 64 → EReal)
    (x0 : Vec Ideal S1024x256 .f32) (x1 : Vec Ideal S256x64 .f32) (x2 : Vec Ideal S1x64 .f32) (b : ℕ)
    (h0 : ∀ (r : Fin 1024) (k : Fin 256) (i : Fin 8192), i.val = 1024 * b + r.val → x0 (ix2 r k) = X i k)
    (h1 : ∀ (k : Fin 256) (d : Fin 64), x1 (ix2 k d) = Wm k d)
    (h2 : ∀ d : Fin 64, x2 (ix2 (0 : Fin 1) d) = A d)
    (p : Fin 1024) (i : S8192x1.Idx) (hi0 : (i 0).val = 1024 * b + p.val) :
    (∑ d : Fin 64, (∑ k : Fin 256, x0 (ix2 p k) * x1 (ix2 k d)) * x2 (ix2 (0 : Fin 1) d)) = logitArr X Wm A i := by
  unfold logitArr logitAt hProj
  refine Finset.sum_congr rfl fun d _ => ?_
  rw [h2 d]
  refine congrArg (· * A d) ?_
  exact Finset.sum_congr rfl fun k _ => by rw [h0 p k ⟨(i 0).val, idx2_lt0 i⟩ hi0, h1]

/-- The grid has eight points. -/
theorem N0 : cfg0.N = 8 := by decide

/-- The printed index maps, decided over the grid: the row blocks (windows 0, 4, 5, 6) move with the point; the weights
    and the attention rows stay. -/
theorem idx_rows : ∀ t : Fin cfg0.N, win0_0.index t (0 : Fin 2) = t.val ∧ win0_0.index t (1 : Fin 2) = 0 :=
  (by decide +kernel : ∀ t : Fin grid0.N, _)
theorem idx_weights : ∀ t : Fin cfg0.N, win0_1.index t (0 : Fin 2) = 0 ∧ win0_1.index t (1 : Fin 2) = 0 :=
  (by decide +kernel : ∀ t : Fin grid0.N, _)
theorem idx_avec1 : ∀ t : Fin cfg0.N, win0_2.index t (0 : Fin 2) = 0 ∧ win0_2.index t (1 : Fin 2) = 0 :=
  (by decide +kernel : ∀ t : Fin grid0.N, _)
theorem idx_avec2 : ∀ t : Fin cfg0.N, win0_3.index t (0 : Fin 2) = 0 ∧ win0_3.index t (1 : Fin 2) = 0 :=
  (by decide +kernel : ∀ t : Fin grid0.N, _)
theorem idx_hext : ∀ t : Fin cfg0.N, win0_4.index t (0 : Fin 2) = t.val ∧ win0_4.index t (1 : Fin 2) = 0 :=
  (by decide +kernel : ∀ t : Fin grid0.N, _)
theorem idx_f1 : ∀ t : Fin cfg0.N, win0_5.index t (0 : Fin 2) = t.val ∧ win0_5.index t (1 : Fin 2) = 0 :=
  (by decide +kernel : ∀ t : Fin grid0.N, _)
theorem idx_f2 : ∀ t : Fin cfg0.N, win0_6.index t (0 : Fin 2) = t.val ∧ win0_6.index t (1 : Fin 2) = 0 :=
  (by decide +kernel : ∀ t : Fin grid0.N, _)

/-- The block of input rows at point `t` is rows `1024 t … 1024 t + 1023` of the input. -/
theorem rows_apply (c : Dev nD) (t : Fin cfg0.N) (r : Fin 1024) (k : Fin 256) (i : Fin 8192) (hi : i.val = 1024 * t.val + r.val) :
    (iblk0 V c 0 t : Vec Ideal S1024x256 .f32) (ix2 r k) = xOf V c i k := by
  obtain ⟨e0, e1⟩ := idx_rows t
  unfold iblk0
  rw [View.read_apply]
  show V c main_arg0 _ = V c main_arg0 _
  congr 1
  funext a
  apply Fin.ext
  match a with
  | ⟨0, _⟩ => show win0_0.index t 0 * 1024 + 1 * r.val = i.val; rw [e0, hi]; omega
  | ⟨1, _⟩ => show win0_0.index t 1 * 256 + 1 * k.val = k.val; rw [e1]; omega

/-- The weights' block at any point is the weight matrix. -/
theorem weights_apply (c : Dev nD) (t : Fin cfg0.N) (k : Fin 256) (d : Fin 64) :
    (iblk0 V c 1 t : Vec Ideal S256x64 .f32) (ix2 k d) = wOf V c k d := by
  obtain ⟨e0, e1⟩ := idx_weights t
  unfold iblk0
  rw [View.read_apply]
  show V c main_arg2 _ = V c main_arg2 _
  congr 1
  funext a
  apply Fin.ext
  match a with
  | ⟨0, _⟩ => show win0_1.index t 0 * 256 + 1 * k.val = k.val; rw [e0]; omega
  | ⟨1, _⟩ => show win0_1.index t 1 * 64 + 1 * d.val = d.val; rw [e1]; omega

/-- The first attention row's block at any point is that row. -/
theorem avec1_apply (c : Dev nD) (t : Fin cfg0.N) (d : Fin 64) :
    (iblk0 V c 2 t : Vec Ideal S1x64 .f32) (ix2 (0 : Fin 1) d) = a1Of V c d := by
  obtain ⟨e0, e1⟩ := idx_avec1 t
  unfold iblk0
  rw [View.read_apply]
  show V c main_v1 _ = V c main_v1 _
  congr 1
  funext a
  apply Fin.ext
  match a with
  | ⟨0, _⟩ => show win0_2.index t 0 * 1 + 1 * 0 = 0; rw [e0]
  | ⟨1, _⟩ => show win0_2.index t 1 * 64 + 1 * d.val = d.val; rw [e1]; omega

/-- The second attention row's block at any point is that row. -/
theorem avec2_apply (c : Dev nD) (t : Fin cfg0.N) (d : Fin 64) :
    (iblk0 V c 3 t : Vec Ideal S1x64 .f32) (ix2 (0 : Fin 1) d) = a2Of V c d := by
  obtain ⟨e0, e1⟩ := idx_avec2 t
  unfold iblk0
  rw [View.read_apply]
  show V c main_v3 _ = V c main_v3 _
  congr 1
  funext a
  apply Fin.ext
  match a with
  | ⟨0, _⟩ => show win0_3.index t 0 * 1 + 1 * 0 = 0; rw [e0]
  | ⟨1, _⟩ => show win0_3.index t 1 * 64 + 1 * d.val = d.val; rw [e1]; omega

/-! ## What each point writes back, the cover, and the arrays after the region -/

/-- Point `t` writes rows `1024 t … 1024 t + 1023` of the extended feature array. -/
theorem flushed4_eq (c : Dev nD) (t : Fin cfg0.N) :
    (dat0 V c).flushed 4 t = ((cfg0.win 4).blk t).view.read (Elt Ideal) (hextArr (xOf V c) (wOf V c)) := by
  show (cfg0.win 4).cut (grid0.coords t) ((dat0 V c).after 4 t) = _
  rw [after0_4]
  obtain ⟨e0, e1⟩ := idx_hext t
  funext y
  obtain ⟨p, q, rfl⟩ : ∃ (p : Fin 1024) (q : Fin 128), y = ix2 p q := ⟨y 0, y 1, eq_ix2 y⟩
  show out0_4 (iblk0 V c 0 t) (iblk0 V c 1 t) (ix2 p q) = hextArr (xOf V c) (wOf V c) (((cfg0.win 4).blk t).view.emb (ix2 p q))
  have hi0 : ((((cfg0.win 4).blk t).view.emb (ix2 p q)) 0).val = 1024 * t.val + p.val := by
    show win0_4.index t 0 * 1024 + 1 * p.val = _; rw [e0]; omega
  have hi1 : ((((cfg0.win 4).blk t).view.emb (ix2 p q)) 1).val = q.val := by
    show win0_4.index t 1 * 128 + 1 * q.val = _; rw [e1]; omega
  exact hext_point (xOf V c) (wOf V c) (iblk0 V c 0 t) (iblk0 V c 1 t) t.val
    (fun r k i hi => rows_apply V c t r k i hi) (fun k d => weights_apply V c t k d) p q
    (((cfg0.win 4).blk t).view.emb (ix2 p q)) hi0 hi1

/-- Point `t` writes rows `1024 t … 1024 t + 1023` of the first logit column. -/
theorem flushed5_eq (c : Dev nD) (t : Fin cfg0.N) :
    (dat0 V c).flushed 5 t = ((cfg0.win 5).blk t).view.read (Elt Ideal) (logitArr (xOf V c) (wOf V c) (a1Of V c)) := by
  show (cfg0.win 5).cut (grid0.coords t) ((dat0 V c).after 5 t) = _
  rw [after0_5]
  obtain ⟨e0, e1⟩ := idx_f1 t
  funext y
  obtain ⟨p, u, rfl⟩ : ∃ (p : Fin 1024) (u : Fin 1), y = ix2 p u := ⟨y 0, y 1, eq_ix2 y⟩
  show out0_5 (iblk0 V c 0 t) (iblk0 V c 1 t) (iblk0 V c 2 t) (ix2 p u) = logitArr (xOf V c) (wOf V c) (a1Of V c) (((cfg0.win 5).blk t).view.emb (ix2 p u))
  have hi0 : ((((cfg0.win 5).blk t).view.emb (ix2 p u)) 0).val = 1024 * t.val + p.val := by
    show win0_5.index t 0 * 1024 + 1 * p.val = _; rw [e0]; omega
  refine (out5_apply (iblk0 V c 0 t) (iblk0 V c 1 t) (iblk0 V c 2 t) p u).trans ?_
  exact logit_point (xOf V c) (wOf V c) (a1Of V c) (iblk0 V c 0 t) (iblk0 V c 1 t) (iblk0 V c 2 t) t.val
    (fun r k i hi => rows_apply V c t r k i hi) (fun k d => weights_apply V c t k d) (fun d => avec1_apply V c t d) p
    (((cfg0.win 5).blk t).view.emb (ix2 p u)) hi0

/-- Point `t` writes rows `1024 t … 1024 t + 1023` of the second logit column. -/
theorem flushed6_eq (c : Dev nD) (t : Fin cfg0.N) :
    (dat0 V c).flushed 6 t = ((cfg0.win 6).blk t).view.read (Elt Ideal) (logitArr (xOf V c) (wOf V c) (a2Of V c)) := by
  show (cfg0.win 6).cut (grid0.coords t) ((dat0 V c).after 6 t) = _
  rw [after0_6]
  obtain ⟨e0, e1⟩ := idx_f2 t
  funext y
  obtain ⟨p, u, rfl⟩ : ∃ (p : Fin 1024) (u : Fin 1), y = ix2 p u := ⟨y 0, y 1, eq_ix2 y⟩
  show out0_6 (iblk0 V c 0 t) (iblk0 V c 1 t) (iblk0 V c 3 t) (ix2 p u) = logitArr (xOf V c) (wOf V c) (a2Of V c) (((cfg0.win 6).blk t).view.emb (ix2 p u))
  have hi0 : ((((cfg0.win 6).blk t).view.emb (ix2 p u)) 0).val = 1024 * t.val + p.val := by
    show win0_6.index t 0 * 1024 + 1 * p.val = _; rw [e0]; omega
  refine (out6_apply (iblk0 V c 0 t) (iblk0 V c 1 t) (iblk0 V c 3 t) p u).trans ?_
  exact logit_point (xOf V c) (wOf V c) (a2Of V c) (iblk0 V c 0 t) (iblk0 V c 1 t) (iblk0 V c 3 t) t.val
    (fun r k i hi => rows_apply V c t r k i hi) (fun k d => weights_apply V c t k d) (fun d => avec2_apply V c t d) p
    (((cfg0.win 6).blk t).view.emb (ix2 p u)) hi0

/-- An index of the feature array is in point `t`'s block iff each coordinate is in the block's range on its axis. -/
theorem mem_blk4 (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v4_0).slice (win0_4.rect t)).set ↔ _
  rw [View.set_slice_whole, Rect.mem_set_unit]
  exact Iff.rfl

theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v4_1).slice (win0_5.rect t)).set ↔ _
  rw [View.set_slice_whole, Rect.mem_set_unit]
  exact Iff.rfl

theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v4_2).slice (win0_6.rect t)).set ↔ _
  rw [View.set_slice_whole, Rect.mem_set_unit]
  exact Iff.rfl

/-- Row `r` of the feature array lies in the block of point `r / 1024`. -/
theorem cover4 (i : S8192x128.Idx) : ∃ t : Fin cfg0.N, (cfg0.win 4).flush t = true ∧ i ∈ ((cfg0.win 4).blk t).view.set := by
  have hi0 : (i 0).val < 8192 := idx2_lt0 i
  have hi1 : (i 1).val < 128 := idx2_lt1 i
  have hN : cfg0.N = 8 := N0
  obtain ⟨t, ht⟩ : ∃ t : Fin cfg0.N, t.val = (i 0).val / 1024 := ⟨⟨(i 0).val / 1024, by omega⟩, rfl⟩
  obtain ⟨e0, e1⟩ := idx_hext t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 128 ≤ (i 1).val ∧ (i 1).val < win0_4.index t (1 : Fin 2) * 128 + 128; rw [e1]; omega

theorem cover5 (i : S8192x1.Idx) : ∃ t : Fin cfg0.N, (cfg0.win 5).flush t = true ∧ i ∈ ((cfg0.win 5).blk t).view.set := by
  have hi0 : (i 0).val < 8192 := idx2_lt0 i
  have hi1 : (i 1).val < 1 := idx2_lt1 i
  have hN : cfg0.N = 8 := N0
  obtain ⟨t, ht⟩ : ∃ t : Fin cfg0.N, t.val = (i 0).val / 1024 := ⟨⟨(i 0).val / 1024, by omega⟩, rfl⟩
  obtain ⟨e0, e1⟩ := idx_f1 t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; rw [e0, ht]; omega
  | ⟨1, _⟩ => show win0_5.index t (1 : Fin 2) * 1 ≤ (i 1).val ∧ (i 1).val < win0_5.index t (1 : Fin 2) * 1 + 1; rw [e1]; omega

theorem cover6 (i : S8192x1.Idx) : ∃ t : Fin cfg0.N, (cfg0.win 6).flush t = true ∧ i ∈ ((cfg0.win 6).blk t).view.set := by
  have hi0 : (i 0).val < 8192 := idx2_lt0 i
  have hi1 : (i 1).val < 1 := idx2_lt1 i
  have hN : cfg0.N = 8 := N0
  obtain ⟨t, ht⟩ : ∃ t : Fin cfg0.N, t.val = (i 0).val / 1024 := ⟨⟨(i 0).val / 1024, by omega⟩, rfl⟩
  obtain ⟨e0, e1⟩ := idx_f2 t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; rw [e0, ht]; omega
  | ⟨1, _⟩ => show win0_6.index t (1 : Fin 2) * 1 ≤ (i 1).val ∧ (i 1).val < win0_6.index t (1 : Fin 2) * 1 + 1; rw [e1]; omega

/-- The extended feature array after the region. -/
theorem hext_arr (c : Dev nD) : (dat0 V c).arrAt 4 cfg0.N = hextArr (xOf V c) (wOf V c) :=
  (dat0 V c).arrAt_eq_of_cover 4 (hextArr (xOf V c) (wOf V c)) (fun t _ => flushed4_eq V c t) cover4

/-- The first logit column after the region. -/
theorem f1_arr (c : Dev nD) : (dat0 V c).arrAt 5 cfg0.N = logitArr (xOf V c) (wOf V c) (a1Of V c) :=
  (dat0 V c).arrAt_eq_of_cover 5 (logitArr (xOf V c) (wOf V c) (a1Of V c)) (fun t _ => flushed5_eq V c t) cover5

/-- The second logit column after the region. -/
theorem f2_arr (c : Dev nD) : (dat0 V c).arrAt 6 cfg0.N = logitArr (xOf V c) (wOf V c) (a2Of V c) :=
  (dat0 V c).arrAt_eq_of_cover 6 (logitArr (xOf V c) (wOf V c) (a2Of V c)) (fun t _ => flushed6_eq V c t) cover6

/-! ## The three arrays, entry by entry -/

/-- Entry `(i, j)` of the extended feature array after the region. -/
theorem hext_apply (c : Dev nD) (i : Fin 8192) (j : Fin 128) :
    ((dat0 V c).arrAt 4 cfg0.N : S8192x128.Idx → EReal) (ix2 i j) = hextAt (xOf V c) (wOf V c) i j := by
  rw [hext_arr]; rfl

/-- Columns 0..63 hold the projection. -/
theorem hext_apply_lt (c : Dev nD) (i : Fin 8192) (j : Fin 128) (h : j.val < 64) :
    ((dat0 V c).arrAt 4 cfg0.N : S8192x128.Idx → EReal) (ix2 i j) = hProj (xOf V c) (wOf V c) i ⟨j.val, h⟩ := by
  rw [hext_apply]
  unfold hextAt
  rw [if_pos h]
  exact congrArg (hProj (xOf V c) (wOf V c) i) (Fin.ext (Nat.mod_eq_of_lt h))

/-- Column 64 holds the bf16 word of one, -/
theorem hext_apply_eq (c : Dev nD) (i : Fin 8192) (j : Fin 128) (h : j.val = 64) :
    ((dat0 V c).arrAt 4 cfg0.N : S8192x128.Idx → EReal) (ix2 i j) = Ideal.ofBits .bf16 0x3F80#16 := by
  rw [hext_apply]
  unfold hextAt
  rw [if_neg (by omega), if_pos h]

/-- which is one; -/
theorem ofBits_bf16_one : Ideal.ofBits .bf16 0x3F80#16 = 1 := Ideal.ofBits_one_bf16

/-- columns 65..127 hold the bf16 word of zero, -/
theorem hext_apply_gt (c : Dev nD) (i : Fin 8192) (j : Fin 128) (h : 65 ≤ j.val) :
    ((dat0 V c).arrAt 4 cfg0.N : S8192x128.Idx → EReal) (ix2 i j) = Ideal.ofBits .bf16 0x0000#16 := by
  rw [hext_apply]
  unfold hextAt
  rw [if_neg (by omega), if_neg (by omega)]

/-- which is zero. -/
theorem ofBits_bf16_zero : Ideal.ofBits .bf16 0x0000#16 = 0 := Ideal.ofBits_zero_bf16

/-- Row `i` of the first logit column: `Σ_d h i d · a1 d`. -/
theorem f1_apply (c : Dev nD) (i : Fin 8192) :
    ((dat0 V c).arrAt 5 cfg0.N : S8192x1.Idx → EReal) (ix2 i (0 : Fin 1)) = ∑ d : Fin 64, hProj (xOf V c) (wOf V c) i d * a1Of V c d := by
  rw [f1_arr]; rfl

/-- Row `i` of the second logit column: `Σ_d h i d · a2 d`. -/
theorem f2_apply (c : Dev nD) (i : Fin 8192) :
    ((dat0 V c).arrAt 6 cfg0.N : S8192x1.Idx → EReal) (ix2 i (0 : Fin 1)) = ∑ d : Fin 64, hProj (xOf V c) (wOf V c) i d * a2Of V c d := by
  rw [f2_arr]; rfl

end Cert.KernelIdeal.Val0

end
-- ==== Proof.KIVal1a.lean ====
/-
  What the attention kernel's stores leave, as payloads of what it loaded. Each of the three carried buffers (the
  running row maximum, the running denominator, the running numerator) is stored whole, last of all, with one payload
  whose operands are the input blocks, the tile of the value array at rows 1024 ki onwards, and what the three buffers
  held when the body began: at a first key block that is what the reset stored just before (-∞, 0, 0), read back; at a
  middle or last key block what the point before left. At a last key block the output block is stored once, with the
  quotient's payload over the buffers just updated. Stated at any float model.
-/
import proofs.«416619_j37056977830238_3_alg».proof.Proof.KIR1
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]

/-- The zero offsets of a whole-buffer access, however they are spelt. -/
theorem hz2 : (![0, 0] : Fin 2 → Nat) = fun _ => 0 := funext fun a => by fin_cases a <;> rfl

/-- The tile of the value array the body loads: 1024 rows from row 1024 ki of the staged whole array. -/
abbrev valueTile (i : grid1.Coords) (x3 : Vec F S8192x128 .bf16) : Vec F S1024x128 .bf16 :=
  View.ld x3 (Rect.unit (s := S8192x128) (k1_off1 i) S1024x128.size (k1_off1_inb i))

/-- At a first key block the buffer is reset and then updated: the buffer of the running row maximum ends holding the last store's payload, whose operands are the input blocks,
    the value tile and what the buffers held before. -/
theorem sout1_A_0_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) :
    sout1_A_0 c i arg2 harg2 arg3 harg3 arg4 harg4 arg5 harg5 arg6 harg6 arg7 harg7 arg8 harg8 arg9 harg9 hc0 hc1 x0 x1 x2 x3 = k1_pay3 (k1_pay9 x0 x1 x2 (k1_pay5 (F := F))) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1) hz2]
  simp only [View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x64) hz2,
    View.readCov_unit_zero (S := S1024x1) _ hz2, View.readCov_unit_zero (S := S1024x64) _ hz2]

/-- At a first key block the buffer is reset and then updated: the buffer of the running denominator ends holding the last store's payload, whose operands are the input blocks,
    the value tile and what the buffers held before. -/
theorem sout1_A_1_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) :
    sout1_A_1 c i arg2 harg2 arg3 harg3 arg4 harg4 arg5 harg5 arg6 harg6 arg7 harg7 arg8 harg8 arg9 harg9 hc0 hc1 x0 x1 x2 x3 = k1_pay1 (k1_pay10 x0 x1 x2 (k1_pay5 (F := F)) (k1_pay5 (F := F))) (k1_pay11 x0 x1 x2 (k1_pay5 (F := F)) (valueTile i x3)) (k1_pay6 (F := F)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1) hz2]
  simp only [View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x64) hz2,
    View.readCov_unit_zero (S := S1024x1) _ hz2, View.readCov_unit_zero (S := S1024x64) _ hz2]
  rfl

/-- At a first key block the buffer is reset and then updated: the buffer of the running numerator ends holding the last store's payload, whose operands are the input blocks,
    the value tile and what the buffers held before. -/
theorem sout1_A_2_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) :
    sout1_A_2 c i arg2 harg2 arg3 harg3 arg4 harg4 arg5 harg5 arg6 harg6 arg7 harg7 arg8 harg8 arg9 harg9 hc0 hc1 x0 x1 x2 x3 = k1_pay2 (k1_pay10 x0 x1 x2 (k1_pay5 (F := F)) (k1_pay5 (F := F))) (k1_pay11 x0 x1 x2 (k1_pay5 (F := F)) (valueTile i x3)) (k1_pay7 (F := F)) := by
  unfold sout1_A_2
  rw [View.read_writes_eq_canon _ _ _ (scover1_A_2 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x64) hz2]
  simp only [View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x64) hz2,
    View.readCov_unit_zero (S := S1024x1) _ hz2, View.readCov_unit_zero (S := S1024x64) _ hz2]
  rfl

/-- At a middle key block the buffer is updated: the buffer of the running row maximum ends holding the last store's payload, whose operands are the input blocks,
    the value tile and what the buffers held before. -/
theorem sout1_B_0_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) :
    sout1_B_0 c i arg2 harg2 arg3 harg3 arg4 harg4 arg5 harg5 arg6 harg6 arg7 harg7 arg8 harg8 arg9 harg9 hc0 hc1 x0 x1 x2 x3 xs0 xs1 xs2 = k1_pay3 (k1_pay9 x0 x1 x2 xs0) := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero (S := S1024x1) hz2]
  simp only [View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x64) hz2,
    View.readCov_unit_zero (S := S1024x1) _ hz2, View.readCov_unit_zero (S := S1024x64) _ hz2]

/-- At a middle key block the buffer is updated: the buffer of the running denominator ends holding the last store's payload, whose operands are the input blocks,
    the value tile and what the buffers held before. -/
theorem sout1_B_1_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) :
    sout1_B_1 c i arg2 harg2 arg3 harg3 arg4 harg4 arg5 harg5 arg6 harg6 arg7 harg7 arg8 harg8 arg9 harg9 hc0 hc1 x0 x1 x2 x3 xs0 xs1 xs2 = k1_pay1 (k1_pay10 x0 x1 x2 xs0 xs0) (k1_pay11 x0 x1 x2 xs0 (valueTile i x3)) xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero (S := S1024x1) hz2]
  simp only [View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x64) hz2,
    View.readCov_unit_zero (S := S1024x1) _ hz2, View.readCov_unit_zero (S := S1024x64) _ hz2]
  rfl

/-- At a middle key block the buffer is updated: the buffer of the running numerator ends holding the last store's payload, whose operands are the input blocks,
    the value tile and what the buffers held before. -/
theorem sout1_B_2_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) :
    sout1_B_2 c i arg2 harg2 arg3 harg3 arg4 harg4 arg5 harg5 arg6 harg6 arg7 harg7 arg8 harg8 arg9 harg9 hc0 hc1 x0 x1 x2 x3 xs0 xs1 xs2 = k1_pay2 (k1_pay10 x0 x1 x2 xs0 xs0) (k1_pay11 x0 x1 x2 xs0 (valueTile i x3)) xs2 := by
  unfold sout1_B_2
  rw [View.read_writes_eq_canon _ _ _ (scover1_B_2 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero (S := S1024x64) hz2]
  simp only [View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x64) hz2,
    View.readCov_unit_zero (S := S1024x1) _ hz2, View.readCov_unit_zero (S := S1024x64) _ hz2]
  rfl

/-- At a last key block the buffer is updated: the buffer of the running row maximum ends holding the last store's payload, whose operands are the input blocks,
    the value tile and what the buffers held before. -/
theorem sout1_C_0_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) :
    sout1_C_0 c i arg2 harg2 arg3 harg3 arg4 harg4 arg5 harg5 arg6 harg6 arg7 harg7 arg8 harg8 arg9 harg9 hc0 hc1 x0 x1 x2 x3 xs0 xs1 xs2 = k1_pay3 (k1_pay9 x0 x1 x2 xs0) := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero (S := S1024x1) hz2]
  simp only [View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x64) hz2,
    View.readCov_unit_zero (S := S1024x1) _ hz2, View.readCov_unit_zero (S := S1024x64) _ hz2]

/-- At a last key block the buffer is updated: the buffer of the running denominator ends holding the last store's payload, whose operands are the input blocks,
    the value tile and what the buffers held before. -/
theorem sout1_C_1_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) :
    sout1_C_1 c i arg2 harg2 arg3 harg3 arg4 harg4 arg5 harg5 arg6 harg6 arg7 harg7 arg8 harg8 arg9 harg9 hc0 hc1 x0 x1 x2 x3 xs0 xs1 xs2 = k1_pay1 (k1_pay10 x0 x1 x2 xs0 xs0) (k1_pay11 x0 x1 x2 xs0 (valueTile i x3)) xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero (S := S1024x1) hz2]
  simp only [View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x64) hz2,
    View.readCov_unit_zero (S := S1024x1) _ hz2, View.readCov_unit_zero (S := S1024x64) _ hz2]
  rfl

/-- At a last key block the buffer is updated: the buffer of the running numerator ends holding the last store's payload, whose operands are the input blocks,
    the value tile and what the buffers held before. -/
theorem sout1_C_2_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) :
    sout1_C_2 c i arg2 harg2 arg3 harg3 arg4 harg4 arg5 harg5 arg6 harg6 arg7 harg7 arg8 harg8 arg9 harg9 hc0 hc1 x0 x1 x2 x3 xs0 xs1 xs2 = k1_pay2 (k1_pay10 x0 x1 x2 xs0 xs0) (k1_pay11 x0 x1 x2 xs0 (valueTile i x3)) xs2 := by
  unfold sout1_C_2
  rw [View.read_writes_eq_canon _ _ _ (scover1_C_2 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero (S := S1024x64) hz2]
  simp only [View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x64) hz2,
    View.readCov_unit_zero (S := S1024x1) _ hz2, View.readCov_unit_zero (S := S1024x64) _ hz2]
  rfl

/-- At a last key block the output block ends holding the unit of the new numerator over the new denominator. -/
theorem out1_C_4_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x64 .f32) :
    out1_C_4 c i arg2 harg2 arg3 harg3 arg4 harg4 arg5 harg5 arg6 harg6 arg7 harg7 arg8 harg8 arg9 harg9 hc0 hc1 x0 x1 x2 x3 xs0 xs1 xs2 = k1_pay4 (k1_pay2 (k1_pay10 x0 x1 x2 xs0 xs0) (k1_pay11 x0 x1 x2 xs0 (valueTile i x3)) xs2) (k1_pay1 (k1_pay10 x0 x1 x2 xs0 xs0) (k1_pay11 x0 x1 x2 xs0 (valueTile i x3)) xs1) := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero (S := S1024x64) hz2]
  simp only [View.readAt_eq_ld, harg2.read_unread, harg3.read_unread, harg4.read_unread, harg5.read_unread, harg6.read_unread, harg7.read_unread, harg8.read_unread, harg9.read_unread,
    View.ld_unit_zero (S := S1024x1) hz2, View.ld_unit_zero (S := S1x1024) hz2, View.ld_unit_zero (S := S1024x1024) hz2, View.ld_unit_zero (S := S1024x64) hz2,
    View.readCov_unit_zero (S := S1024x1) _ hz2, View.readCov_unit_zero (S := S1024x64) _ hz2]
  rfl

end Cert.KernelIdeal.Val

end
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.KIPay1.lean ====
/-
  The arithmetic of the attention kernel, entry by entry, at exact arithmetic.

  The kernel sees one tile of 1024 keys for a block of 1024 queries. From the query column f1, the key row f2 and the
  adjacency words of the tile it forms the scores: the leaky ReLU of f1 p + f2 q where the word is positive, a large
  negative constant elsewhere. The carried maximum m moves to the larger of itself and the tile's row maximum;
  the correction factor is exp (m - m'); the tile's weights exp (e p q - m') are multiplied into the value block, whose
  first 64 columns feed the numerator and whose column 64 feeds the denominator; the carried denominator and numerator
  are rescaled by the correction and the tile's sums added. At the last tile the numerator is divided by the
  denominator and passed through the exponential linear unit. Each of these is read here at one entry (p, q) of its
  block; format changes are the identity on extended reals, and a cast to the same shape moves nothing.
-/
import proofs.«416619_j37056977830238_3_alg».proof.Proof.Gen.KernelIdeal.Skeleton
import proofs.«416619_j37056977830238_3_alg».proof.Proof.Spec
import proofs.«416619_j37056977830238_3_alg».proof.Proof.LibERealRows
import Idealize.ShloMosaic.Lib.ValueIdx
import Idealize.ShloMosaic.Lib.ValueIdxRank1
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx

/-! ## Two layout readings: a column spread over many columns, a vector stood up as a column -/

/-- An [a, 1] column broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The scores of a tile -/

/-- Entry (p, q) of the score block: the score of f1 p + f2 q under the adjacency word at (p, q). -/
theorem pay8_apply (f1 : Vec Ideal S1024x1 .f32) (f2 : Vec Ideal S1x1024 .f32) (adj : Vec Ideal S1024x1024 .i32)
    (p q : Fin 1024) :
    k1_pay8 (F := Ideal) f1 f2 adj (ix2 p q)
      = Cert.Attn.score (f1 (ix2 p (0 : Fin 1)) + f2 (ix2 (0 : Fin 1) q)) (adj (ix2 p q)) := by
  have hs : addf (F := Ideal) (φ := .f32)
      (broadcastTo S1024x1024 (shapeCast S1024x1 f1 shapeCasts_S1024x1_S1024x1) broadcasts_S1024x1_S1024x1024)
      (broadcastTo S1024x1024 (shapeCast S1x1024 f2 shapeCasts_S1x1024_S1x1024) broadcasts_S1x1024_S1024x1024) (ix2 p q)
      = f1 (ix2 p (0 : Fin 1)) + f2 (ix2 (0 : Fin 1) q) := by
    rw [addf_apply, shapeCast_self, shapeCast_self, broadcastTo_a1_ab_apply, broadcastTo_1b_ab_apply]
  unfold k1_pay8
  exact congrArg (fun s => Cert.Attn.score s (adj (ix2 p q))) hs

/-! ## The running maximum and the correction factor -/

/-- The source index of the lane maximum over row p with lane q inserted is (p, q). -/
theorem lift_row (p q : Fin 1024) : reduces_S1024x1024_S1024.lift (ix1 p) q = ix2 p q :=
  funext fun a => by
    match a with
    | ⟨0, _⟩ => exact Fin.ext rfl
    | ⟨1, _⟩ => exact Fin.ext rfl

/-- Row p of the new maximum: the larger of the carried maximum and the maximum of the tile's scores on that row. -/
theorem pay9_apply (f1 : Vec Ideal S1024x1 .f32) (f2 : Vec Ideal S1x1024 .f32) (adj : Vec Ideal S1024x1024 .i32)
    (mOld : Vec Ideal S1024x1 .f32) (p : Fin 1024) (u : Fin 1) :
    k1_pay9 (F := Ideal) f1 f2 adj mOld (ix2 p u)
      = max (mOld (ix2 p u)) (Cert.Attn.rowMax fun q => k1_pay8 (F := Ideal) f1 f2 adj (ix2 p q)) := by
  unfold k1_pay9
  show max (mOld (ix2 p u)) _ = max (mOld (ix2 p u)) _
  refine congrArg (max (mOld (ix2 p u))) ?_
  refine (shapeCast_a_a1_apply _ shapeCasts_S1024_S1024x1 p u).trans ?_
  refine (Ideal.multiReduction_maximumf_single _ _ reduces_S1024x1024_S1024 _ _ (ix1 p)).trans ?_
  unfold Cert.Attn.rowMax
  rw [← Cert.ERealRows.ofBits_negInf]
  exact congrArg (fun f => Finset.fold max (Ideal.ofBits .f32 0xFF800000#32) f (Finset.univ : Finset (Fin 1024)))
    (funext fun q => congrArg (k1_pay8 (F := Ideal) f1 f2 adj) (lift_row p q))

/-- Row p of the correction factor: exp of the carried maximum less the new one. -/
theorem pay10_apply (f1 : Vec Ideal S1024x1 .f32) (f2 : Vec Ideal S1x1024 .f32) (adj : Vec Ideal S1024x1024 .i32)
    (mOld : Vec Ideal S1024x1 .f32) (p : Fin 1024) (u : Fin 1) :
    k1_pay10 (F := Ideal) f1 f2 adj mOld mOld (ix2 p u)
      = Ideal.exp (mOld (ix2 p u)
          - max (mOld (ix2 p u)) (Cert.Attn.rowMax fun q => k1_pay8 (F := Ideal) f1 f2 adj (ix2 p q))) := by
  unfold k1_pay10
  exact congrArg (fun x => Ideal.exp (mOld (ix2 p u) - x)) (pay9_apply f1 f2 adj mOld p u)

/-! ## The tile's weights against the value block -/

local notation "dotPV" => dot_S1024x1024_S1024x128_S1024x128_1_0_0_1_n_n

/-- The weights' row is the output's row. -/
theorem lhs_pv_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
/-- The weights' column is the key. -/
theorem lhs_pv_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- The value block's row is the key. -/
theorem rhs_pv_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- The value block's column is the output's column. -/
theorem rhs_pv_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- Entry (p, j) of the product of the tile's weights with the value block: the sum over the tile's keys q of
    exp (e p q - m' p) times the value block at (q, j). -/
theorem pay11_apply (f1 : Vec Ideal S1024x1 .f32) (f2 : Vec Ideal S1x1024 .f32) (adj : Vec Ideal S1024x1024 .i32)
    (mOld : Vec Ideal S1024x1 .f32) (h : Vec Ideal S1024x128 .bf16) (p : Fin 1024) (j : Fin 128) :
    k1_pay11 (F := Ideal) f1 f2 adj mOld h (ix2 p j)
      = ∑ q : Fin 1024, Ideal.exp (k1_pay8 (F := Ideal) f1 f2 adj (ix2 p q)
            - k1_pay9 (F := Ideal) f1 f2 adj mOld (ix2 p (0 : Fin 1))) * h (ix2 q j) := by
  unfold k1_pay11
  refine (Ideal.matmul_constant_zero_apply dot_S1024x1024_S1024x128_S1024x128_1_0_0_1_n_n none _ _ (ix2 p j)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p j)
      ((contrEquiv1 dot_S1024x1024_S1024x128_S1024x128_1_0_0_1_n_n 1024 rfl rfl).symm k) = ix2 p k :=
    funext fun a => Fin.ext (by
      match a with
      | ⟨0, _⟩ => exact lhs_pv_0 _ _
      | ⟨1, _⟩ => exact (lhs_pv_1 _ _).trans hk)
  have er : dot_S1024x1024_S1024x128_S1024x128_1_0_0_1_n_n.rhsIdx (ix2 p j)
      ((contrEquiv1 dot_S1024x1024_S1024x128_S1024x128_1_0_0_1_n_n 1024 rfl rfl).symm k) = ix2 k j :=
    funext fun a => Fin.ext (by
      match a with
      | ⟨0, _⟩ => exact (rhs_pv_0 _ _).trans hk
      | ⟨1, _⟩ => exact rhs_pv_1 _ _)
  rw [el, er, shapeCast_self]
  show Ideal.exp (k1_pay8 (F := Ideal) f1 f2 adj (ix2 p k)
      - broadcastTo S1024x1024 (k1_pay9 (F := Ideal) f1 f2 adj mOld) broadcasts_S1024x1_S1024x1024 (ix2 p k)) * h (ix2 k j) = _
  rw [broadcastTo_a1_ab_apply]

/-! ## The carried denominator and numerator, the carried maximum, the final quotient -/

/-- Row p of the new denominator: the correction times the carried denominator, plus column 64 of the product. -/
theorem pay1_apply (corr : FVec Ideal S1024x1 .f32) (pv : FVec Ideal S1024x128 .f32) (lOld : Vec Ideal S1024x1 .f32)
    (p : Fin 1024) (u : Fin 1) :
    k1_pay1 (F := Ideal) corr pv lOld (ix2 p u) = corr (ix2 p u) * lOld (ix2 p u) + pv (ix2 p (⟨64, by decide⟩ : Fin 128)) := by
  unfold k1_pay1
  refine (congrFun (shapeCast_self _ shapeCasts_S1024x1_S1024x1) (ix2 p u)).trans ?_
  refine congrArg (fun x => corr (ix2 p u) * lOld (ix2 p u) + x) ?_
  exact slice2_axis1_apply 64 pv slices_S1024x128_o0_64_S1024x1 p u ⟨64, by decide⟩ (by
    have := u.isLt
    show 64 = 64 + u.val
    omega)

/-- Entry (p, d) of the new numerator: the correction of row p times the carried numerator, plus the product's entry. -/
theorem pay2_apply (corr : FVec Ideal S1024x1 .f32) (pv : FVec Ideal S1024x128 .f32) (accOld : Vec Ideal S1024x64 .f32)
    (p : Fin 1024) (d : Fin 64) :
    k1_pay2 (F := Ideal) corr pv accOld (ix2 p d)
      = corr (ix2 p (0 : Fin 1)) * accOld (ix2 p d) + pv (ix2 p (⟨d.val, by omega⟩ : Fin 128)) := by
  unfold k1_pay2
  refine (congrFun (shapeCast_self _ shapeCasts_S1024x64_S1024x64) (ix2 p d)).trans ?_
  have hb : broadcastTo S1024x64 corr broadcasts_S1024x1_S1024x64 (ix2 p d) = corr (ix2 p (0 : Fin 1)) :=
    broadcastTo_a1_ab_apply corr broadcasts_S1024x1_S1024x64 p d
  have hsl : extractStridedSlice S1024x64 ![0, 0] pv slices_S1024x128_o0_0_S1024x64 (ix2 p d)
      = pv (ix2 p (⟨d.val, by omega⟩ : Fin 128)) :=
    slice2_axis1_apply 0 pv slices_S1024x128_o0_0_S1024x64 p d ⟨d.val, by omega⟩ (Nat.zero_add _).symm
  show broadcastTo S1024x64 corr broadcasts_S1024x1_S1024x64 (ix2 p d) * accOld (ix2 p d)
      + extractStridedSlice S1024x64 ![0, 0] pv slices_S1024x128_o0_0_S1024x64 (ix2 p d) = _
  rw [hb, hsl]

/-- The carried maximum is stored as it is. -/
theorem pay3_eq (m : FVec Ideal S1024x1 .f32) : k1_pay3 (F := Ideal) m = m := by
  unfold k1_pay3
  exact shapeCast_self _ shapeCasts_S1024x1_S1024x1

/-- Entry (p, d) of the output block: the unit of the numerator over the denominator of row p. -/
theorem pay4_apply (acc : Vec Ideal S1024x64 .f32) (l : Vec Ideal S1024x1 .f32) (p : Fin 1024) (d : Fin 64) :
    k1_pay4 (F := Ideal) acc l (ix2 p d) = Cert.Attn.elu (Ideal.div (acc (ix2 p d)) (l (ix2 p (0 : Fin 1)))) := by
  have hq : divf (F := Ideal) (φ := .f32) acc (broadcastTo S1024x64 l broadcasts_S1024x1_S1024x64) (ix2 p d)
      = Ideal.div (acc (ix2 p d)) (l (ix2 p (0 : Fin 1))) := by
    rw [divf_apply, broadcastTo_a1_ab_apply]
  unfold k1_pay4
  exact congrArg Cert.Attn.elu hq

/-! ## The values the scratch is reset to -/

/-- The maximum restarts at -∞. -/
theorem pay5_apply (i : S1024x1.Idx) : k1_pay5 (F := Ideal) i = ⊥ := by
  unfold k1_pay5
  exact (congrFun (shapeCast_self _ shapeCasts_S1024x1_S1024x1) i).trans Cert.ERealRows.ofBits_negInf

/-- The denominator restarts at 0. -/
theorem pay6_apply (i : S1024x1.Idx) : k1_pay6 (F := Ideal) i = 0 := by
  unfold k1_pay6
  exact (congrFun (shapeCast_self _ shapeCasts_S1024x1_S1024x1) i).trans Ideal.ofBits_zero_f32

/-- The numerator restarts at 0. -/
theorem pay7_apply (i : S1024x64.Idx) : k1_pay7 (F := Ideal) i = 0 := by
  unfold k1_pay7
  exact (congrFun (shapeCast_self _ shapeCasts_S1024x64_S1024x64) i).trans Ideal.ofBits_zero_f32

/-! ## One tile's step of the online form -/

/-- One row of one tile. If the tile's scores on row p are e, the value block's column d is h and its column 64 is
    all ones, then what the three stores of the carried scratch leave on row p (and column d of the numerator) is the
    online step of e and h applied to what the scratch held: the denominator's sum of weights is the product's column
    64, each weight multiplied by one. -/
theorem step_apply (f1b : Vec Ideal S1024x1 .f32) (f2b : Vec Ideal S1x1024 .f32) (adjb : Vec Ideal S1024x1024 .i32)
    (hb : Vec Ideal S1024x128 .bf16) (mOld lOld : Vec Ideal S1024x1 .f32) (accOld : Vec Ideal S1024x64 .f32)
    (p : Fin 1024) (d : Fin 64) (e h : Fin 1024 → EReal)
    (he : ∀ q, k1_pay8 (F := Ideal) f1b f2b adjb (ix2 p q) = e q)
    (hh : ∀ q, hb (ix2 q (⟨d.val, by omega⟩ : Fin 128)) = h q)
    (hone : ∀ q, hb (ix2 q (⟨64, by decide⟩ : Fin 128)) = 1) :
    ((k1_pay3 (F := Ideal) (k1_pay9 (F := Ideal) f1b f2b adjb mOld) (ix2 p (0 : Fin 1)),
      k1_pay1 (F := Ideal) (k1_pay10 (F := Ideal) f1b f2b adjb mOld mOld) (k1_pay11 (F := Ideal) f1b f2b adjb mOld hb) lOld
        (ix2 p (0 : Fin 1)),
      k1_pay2 (F := Ideal) (k1_pay10 (F := Ideal) f1b f2b adjb mOld mOld) (k1_pay11 (F := Ideal) f1b f2b adjb mOld hb) accOld
        (ix2 p d)) : EReal × EReal × EReal)
      = Cert.Attn.onlineStep e h (mOld (ix2 p (0 : Fin 1)), lOld (ix2 p (0 : Fin 1)), accOld (ix2 p d)) := by
  have hm : k1_pay9 (F := Ideal) f1b f2b adjb mOld (ix2 p (0 : Fin 1))
      = max (mOld (ix2 p (0 : Fin 1))) (Cert.Attn.rowMax e) :=
    (pay9_apply f1b f2b adjb mOld p 0).trans
      (congrArg (fun f => max (mOld (ix2 p (0 : Fin 1))) (Cert.Attn.rowMax f)) (funext he))
  have hc : k1_pay10 (F := Ideal) f1b f2b adjb mOld mOld (ix2 p (0 : Fin 1))
      = Ideal.exp (mOld (ix2 p (0 : Fin 1)) - max (mOld (ix2 p (0 : Fin 1))) (Cert.Attn.rowMax e)) :=
    (pay10_apply f1b f2b adjb mOld p 0).trans
      (congrArg (fun f => Ideal.exp (mOld (ix2 p (0 : Fin 1)) - max (mOld (ix2 p (0 : Fin 1))) (Cert.Attn.rowMax f))) (funext he))
  have hpv : ∀ j : Fin 128, k1_pay11 (F := Ideal) f1b f2b adjb mOld hb (ix2 p j)
      = ∑ q : Fin 1024, Ideal.exp (e q - max (mOld (ix2 p (0 : Fin 1))) (Cert.Attn.rowMax e)) * hb (ix2 q j) := fun j => by
    rw [pay11_apply]
    exact Finset.sum_congr rfl fun q _ => by rw [he q, hm]
  unfold Cert.Attn.onlineStep
  refine Prod.ext ?_ (Prod.ext ?_ ?_)
  · show k1_pay3 (F := Ideal) (k1_pay9 (F := Ideal) f1b f2b adjb mOld) (ix2 p (0 : Fin 1)) = _
    rw [pay3_eq]
    exact hm
  · show k1_pay1 (F := Ideal) (k1_pay10 (F := Ideal) f1b f2b adjb mOld mOld) (k1_pay11 (F := Ideal) f1b f2b adjb mOld hb) lOld
        (ix2 p (0 : Fin 1)) = _
    rw [pay1_apply, hc, hpv]
    show _ = Ideal.exp (mOld (ix2 p (0 : Fin 1)) - max (mOld (ix2 p (0 : Fin 1))) (Cert.Attn.rowMax e)) * lOld (ix2 p (0 : Fin 1))
        + ∑ q : Fin 1024, Ideal.exp (e q - max (mOld (ix2 p (0 : Fin 1))) (Cert.Attn.rowMax e))
    exact congrArg (fun x => Ideal.exp (mOld (ix2 p (0 : Fin 1)) - max (mOld (ix2 p (0 : Fin 1))) (Cert.Attn.rowMax e)) * lOld (ix2 p (0 : Fin 1)) + x)
      (Finset.sum_congr rfl fun q _ => by rw [hone q, mul_one])
  · show k1_pay2 (F := Ideal) (k1_pay10 (F := Ideal) f1b f2b adjb mOld mOld) (k1_pay11 (F := Ideal) f1b f2b adjb mOld hb) accOld
        (ix2 p d) = _
    rw [pay2_apply, hc, hpv]
    show _ = Ideal.exp (mOld (ix2 p (0 : Fin 1)) - max (mOld (ix2 p (0 : Fin 1))) (Cert.Attn.rowMax e)) * accOld (ix2 p d)
        + ∑ q : Fin 1024, Ideal.exp (e q - max (mOld (ix2 p (0 : Fin 1))) (Cert.Attn.rowMax e)) * h q
    exact congrArg (fun x => Ideal.exp (mOld (ix2 p (0 : Fin 1)) - max (mOld (ix2 p (0 : Fin 1))) (Cert.Attn.rowMax e)) * accOld (ix2 p d) + x)
      (Finset.sum_congr rfl fun q _ => by rw [hh q])

/-- The first tile's step starts from the reset scratch: the maximum at -∞, denominator and numerator at 0. -/
theorem reset_apply (p : Fin 1024) (d : Fin 64) :
    ((k1_pay5 (F := Ideal) (ix2 p (0 : Fin 1)), k1_pay6 (F := Ideal) (ix2 p (0 : Fin 1)), k1_pay7 (F := Ideal) (ix2 p d))
      : EReal × EReal × EReal) = (⊥, 0, 0) := by
  rw [pay5_apply, pay6_apply, pay7_apply]

end Cert.KernelIdeal.Val

end
-- ==== Proof.KIVal1b.lean ====
/-
  The three carried buffers of the attention kernel, point by point.

  Grid point t = 8 qi + ki sees query rows 1024 qi … 1024 qi + 1023 and the keys of tile ki. Its input blocks are
  read off the arrays the region is entered with: the query column at rows 1024 qi + p, the key row at columns
  1024 ki + q, the adjacency block at (1024 qi + p, 1024 ki + q), and of the whole staged value array the rows
  1024 ki + q. With these the scores of row p against tile ki are the layer's scores of row 1024 qi + p against the
  keys of that tile, and the body's three stores take the carried triple (maximum, denominator, numerator of one
  column) one online step further; the reset at ki = 0 starts it from (-∞, 0, 0). So after point t the triple of row p
  and column d is the online form after ki + 1 tiles — by induction along the points, the denominator's sum being the
  product's column 64 because column 64 of the value array is all ones.
-/
import proofs.«416619_j37056977830238_3_alg».proof.Proof.KIVal1a
import proofs.«416619_j37056977830238_3_alg».proof.Proof.KIPay1

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem

/-! ## The arrays, the blocks, and where a block's entry sits in its array -/

section AnyModel

variable {F : FTy → Type} [FloatOps F]
variable (V : (c : Dev nD) → (b : Ref sig .tc) → Buf (Elt F) ((c : Thread nD τ).loc b))

/-- The query term's column, the key term's row, the adjacency words and the extended value array, as the region finds them. -/
abbrev f1arr (c : Dev nD) : Vec F S8192x1 .f32 := V c main_v4_1
abbrev f2arr (c : Dev nD) : Vec F S1x8192 .f32 := V c main_v5
abbrev adjarr (c : Dev nD) : Vec F S8192x8192 .i32 := V c main_arg1
abbrev hextarr (c : Dev nD) : Vec F S8192x128 .bf16 := V c main_v4_0

/-- Their blocks at point t. -/
abbrev f1blk (c : Dev nD) (t : Fin cfg1.N) : Vec F S1024x1 .f32 := iblk1 V c 0 t
abbrev f2blk (c : Dev nD) (t : Fin cfg1.N) : Vec F S1x1024 .f32 := iblk1 V c 1 t
abbrev adjblk (c : Dev nD) (t : Fin cfg1.N) : Vec F S1024x1024 .i32 := iblk1 V c 2 t
abbrev hextblk (c : Dev nD) (t : Fin cfg1.N) : Vec F S8192x128 .bf16 := iblk1 V c 3 t

/-- The block indices and the value tile's offset at point t = 8 qi + ki, decided over the grid. -/
theorem idx_facts1 : ∀ t : Fin cfg1.N,
    win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = t.val % 8
    ∧ win1_3.index t (0 : Fin 2) = 0 ∧ win1_3.index t (1 : Fin 2) = 0
    ∧ win1_4.index t (0 : Fin 2) = t.val / 8 ∧ win1_4.index t (1 : Fin 2) = 0
    ∧ k1_off1 (grid1.coords t) (0 : Fin 2) = 1024 * (t.val % 8) ∧ k1_off1 (grid1.coords t) (1 : Fin 2) = 0 :=
  (by decide +kernel : ∀ t : Fin grid1.N, _)

theorem N1 : cfg1.N = 64 := N_1

/-- The array row of block row p at point t. -/
abbrev rowOf (t : Fin cfg1.N) (p : Fin 1024) : Fin 8192 :=
  ⟨1024 * (t.val / 8) + p.val, by have := t.isLt; have := N1; have := p.isLt; omega⟩
/-- The array column (the key) of tile position q at point t. -/
abbrev colOf (t : Fin cfg1.N) (q : Fin 1024) : Fin 8192 :=
  ⟨1024 * (t.val % 8) + q.val, by have := q.isLt; omega⟩

theorem f1blk_apply (c : Dev nD) (t : Fin cfg1.N) (p : Fin 1024) (u : Fin 1) :
    f1blk V c t (ix2 p u) = f1arr V c (ix2 (rowOf t p) (0 : Fin 1)) := by
  obtain ⟨e0, e1, -⟩ := idx_facts1 t
  show V c main_v4_1 (((cfg1.win 0).blk t).view.emb (ix2 p u)) = V c main_v4_1 _
  refine congrArg (V c main_v4_1) (funext fun a => Fin.ext ?_)
  match a with
  | ⟨0, _⟩ => show win1_0.index t (0 : Fin 2) * 1024 + 1 * p.val = 1024 * (t.val / 8) + p.val; rw [e0]; omega
  | ⟨1, _⟩ => show win1_0.index t (1 : Fin 2) * 1 + 1 * u.val = 0; rw [e1]; have := u.isLt; omega

theorem f2blk_apply (c : Dev nD) (t : Fin cfg1.N) (u : Fin 1) (q : Fin 1024) :
    f2blk V c t (ix2 u q) = f2arr V c (ix2 (0 : Fin 1) (colOf t q)) := by
  obtain ⟨-, -, e2, e3, -⟩ := idx_facts1 t
  show V c main_v5 (((cfg1.win 1).blk t).view.emb (ix2 u q)) = V c main_v5 _
  refine congrArg (V c main_v5) (funext fun a => Fin.ext ?_)
  match a with
  | ⟨0, _⟩ => show win1_1.index t (0 : Fin 2) * 1 + 1 * u.val = 0; rw [e2]; have := u.isLt; omega
  | ⟨1, _⟩ => show win1_1.index t (1 : Fin 2) * 1024 + 1 * q.val = 1024 * (t.val % 8) + q.val; rw [e3]; omega

theorem adjblk_apply (c : Dev nD) (t : Fin cfg1.N) (p q : Fin 1024) :
    adjblk V c t (ix2 p q) = adjarr V c (ix2 (rowOf t p) (colOf t q)) := by
  obtain ⟨-, -, -, -, e4, e5, -⟩ := idx_facts1 t
  show V c main_arg1 (((cfg1.win 2).blk t).view.emb (ix2 p q)) = V c main_arg1 _
  refine congrArg (V c main_arg1) (funext fun a => Fin.ext ?_)
  match a with
  | ⟨0, _⟩ => show win1_2.index t (0 : Fin 2) * 1024 + 1 * p.val = 1024 * (t.val / 8) + p.val; rw [e4]; omega
  | ⟨1, _⟩ => show win1_2.index t (1 : Fin 2) * 1024 + 1 * q.val = 1024 * (t.val % 8) + q.val; rw [e5]; omega

/-- The tile of the value array the body loads at point t. -/
abbrev hexttile (c : Dev nD) (t : Fin cfg1.N) : Vec F S1024x128 .bf16 := valueTile (grid1.coords t) (hextblk V c t)

theorem hexttile_apply (c : Dev nD) (t : Fin cfg1.N) (q : Fin 1024) (j : Fin 128) :
    hexttile V c t (ix2 q j) = hextarr V c (ix2 (colOf t q) j) := by
  obtain ⟨-, -, -, -, -, -, e6, e7, -, -, e10, e11⟩ := idx_facts1 t
  show V c main_v4_0 (((cfg1.win 3).blk t).view.emb
      ((Rect.unit (s := S8192x128) (k1_off1 (grid1.coords t)) S1024x128.size (k1_off1_inb (grid1.coords t))).idx (ix2 q j))) = V c main_v4_0 _
  refine congrArg (V c main_v4_0) (funext fun a => Fin.ext ?_)
  match a with
  | ⟨0, _⟩ =>
    show win1_3.index t (0 : Fin 2) * 8192 + 1 * (k1_off1 (grid1.coords t) (0 : Fin 2) + 1 * q.val) = 1024 * (t.val % 8) + q.val
    rw [e6, e10]; omega
  | ⟨1, _⟩ =>
    show win1_3.index t (1 : Fin 2) * 128 + 1 * (k1_off1 (grid1.coords t) (1 : Fin 2) + 1 * j.val) = j.val
    rw [e7, e11]; omega

/-! ## What the buffers hold after a point, as payloads over what they held before -/

/-- The output's staging block and the three carried buffers after position n. -/
abbrev outAt (c : Dev nD) (n : ℕ) (hn : n < cfg1.N) : Vec F S1024x64 .f32 := (outsAt1 V c n hn).1
abbrev mAt (c : Dev nD) (n : ℕ) (hn : n < cfg1.N) : Vec F S1024x1 .f32 := (outsAt1 V c n hn).2.1
abbrev lAt (c : Dev nD) (n : ℕ) (hn : n < cfg1.N) : Vec F S1024x1 .f32 := (outsAt1 V c n hn).2.2.1
abbrev accAt (c : Dev nD) (n : ℕ) (hn : n < cfg1.N) : Vec F S1024x64 .f32 := (outsAt1 V c n hn).2.2.2

/-- The three payloads of the carried buffers at point t over a carried triple. -/
abbrev mNew (c : Dev nD) (t : Fin cfg1.N) (mO : Vec F S1024x1 .f32) : Vec F S1024x1 .f32 :=
  k1_pay3 (k1_pay9 (f1blk V c t) (f2blk V c t) (adjblk V c t) mO)
abbrev lNew (c : Dev nD) (t : Fin cfg1.N) (mO lO : Vec F S1024x1 .f32) : Vec F S1024x1 .f32 :=
  k1_pay1 (k1_pay10 (f1blk V c t) (f2blk V c t) (adjblk V c t) mO mO) (k1_pay11 (f1blk V c t) (f2blk V c t) (adjblk V c t) mO (hexttile V c t)) lO
abbrev accNew (c : Dev nD) (t : Fin cfg1.N) (mO : Vec F S1024x1 .f32) (aO : Vec F S1024x64 .f32) : Vec F S1024x64 .f32 :=
  k1_pay2 (k1_pay10 (f1blk V c t) (f2blk V c t) (adjblk V c t) mO mO) (k1_pay11 (f1blk V c t) (f2blk V c t) (adjblk V c t) mO (hexttile V c t)) aO

/-- At a first key block the buffers hold the step from the reset values. -/
theorem scratch_first (c : Dev nD) (t : Fin cfg1.N) (h0 : t.val % 8 = 0) :
    mAt V c t.val t.isLt = mNew V c t (k1_pay5 (F := F))
    ∧ lAt V c t.val t.isLt = lNew V c t (k1_pay5 (F := F)) (k1_pay6 (F := F))
    ∧ accAt V c t.val t.isLt = accNew V c t (k1_pay5 (F := F)) (k1_pay7 (F := F)) := by
  have h1 : ¬t.val % 8 = 7 := by omega
  show (outsAt1 V c t.val t.isLt).2.1 = _ ∧ (outsAt1 V c t.val t.isLt).2.2.1 = _ ∧ (outsAt1 V c t.val t.isLt).2.2.2 = _
  rw [outsAt1_A V c t h0 h1]
  dsimp only
  exact ⟨sout1_A_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
    sout1_A_1_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
    sout1_A_2_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)⟩

/-- At a later key block the buffers hold the step from what the point before left. -/
theorem scratch_next (c : Dev nD) (m : ℕ) (hn : m + 1 < cfg1.N) (h0 : ¬(m + 1) % 8 = 0) :
    mAt V c (m + 1) hn = mNew V c ⟨m + 1, hn⟩ (mAt V c m (Nat.lt_of_succ_lt hn))
    ∧ lAt V c (m + 1) hn = lNew V c ⟨m + 1, hn⟩ (mAt V c m (Nat.lt_of_succ_lt hn)) (lAt V c m (Nat.lt_of_succ_lt hn))
    ∧ accAt V c (m + 1) hn = accNew V c ⟨m + 1, hn⟩ (mAt V c m (Nat.lt_of_succ_lt hn)) (accAt V c m (Nat.lt_of_succ_lt hn)) := by
  generalize ht : (⟨m + 1, hn⟩ : Fin cfg1.N) = t
  have htv : t.val = m + 1 := by rw [← ht]
  have h0' : ¬t.val % 8 = 0 := by rw [htv]; exact h0
  have hprev : ∀ (h : t.val - 1 < cfg1.N), outsAt1 V c (t.val - 1) h = outsAt1 V c m (Nat.lt_of_succ_lt hn) := by
    have e : t.val - 1 = m := by rw [htv]; rfl
    intro h; subst e; rfl
  show (outsAt1 V c (m + 1) hn).2.1 = _ ∧ (outsAt1 V c (m + 1) hn).2.2.1 = _ ∧ (outsAt1 V c (m + 1) hn).2.2.2 = _
  have hcur : outsAt1 V c (m + 1) hn = outsAt1 V c t.val t.isLt := by subst ht; rfl
  rw [hcur]
  by_cases h1 : t.val % 8 = 7
  · rw [outsAt1_C V c t h0' h1]
    dsimp only
    rw [hprev]
    exact ⟨sout1_C_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0' ((hcond1_0 t).mp h)) ((hcond1_1 t).mpr h1) (iblk1 V c 0 t) (iblk1 V c 1 t) (iblk1 V c 2 t) (iblk1 V c 3 t) (outsAt1 V c m (Nat.lt_of_succ_lt hn)).2.1 (outsAt1 V c m (Nat.lt_of_succ_lt hn)).2.2.1 (outsAt1 V c m (Nat.lt_of_succ_lt hn)).2.2.2,
      sout1_C_1_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0' ((hcond1_0 t).mp h)) ((hcond1_1 t).mpr h1) (iblk1 V c 0 t) (iblk1 V c 1 t) (iblk1 V c 2 t) (iblk1 V c 3 t) (outsAt1 V c m (Nat.lt_of_succ_lt hn)).2.1 (outsAt1 V c m (Nat.lt_of_succ_lt hn)).2.2.1 (outsAt1 V c m (Nat.lt_of_succ_lt hn)).2.2.2,
      sout1_C_2_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0' ((hcond1_0 t).mp h)) ((hcond1_1 t).mpr h1) (iblk1 V c 0 t) (iblk1 V c 1 t) (iblk1 V c 2 t) (iblk1 V c 3 t) (outsAt1 V c m (Nat.lt_of_succ_lt hn)).2.1 (outsAt1 V c m (Nat.lt_of_succ_lt hn)).2.2.1 (outsAt1 V c m (Nat.lt_of_succ_lt hn)).2.2.2⟩
  · rw [outsAt1_B V c t h0' h1]
    dsimp only
    rw [hprev]
    exact ⟨sout1_B_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0' ((hcond1_0 t).mp h)) (fun h => h1 ((hcond1_1 t).mp h)) (iblk1 V c 0 t) (iblk1 V c 1 t) (iblk1 V c 2 t) (iblk1 V c 3 t) (outsAt1 V c m (Nat.lt_of_succ_lt hn)).2.1 (outsAt1 V c m (Nat.lt_of_succ_lt hn)).2.2.1 (outsAt1 V c m (Nat.lt_of_succ_lt hn)).2.2.2,
      sout1_B_1_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0' ((hcond1_0 t).mp h)) (fun h => h1 ((hcond1_1 t).mp h)) (iblk1 V c 0 t) (iblk1 V c 1 t) (iblk1 V c 2 t) (iblk1 V c 3 t) (outsAt1 V c m (Nat.lt_of_succ_lt hn)).2.1 (outsAt1 V c m (Nat.lt_of_succ_lt hn)).2.2.1 (outsAt1 V c m (Nat.lt_of_succ_lt hn)).2.2.2,
      sout1_B_2_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0' ((hcond1_0 t).mp h)) (fun h => h1 ((hcond1_1 t).mp h)) (iblk1 V c 0 t) (iblk1 V c 1 t) (iblk1 V c 2 t) (iblk1 V c 3 t) (outsAt1 V c m (Nat.lt_of_succ_lt hn)).2.1 (outsAt1 V c m (Nat.lt_of_succ_lt hn)).2.2.1 (outsAt1 V c m (Nat.lt_of_succ_lt hn)).2.2.2⟩

/-- At a last key block the output block is the quotient's payload over the buffers as that point leaves them. -/
theorem out_last (c : Dev nD) (t : Fin cfg1.N) (h1 : t.val % 8 = 7) :
    outAt V c t.val t.isLt = k1_pay4 (accAt V c t.val t.isLt) (lAt V c t.val t.isLt) := by
  have h0 : ¬t.val % 8 = 0 := by omega
  show (outsAt1 V c t.val t.isLt).1 = k1_pay4 (outsAt1 V c t.val t.isLt).2.2.2 (outsAt1 V c t.val t.isLt).2.2.1
  rw [outsAt1_C V c t h0 h1]
  dsimp only
  rw [sout1_C_1_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_2_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  exact out1_C_4_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

end AnyModel

/-! ## The online form along the points, at exact arithmetic -/

section AtIdeal

variable (V : (c : Dev nD) → (b : Ref sig .tc) → Buf (Elt Ideal) ((c : Thread nD τ).loc b))

/-- The scores of array row r against tile k. -/
def eRow (c : Dev nD) (r : Fin 8192) (k : ℕ) (q : Fin 1024) : EReal :=
  Cert.Attn.score (f1arr V c (ix2 r (0 : Fin 1)) + f2arr V c (ix2 (0 : Fin 1) (Cert.Attn.keyAt k q)))
    (adjarr V c (ix2 r (Cert.Attn.keyAt k q)))
/-- Column d of the value array on tile k. -/
def hCol (c : Dev nD) (d : Fin 64) (k : ℕ) (q : Fin 1024) : EReal :=
  hextarr V c (ix2 (Cert.Attn.keyAt k q) (⟨d.val, by omega⟩ : Fin 128))

/-- Position q of tile ki is the key 1024 ki + q. -/
theorem keyAt_col (t : Fin cfg1.N) (q : Fin 1024) : Cert.Attn.keyAt (t.val % 8) q = colOf t q :=
  Fin.ext (Nat.mod_eq_of_lt (by have := q.isLt; omega))

/-- One point's step on row p and column d: the three payloads over a carried triple are the online step of the
    row's scores and the column's values on tile ki. -/
theorem point_step (c : Dev nD) (hones : ∀ j : Fin 8192, hextarr V c (ix2 j (⟨64, by decide⟩ : Fin 128)) = 1)
    (t : Fin cfg1.N) (p : Fin 1024) (d : Fin 64) (mO lO : Vec Ideal S1024x1 .f32) (aO : Vec Ideal S1024x64 .f32) :
    ((mNew V c t mO (ix2 p (0 : Fin 1)), lNew V c t mO lO (ix2 p (0 : Fin 1)), accNew V c t mO aO (ix2 p d)) : EReal × EReal × EReal)
      = Cert.Attn.onlineStep (eRow V c (rowOf t p) (t.val % 8)) (hCol V c d (t.val % 8))
          (mO (ix2 p (0 : Fin 1)), lO (ix2 p (0 : Fin 1)), aO (ix2 p d)) :=
  step_apply (f1blk V c t) (f2blk V c t) (adjblk V c t) (hexttile V c t) mO lO aO p d
    (eRow V c (rowOf t p) (t.val % 8)) (hCol V c d (t.val % 8))
    (fun q => by
      rw [pay8_apply, f1blk_apply, f2blk_apply, adjblk_apply]
      unfold eRow
      rw [keyAt_col])
    (fun q => by
      rw [hexttile_apply]
      unfold hCol
      rw [keyAt_col])
    (fun q => by rw [hexttile_apply]; exact hones _)

/-- THE INVARIANT. After position n = 8 qi + ki, row p of the carried maximum and denominator and entry (p, d) of
    the carried numerator are the online form of array row 1024 qi + p and value column d after ki + 1 tiles. -/
theorem scratch_inv (c : Dev nD) (hones : ∀ j : Fin 8192, hextarr V c (ix2 j (⟨64, by decide⟩ : Fin 128)) = 1) :
    ∀ (n : ℕ) (hn : n < cfg1.N) (p : Fin 1024) (d : Fin 64),
      ((mAt V c n hn (ix2 p (0 : Fin 1)), lAt V c n hn (ix2 p (0 : Fin 1)), accAt V c n hn (ix2 p d)) : EReal × EReal × EReal)
        = Cert.Attn.onlineAt (eRow V c (rowOf ⟨n, hn⟩ p)) (hCol V c d) (n % 8 + 1) := by
  have first : ∀ (n : ℕ) (hn : n < cfg1.N) (h0 : n % 8 = 0) (p : Fin 1024) (d : Fin 64),
      ((mAt V c n hn (ix2 p (0 : Fin 1)), lAt V c n hn (ix2 p (0 : Fin 1)), accAt V c n hn (ix2 p d)) : EReal × EReal × EReal)
        = Cert.Attn.onlineAt (eRow V c (rowOf ⟨n, hn⟩ p)) (hCol V c d) (n % 8 + 1) := by
    intro n hn h0 p d
    obtain ⟨em, el, ea⟩ := scratch_first V c ⟨n, hn⟩ h0
    rw [show mAt V c n hn = _ from em, show lAt V c n hn = _ from el, show accAt V c n hn = _ from ea,
      point_step V c hones ⟨n, hn⟩ p d, reset_apply, h0]
    rfl
  intro n
  induction n with
  | zero => intro hn p d; exact first 0 hn rfl p d
  | succ m ih =>
    intro hn p d
    by_cases h0 : (m + 1) % 8 = 0
    · exact first (m + 1) hn h0 p d
    · have hm : m < cfg1.N := Nat.lt_of_succ_lt hn
      obtain ⟨em, el, ea⟩ := scratch_next V c m hn h0
      rw [show mAt V c (m + 1) hn = _ from em, show lAt V c (m + 1) hn = _ from el, show accAt V c (m + 1) hn = _ from ea,
        point_step V c hones ⟨m + 1, hn⟩ p d, ih hm p d]
      have hrow : rowOf (⟨m + 1, hn⟩ : Fin cfg1.N) p = rowOf (⟨m, hm⟩ : Fin cfg1.N) p := Fin.ext (by
        show 1024 * ((m + 1) / 8) + p.val = 1024 * (m / 8) + p.val
        omega)
      have hk : (m + 1) % 8 = m % 8 + 1 := by omega
      show Cert.Attn.onlineStep (eRow V c (rowOf ⟨m + 1, hn⟩ p) ((m + 1) % 8)) (hCol V c d ((m + 1) % 8))
          (Cert.Attn.onlineAt (eRow V c (rowOf ⟨m, hm⟩ p)) (hCol V c d) (m % 8 + 1)) = _
      rw [hrow, hk]
      rfl

end AtIdeal

end Cert.KernelIdeal.Val

end
-- ==== Proof.KIVal1c.lean ====
/-
  What the attention kernel leaves in its output array.

  The output block of query block qi is stored, and written back, only at the last key tile (point 8 qi + 7). By
  then the carried triple of row p and column d is the online form after all eight tiles, and the stored entry is the
  exponential linear unit of numerator over denominator: the layer's output entry in the online form, for array row
  1024 qi + p. The eight written blocks tile the array's 8192 rows (row r is in the block of point 8 (r / 1024) + 7), so
  the array ends holding that entry everywhere.
-/
import proofs.«416619_j37056977830238_3_alg».proof.Proof.KIVal1b

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The layer's output in the online form, entry by entry, from the arrays the region is entered with. -/
def attnOut (c : Dev nD) : Vec Ideal S8192x64 .f32 :=
  fun i => Cert.Attn.elu (Cert.Attn.online (eRow V c (i 0)) (hCol V c (i 1)))

/-- Entry (p, d) of the output block a last key tile stores: the online form of array row 1024 qi + p, column d. -/
theorem out_apply (c : Dev nD) (hones : ∀ j : Fin 8192, hextarr V c (ix2 j (⟨64, by decide⟩ : Fin 128)) = 1)
    (t : Fin cfg1.N) (h7 : t.val % 8 = 7) (p : Fin 1024) (d : Fin 64) :
    outAt V c t.val t.isLt (ix2 p d) = Cert.Attn.elu (Cert.Attn.online (eRow V c (rowOf t p)) (hCol V c d)) := by
  have inv := scratch_inv V c hones t.val t.isLt p d
  have h8 : t.val % 8 + 1 = 8 := by omega
  rw [h8] at inv
  rw [out_last V c t h7, pay4_apply]
  unfold Cert.Attn.online
  rw [show Cert.Attn.onlineAt (eRow V c (rowOf t p)) (hCol V c d) 8 = _ from inv.symm]

/-- Where entry (p, d) of the output block of point t sits in the array. -/
theorem emb4 (t : Fin cfg1.N) (p : Fin 1024) (d : Fin 64) :
    ((cfg1.win 4).blk t).view.emb (ix2 p d) = ix2 (rowOf t p) d := by
  obtain ⟨-, -, -, -, -, -, -, -, e8, e9, -⟩ := idx_facts1 t
  refine funext fun a => Fin.ext ?_
  match a with
  | ⟨0, _⟩ => show win1_4.index t (0 : Fin 2) * 1024 + 1 * p.val = 1024 * (t.val / 8) + p.val; rw [e8]; omega
  | ⟨1, _⟩ => show win1_4.index t (1 : Fin 2) * 64 + 1 * d.val = d.val; rw [e9]; omega

/-- What a last key tile writes back is its block of the online form. -/
theorem flushed_eq (c : Dev nD) (hones : ∀ j : Fin 8192, hextarr V c (ix2 j (⟨64, by decide⟩ : Fin 128)) = 1)
    (t : Fin cfg1.N) (hf : (cfg1.win 4).flush t = true) :
    (dat1 V c).flushed 4 t = ((cfg1.win 4).blk t).view.read (Elt Ideal) (attnOut V c) := by
  have h7 : t.val % 8 = 7 := (flush1_4 t).mp hf
  show (cfg1.win 4).cut (grid1.coords t) ((dat1 V c).after 4 t) = _
  rw [after1_4]
  funext y
  obtain ⟨p, d, rfl⟩ : ∃ (p : Fin 1024) (d : Fin 64), y = ix2 p d := ⟨y 0, y 1, eq_ix2 y⟩
  show outAt V c t.val t.isLt (ix2 p d) = attnOut V c (((cfg1.win 4).blk t).view.emb (ix2 p d))
  rw [out_apply V c hones t h7 p d, emb4 t p d]
  rfl

/-- An index of the array is in point t's block iff each coordinate is in the block's range on its axis. -/
theorem mem_blk4 (t : Fin cfg1.N) (i : S8192x64.Idx) :
    i ∈ ((cfg1.win 4).blk t).view.set ↔ ∀ a : Fin 2, win1_4.index t a * S1024x64.size a ≤ (i a).val
      ∧ (i a).val < win1_4.index t a * S1024x64.size a + S1024x64.size a := by
  show i ∈ ((View.whole main_v6).slice (win1_4.rect t)).set ↔ _
  rw [View.set_slice_whole, Rect.mem_set_unit]
  exact Iff.rfl

/-- Row r of the array is written back by the last key tile of query block r / 1024. -/
theorem cover4 (i : S8192x64.Idx) : ∃ t : Fin cfg1.N, (cfg1.win 4).flush t = true ∧ i ∈ ((cfg1.win 4).blk t).view.set := by
  have hi0 : (i 0).val < 8192 := (i 0).isLt
  have hi1 : (i 1).val < 64 := (i 1).isLt
  have hN := N1
  have hlt : 8 * ((i 0).val / 1024) + 7 < cfg1.N := by omega
  obtain ⟨-, -, -, -, -, -, -, -, e8, e9, -⟩ := idx_facts1 ⟨8 * ((i 0).val / 1024) + 7, hlt⟩
  refine ⟨⟨8 * ((i 0).val / 1024) + 7, hlt⟩, (flush1_4 _).mpr (by show (8 * ((i 0).val / 1024) + 7) % 8 = 7; omega), ?_⟩
  rw [mem_blk4]
  intro a
  match a with
  | ⟨0, _⟩ =>
    show win1_4.index ⟨8 * ((i 0).val / 1024) + 7, hlt⟩ (0 : Fin 2) * 1024 ≤ (i 0).val
      ∧ (i 0).val < win1_4.index ⟨8 * ((i 0).val / 1024) + 7, hlt⟩ (0 : Fin 2) * 1024 + 1024
    rw [e8]
    show (8 * ((i 0).val / 1024) + 7) / 8 * 1024 ≤ (i 0).val ∧ (i 0).val < (8 * ((i 0).val / 1024) + 7) / 8 * 1024 + 1024
    omega
  | ⟨1, _⟩ =>
    show win1_4.index ⟨8 * ((i 0).val / 1024) + 7, hlt⟩ (1 : Fin 2) * 64 ≤ (i 1).val
      ∧ (i 1).val < win1_4.index ⟨8 * ((i 0).val / 1024) + 7, hlt⟩ (1 : Fin 2) * 64 + 64
    rw [e9]
    omega

/-- THE OUTPUT ARRAY after the region: the layer's output in the online form. -/
theorem attn_eq (c : Dev nD) (hones : ∀ j : Fin 8192, hextarr V c (ix2 j (⟨64, by decide⟩ : Fin 128)) = 1) :
    (dat1 V c).arrAt 4 cfg1.N = attnOut V c :=
  (dat1 V c).arrAt_eq_of_cover 4 (attnOut V c) (fun t hf => flushed_eq V c hones t hf) cover4

/-- The same at an entry, spelt over the four arrays the region is entered with (the query term's column f1arr, the key
    term's row f2arr, the adjacency words adjarr, the extended value array hextarr): the unit of the online
    softmax-weighted sum of value column d under the scores of row i. -/
theorem attn_apply (c : Dev nD) (hones : ∀ j : Fin 8192, hextarr V c (ix2 j (⟨64, by decide⟩ : Fin 128)) = 1)
    (i : Fin 8192) (d : Fin 64) :
    ((dat1 V c).arrAt 4 cfg1.N : Vec Ideal S8192x64 .f32) (ix2 i d)
      = Cert.Attn.elu (Cert.Attn.online
          (fun k p => Cert.Attn.score (f1arr V c (ix2 i (0 : Fin 1)) + f2arr V c (ix2 (0 : Fin 1) (Cert.Attn.keyAt k p)))
            (adjarr V c (ix2 i (Cert.Attn.keyAt k p))))
          (fun k p => hextarr V c (ix2 (Cert.Attn.keyAt k p) (⟨d.val, by omega⟩ : Fin 128)))) := by
  rw [attn_eq V c hones]
  rfl

/-- The four arrays are the region-entry contents of the projection's results, the transposed key term and the
    adjacency argument. -/
theorem f1arr_eq (c : Dev nD) : f1arr V c = V c main_v4_1 := rfl
theorem f2arr_eq (c : Dev nD) : f2arr V c = V c main_v5 := rfl
theorem adjarr_eq (c : Dev nD) : adjarr V c = V c main_arg1 := rfl
theorem hextarr_eq (c : Dev nD) : hextarr V c = V c main_v4_0 := rfl

end Cert.KernelIdeal.Val

end
-- ==== Proof.KIOut.lean ====
/-
  The kernel program's result, entry by entry, as the online form of the layer.

  The attention region's output at `(i, d)` is the unit applied to the online quotient of row `i`; its scores are
  built from the two score columns the projection region wrote, its values are the projected features. The host
  stretches between the regions only move entries: the attention vector's two halves are laid as rows before the
  projection region, and the right-hand score column is laid as a row before the attention region. Reading every
  entry back to the launch memory gives the layer's online form over the four arguments.
-/
import proofs.«416619_j37056977830238_3_alg».proof.Proof.KIRun
import proofs.«416619_j37056977830238_3_alg».proof.Proof.KIVal0
import proofs.«416619_j37056977830238_3_alg».proof.Proof.KIVal1c
import proofs.«416619_j37056977830238_3_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

/-! ## Typed reads

A buffer's contents are an array over its shape; reading one at an index through these two names gives the entry
at its own type (an extended real, or a 32-bit word). -/

/-- An array of extended reals read at an index. -/
abbrev rdE (s : Shape) (f : s.Idx → EReal) (i : s.Idx) : EReal := f i
/-- An array of 32-bit words read at an index. -/
abbrev rdW (s : Shape) (f : s.Idx → BitVec 32) (i : s.Idx) : BitVec 32 := f i

/-! ## The host stretches read at coordinates -/

/-- After the first host stretch the first row vector holds the first half of the attention vector: the slice
    `[0:64]` of the column, laid as a row. -/
theorem host0_v1 (V : Valuation τ sig (Elt Ideal)) (d : Fin 64) :
    rdE S1x64 (StableHlo.after (hostOps0 (F := Ideal)) V (Proc.devRef .tc main_v1)) (ix2 (0 : Fin 1) d)
      = rdE S128x1 (V (Proc.devRef .tc main_arg3)) (ix2 (⟨d.val, by omega⟩ : Fin 128) (0 : Fin 1)) := by
  have e : (StableHlo.after (hostOps0 (F := Ideal)) V (Proc.devRef .tc main_v1) : S1x64.Idx → EReal)
      = shapeCast S1x64 (extractStridedSlice S64x1 ![0, 0] (V (Proc.devRef .tc main_arg3) : S128x1.Idx → EReal) Facts₀.slices_S128x1_S64x1_0_0)
          Facts₀.shapeCasts_S64x1_S1x64 := by
    dsimp only [hostOps0]; after_results; rfl
  unfold rdE
  rw [e, shapeCast_apply _ Facts₀.shapeCasts_S64x1_S1x64 (ix2 (0 : Fin 1) d) (ix2 d (0 : Fin 1))
    (by rw [Shape.rowMajor_val_two, Shape.rowMajor_val_two]; show d.val * 1 + 0 = 0 * 64 + d.val; omega)]
  exact slice2_axis0_apply 0 _ Facts₀.slices_S128x1_S64x1_0_0 d 0 ⟨d.val, by omega⟩ (Nat.zero_add _).symm

/-- and the second row vector the second half: the slice `[64:128]`, laid as a row. -/
theorem host0_v3 (V : Valuation τ sig (Elt Ideal)) (d : Fin 64) :
    rdE S1x64 (StableHlo.after (hostOps0 (F := Ideal)) V (Proc.devRef .tc main_v3)) (ix2 (0 : Fin 1) d)
      = rdE S128x1 (V (Proc.devRef .tc main_arg3)) (ix2 (⟨64 + d.val, by omega⟩ : Fin 128) (0 : Fin 1)) := by
  have e : (StableHlo.after (hostOps0 (F := Ideal)) V (Proc.devRef .tc main_v3) : S1x64.Idx → EReal)
      = shapeCast S1x64 (extractStridedSlice S64x1 ![64, 0] (V (Proc.devRef .tc main_arg3) : S128x1.Idx → EReal) Facts₀.slices_S128x1_S64x1_64_0)
          Facts₀.shapeCasts_S64x1_S1x64 := by
    dsimp only [hostOps0]; after_results; rfl
  unfold rdE
  rw [e, shapeCast_apply _ Facts₀.shapeCasts_S64x1_S1x64 (ix2 (0 : Fin 1) d) (ix2 d (0 : Fin 1))
    (by rw [Shape.rowMajor_val_two, Shape.rowMajor_val_two]; show d.val * 1 + 0 = 0 * 64 + d.val; omega)]
  exact slice2_axis0_apply 64 _ Facts₀.slices_S128x1_S64x1_64_0 d 0 ⟨64 + d.val, by omega⟩ rfl

/-- After the second host stretch the score row at `(0, j)` is the score column at `(j, 0)`. -/
theorem host1_v5 (V : Valuation τ sig (Elt Ideal)) (j : Fin 8192) :
    rdE S1x8192 (StableHlo.after (hostOps1 (F := Ideal)) V (Proc.devRef .tc main_v5)) (ix2 (0 : Fin 1) j)
      = rdE S8192x1 (V (Proc.devRef .tc main_v4_2)) (ix2 j (0 : Fin 1)) := by
  have e : (StableHlo.after (hostOps1 (F := Ideal)) V (Proc.devRef .tc main_v5) : S1x8192.Idx → EReal)
      = transpose S1x8192 [1, 0] (V (Proc.devRef .tc main_v4_2) : S8192x1.Idx → EReal) Facts₀.transposes_S8192x1_S1x8192_1_0 := by
    dsimp only [hostOps1]; after_results
  unfold rdE
  rw [e]
  exact transpose_ix2_apply _ Facts₀.transposes_S8192x1_S1x8192_1_0 0 j

/-! ## The boundary contents read back to the launch memory -/

section Reads

variable (m : (ℓ : Loc nD τ sig) → Buf (Elt Ideal) ℓ) (ρ : Dev nD → PrngReg)

/-- The projection region is entered with the first half of the attention vector in its first row vector, -/
theorem V1_main_v1_apply (c : Dev nD) (d : Fin 64) :
    rdE S1x64 (V1 m ρ c main_v1) (ix2 (0 : Fin 1) d)
      = rdE S128x1 (m ((c : Thread nD τ).loc main_arg3)) (ix2 (⟨d.val, by omega⟩ : Fin 128) (0 : Fin 1)) :=
  host0_v1 (W0 m ρ c) d

/-- the second half in its second, -/
theorem V1_main_v3_apply (c : Dev nD) (d : Fin 64) :
    rdE S1x64 (V1 m ρ c main_v3) (ix2 (0 : Fin 1) d)
      = rdE S128x1 (m ((c : Thread nD τ).loc main_arg3)) (ix2 (⟨64 + d.val, by omega⟩ : Fin 128) (0 : Fin 1)) :=
  host0_v3 (W0 m ρ c) d

/-- and the node features and the weights as launched. -/
theorem V1_main_arg0 (c : Dev nD) : V1 m ρ c main_arg0 = m ((c : Thread nD τ).loc main_arg0) :=
  W1_of m ρ c main_arg0 (by decide) (by decide) (by decide) (by decide)
theorem V1_main_arg2 (c : Dev nD) : V1 m ρ c main_arg2 = m ((c : Thread nD τ).loc main_arg2) :=
  W1_of m ρ c main_arg2 (by decide) (by decide) (by decide) (by decide)

/-- The attention region is entered with the right-hand score column laid as a row, -/
theorem V3_main_v5_apply (c : Dev nD) (j : Fin 8192) :
    rdE S1x8192 (V3 m ρ c main_v5) (ix2 (0 : Fin 1) j)
      = rdE S8192x1 ((dat0 (V1 m ρ) c).arrAt 6 cfg0.N) (ix2 j (0 : Fin 1)) :=
  (host1_v5 (W2 m ρ c) j).trans (congrArg (fun f : S8192x1.Idx → EReal => rdE S8192x1 f (ix2 j (0 : Fin 1))) (W2_main_v4_2 m ρ c))

/-- and the adjacency as launched. -/
theorem V3_main_arg1 (c : Dev nD) : V3 m ρ c main_arg1 = m ((c : Thread nD τ).loc main_arg1) :=
  (V3_of m ρ c main_arg1 (by decide)).trans ((W2_of_ne m ρ c main_arg1 (by decide)).trans
    (W1_of m ρ c main_arg1 (by decide) (by decide) (by decide) (by decide)))

end Reads

/-! ## The composition -/

section Compose

variable (m : (ℓ : Loc nD τ sig) → Buf (Elt Ideal) ℓ) (ρ : Dev nD → PrngReg)

/-- The node features, the weights, the attention vector and the adjacency at launch, entry by entry. -/
abbrev Xin (c : Dev nD) : Fin 8192 → Fin 256 → EReal :=
  fun i k => rdE S8192x256 (m ((c : Thread nD τ).loc main_arg0)) (ix2 i k)
abbrev Win (c : Dev nD) : Fin 256 → Fin 64 → EReal :=
  fun k d => rdE S256x64 (m ((c : Thread nD τ).loc main_arg2)) (ix2 k d)
abbrev ain (c : Dev nD) : Fin 128 → EReal :=
  fun q => rdE S128x1 (m ((c : Thread nD τ).loc main_arg3)) (ix2 q (0 : Fin 1))
abbrev adjin (c : Dev nD) : Fin 8192 → Fin 8192 → BitVec 32 :=
  fun i j => rdW S8192x8192 (m ((c : Thread nD τ).loc main_arg1)) (ix2 i j)

/-- The same two matrices at the projection region's entry. -/
abbrev X1 (c : Dev nD) : Fin 8192 → Fin 256 → EReal :=
  fun i k => rdE S8192x256 (V1 m ρ c main_arg0) (ix2 i k)
abbrev W1' (c : Dev nD) : Fin 256 → Fin 64 → EReal :=
  fun k d => rdE S256x64 (V1 m ρ c main_arg2) (ix2 k d)

theorem X1_eq (c : Dev nD) : X1 m ρ c = Xin m c :=
  funext fun i => funext fun k => congrArg (fun f : S8192x256.Idx → EReal => rdE S8192x256 f (ix2 i k)) (V1_main_arg0 m ρ c)
theorem W1'_eq (c : Dev nD) : W1' m ρ c = Win m c :=
  funext fun k => funext fun d => congrArg (fun f : S256x64.Idx → EReal => rdE S256x64 f (ix2 k d)) (V1_main_arg2 m ρ c)

/-- From the three values the projection region leaves and the value the attention region leaves, each in terms of its
    region's entry contents, the result array at `(i, d)` is the layer's online form over the launch memory. -/
theorem kernel_out_apply_of (c : Dev nD)
    (hext : ∀ (j : Fin 8192) (d : Fin 64),
      rdE S8192x128 ((dat0 (V1 m ρ) c).arrAt 4 cfg0.N) (ix2 j (⟨d.val, by omega⟩ : Fin 128))
        = Cert.Attn.hProj (X1 m ρ c) (W1' m ρ c) j d)
    (hone : ∀ j : Fin 8192,
      rdE S8192x128 ((dat0 (V1 m ρ) c).arrAt 4 cfg0.N) (ix2 j (⟨64, by omega⟩ : Fin 128)) = 1)
    (hf1 : ∀ i : Fin 8192,
      rdE S8192x1 ((dat0 (V1 m ρ) c).arrAt 5 cfg0.N) (ix2 i (0 : Fin 1))
        = ∑ d : Fin 64, Cert.Attn.hProj (X1 m ρ c) (W1' m ρ c) i d * rdE S1x64 (V1 m ρ c main_v1) (ix2 (0 : Fin 1) d))
    (hf2 : ∀ j : Fin 8192,
      rdE S8192x1 ((dat0 (V1 m ρ) c).arrAt 6 cfg0.N) (ix2 j (0 : Fin 1))
        = ∑ d : Fin 64, Cert.Attn.hProj (X1 m ρ c) (W1' m ρ c) j d * rdE S1x64 (V1 m ρ c main_v3) (ix2 (0 : Fin 1) d))
    (hattn : (∀ j : Fin 8192, rdE S8192x128 (V3 m ρ c main_v4_0) (ix2 j (⟨64, by omega⟩ : Fin 128)) = 1) →
      ∀ (i : Fin 8192) (d : Fin 64),
        rdE S8192x64 ((dat1 (V3 m ρ) c).arrAt 4 cfg1.N) (ix2 i d)
          = Cert.Attn.elu (Cert.Attn.online
              (fun k p => Cert.Attn.score
                (rdE S8192x1 (V3 m ρ c main_v4_1) (ix2 i (0 : Fin 1))
                  + rdE S1x8192 (V3 m ρ c main_v5) (ix2 (0 : Fin 1) (Cert.Attn.keyAt k p)))
                (rdW S8192x8192 (V3 m ρ c main_arg1) (ix2 i (Cert.Attn.keyAt k p))))
              (fun k p => rdE S8192x128 (V3 m ρ c main_v4_0) (ix2 (Cert.Attn.keyAt k p) (⟨d.val, by omega⟩ : Fin 128)))))
    (i : Fin 8192) (d : Fin 64) :
    rdE S8192x64 (W4 m ρ c (Proc.devRef .tc main_v6)) (ix2 i d)
      = Cert.Attn.outOnline (Xin m c) (Win m c) (ain m c) (adjin m c) i d := by
  rw [X1_eq, W1'_eq] at hext hf1 hf2
  -- the attention region's four inputs at its entry, read back
  have h40 : ∀ (j : Fin 8192) (e : Fin 128), rdE S8192x128 (V3 m ρ c main_v4_0) (ix2 j e)
      = rdE S8192x128 ((dat0 (V1 m ρ) c).arrAt 4 cfg0.N) (ix2 j e) :=
    fun j e => congrArg (fun f : S8192x128.Idx → EReal => rdE S8192x128 f (ix2 j e)) (V3_main_v4_0 m ρ c)
  have h41 : ∀ i : Fin 8192, rdE S8192x1 (V3 m ρ c main_v4_1) (ix2 i (0 : Fin 1))
      = Cert.Attn.f1Of (Cert.Attn.hProj (Xin m c) (Win m c)) (ain m c) i := fun i => by
    have e5 : rdE S8192x1 (V3 m ρ c main_v4_1) (ix2 i (0 : Fin 1))
        = rdE S8192x1 ((dat0 (V1 m ρ) c).arrAt 5 cfg0.N) (ix2 i (0 : Fin 1)) :=
      congrArg (fun f : S8192x1.Idx → EReal => rdE S8192x1 f (ix2 i (0 : Fin 1))) (V3_main_v4_1 m ρ c)
    rw [e5, hf1 i]
    unfold Cert.Attn.f1Of
    refine Finset.sum_congr rfl fun d _ => ?_
    rw [V1_main_v1_apply]
  have h5 : ∀ j : Fin 8192, rdE S1x8192 (V3 m ρ c main_v5) (ix2 (0 : Fin 1) j)
      = Cert.Attn.f2Of (Cert.Attn.hProj (Xin m c) (Win m c)) (ain m c) j := fun j => by
    rw [V3_main_v5_apply, hf2 j]
    unfold Cert.Attn.f2Of
    refine Finset.sum_congr rfl fun d _ => ?_
    rw [V1_main_v3_apply]
  have hadj : ∀ i j : Fin 8192, rdW S8192x8192 (V3 m ρ c main_arg1) (ix2 i j) = adjin m c i j :=
    fun i j => congrArg (fun f : S8192x8192.Idx → BitVec 32 => rdW S8192x8192 f (ix2 i j)) (V3_main_arg1 m ρ c)
  have hones : ∀ j : Fin 8192, rdE S8192x128 (V3 m ρ c main_v4_0) (ix2 j (⟨64, by omega⟩ : Fin 128)) = 1 :=
    fun j => (h40 j _).trans (hone j)
  -- the result array is the attention region's window 4 after its last point
  have h6 : rdE S8192x64 (W4 m ρ c (Proc.devRef .tc main_v6)) (ix2 i d)
      = rdE S8192x64 ((dat1 (V3 m ρ) c).arrAt 4 cfg1.N) (ix2 i d) :=
    congrArg (fun f : S8192x64.Idx → EReal => rdE S8192x64 f (ix2 i d)) (W4_main_v6 m ρ c)
  rw [h6, hattn hones i d]
  unfold Cert.Attn.outOnline
  refine congrArg Cert.Attn.elu (congrArg₂ Cert.Attn.online ?_ ?_)
  · funext k p
    rw [h41 i, h5 (Cert.Attn.keyAt k p), hadj i (Cert.Attn.keyAt k p)]
  · funext k p
    rw [h40, hext]

end Compose

/-! ## With the projection region's values in -/

section WithProjection

variable (m : (ℓ : Loc nD τ sig) → Buf (Elt Ideal) ℓ) (ρ : Dev nD → PrngReg)

/-- The projection region leaves the extended features (the projection, then a column of ones) and the two score
    columns; with them, the result array is the layer's online form as soon as the attention region's value is the
    online form over its own entry contents. -/
theorem kernel_out_apply_of_attn (c : Dev nD)
    (hattn : (∀ j : Fin 8192, rdE S8192x128 (V3 m ρ c main_v4_0) (ix2 j (⟨64, by omega⟩ : Fin 128)) = 1) →
      ∀ (i : Fin 8192) (d : Fin 64),
        rdE S8192x64 ((dat1 (V3 m ρ) c).arrAt 4 cfg1.N) (ix2 i d)
          = Cert.Attn.elu (Cert.Attn.online
              (fun k p => Cert.Attn.score
                (rdE S8192x1 (V3 m ρ c main_v4_1) (ix2 i (0 : Fin 1))
                  + rdE S1x8192 (V3 m ρ c main_v5) (ix2 (0 : Fin 1) (Cert.Attn.keyAt k p)))
                (rdW S8192x8192 (V3 m ρ c main_arg1) (ix2 i (Cert.Attn.keyAt k p))))
              (fun k p => rdE S8192x128 (V3 m ρ c main_v4_0) (ix2 (Cert.Attn.keyAt k p) (⟨d.val, by omega⟩ : Fin 128)))))
    (i : Fin 8192) (d : Fin 64) :
    rdE S8192x64 (W4 m ρ c (Proc.devRef .tc main_v6)) (ix2 i d)
      = Cert.Attn.outOnline (Xin m c) (Win m c) (ain m c) (adjin m c) i d :=
  kernel_out_apply_of m ρ c
    (fun j d => Cert.KernelIdeal.Val0.hext_apply_lt (V1 m ρ) c j ⟨d.val, by omega⟩ d.isLt)
    (fun j => (Cert.KernelIdeal.Val0.hext_apply_eq (V1 m ρ) c j ⟨64, by omega⟩ rfl).trans Cert.KernelIdeal.Val0.ofBits_bf16_one)
    (Cert.KernelIdeal.Val0.f1_apply (V1 m ρ) c) (Cert.KernelIdeal.Val0.f2_apply (V1 m ρ) c) hattn i d

end WithProjection

/-! ## The kernel program's result -/

section Result

variable (m : (ℓ : Loc nD τ sig) → Buf (Elt Ideal) ℓ) (ρ : Dev nD → PrngReg)

/-- THE RESULT ARRAY, entry by entry: after the run, entry `(i, d)` of the result is the layer's online form over the
    four arguments as launched: the attention region's value over its entry contents, whose extended features carry
    the column of ones the projection region wrote. -/
theorem kernel_out_apply (c : Dev nD) (i : Fin 8192) (d : Fin 64) :
    rdE S8192x64 (W4 m ρ c (Proc.devRef .tc main_v6)) (ix2 i d)
      = Cert.Attn.outOnline (Xin m c) (Win m c) (ain m c) (adjin m c) i d :=
  kernel_out_apply_of_attn m ρ c (attn_apply (V3 m ρ) c) i d

end Result

end Cert.KernelIdeal.Val

end
-- ==== Proof.RefTerm.lean ====
import proofs.«416619_j37056977830238_3_alg».proof.ReferenceIdeal

/-!
# The reference's value as one term

The reference computes a graph-attention layer: the features are projected (`x · w`), two score
columns are read off the projection with the two halves of `a`, the pairwise scores
`f1 i + f2 j` pass through a leaky rectifier of slope 0.2, non-edges (`adj i j ≤ 0`) are
replaced by `-9e15`, each row is normalised by a softmax (row maximum subtracted, exponentials
divided by their row sum), the attention matrix multiplies the projection, and an exponential
linear unit finishes. `refOut` is the composition of these operations, one `let` per intermediate
tensor.
-/

noncomputable section

namespace Cert.ReferenceIdeal.Hand

open Cert.ReferenceIdeal Idealize.ShloMosaic Idealize.SL.Sem

variable {F : FTy → Type} [FloatOps F]
variable [Facts]
open Facts₀ Facts

/-- The reference's result as a function of its four arguments: the features `x`, the adjacency
    `adj`, the projection `w` and the stacked score vectors `a`. -/
def refOut (x : FVec F S8192x256 .f32) (adj : IVec S8192x8192 32) (w : FVec F S256x64 .f32)
    (a : FVec F S128x1 .f32) : FVec F S8192x64 .f32 :=
  -- the projection h = x · w and the two score columns f1 = h · a[0:64], f2 = h · a[64:128]
  let main_v0 : FVec F S8192x64 .f32 := Host.dotGeneral dot_S8192x256_S256x64_S8192x64_1_0_0_1_n_n none x w
  let main_v1 : FVec F S64x1 .f32 := extractStridedSlice S64x1 ![0, 0] a slices_S128x1_S64x1_0_0
  let main_v2 : FVec F S64x1 .f32 := extractStridedSlice S64x1 ![64, 0] a slices_S128x1_S64x1_64_0
  let main_v3 : FVec F S8192x1 .f32 := Host.dotGeneral dot_S8192x64_S64x1_S8192x1_1_0_0_1_n_n none main_v0 main_v1
  let main_v4 : FVec F S8192x1 .f32 := Host.dotGeneral dot_S8192x64_S64x1_S8192x1_1_0_0_1_n_n none main_v0 main_v2
  -- the pairwise scores e i j = f1 i + f2 j
  let main_v5 : FVec F S1x8192 .f32 := transpose S1x8192 [1, 0] main_v4 transposes_S8192x1_S1x8192_1_0
  let main_v6 : FVec F S8192x8192 .f32 := broadcastInDim S8192x8192 ![0, 1] bcast_S8192x1_S8192x8192_0_1 main_v3
  let main_v7 : FVec F S8192x8192 .f32 := broadcastInDim S8192x8192 ![0, 1] bcast_S1x8192_S8192x8192_0_1 main_v5
  let main_v8 : FVec F S8192x8192 .f32 := addf main_v6 main_v7
  let main_cst : FVec F S_ .f32 := constant S_ .f32 0x3E4CCCCD#32
  -- the leaky rectifier: e where e ≥ 0, 0.2 · e elsewhere
  let main_call0_cst : FVec F S_ .f32 := constant S_ .f32 0x00000000#32
  let main_call0_v0 : FVec F S8192x8192 .f32 := broadcastInDim S8192x8192 ![] bcast_S_S8192x8192 main_call0_cst
  let main_call0_v1 : IVec S8192x8192 1 := cmpf .oge main_v8 main_call0_v0
  let main_call0_v2 : FVec F S_ .f32 := id main_cst
  let main_call0_v3 : FVec F S8192x8192 .f32 := broadcastInDim S8192x8192 ![] bcast_S_S8192x8192 main_call0_v2
  let main_call0_v4 : FVec F S8192x8192 .f32 := mulf main_call0_v3 main_v8
  let main_v9 : FVec F S8192x8192 .f32 := select main_call0_v1 main_v8 main_call0_v4
  -- the mask: keep the score on an edge (adj > 0), put -9e15 elsewhere
  let main_c : IVec S_ 32 := constantI S_ 32 0#32
  let main_v10 : IVec S8192x8192 32 := broadcastInDim S8192x8192 ![] bcast_S_S8192x8192 main_c
  let main_v11 : IVec S8192x8192 1 := cmpi .sgt adj main_v10
  let main_cst_0 : FVec F S_ .f32 := constant S_ .f32 0xD9FFCB9E#32
  let main_call1_v0 : FVec F S_ .f32 := id main_cst_0
  let main_call1_v1 : FVec F S8192x8192 .f32 := broadcastInDim S8192x8192 ![] bcast_S_S8192x8192 main_call1_v0
  let main_v12 : FVec F S8192x8192 .f32 := select main_v11 main_v9 main_call1_v1
  -- the row maximum, floored at -∞
  let main_cst_1 : FVec F S_ .f32 := constant S_ .f32 0xFF800000#32
  let main_v13 : FVec F S8192 .f32 := Host.reduce FloatOps.maximumf main_v12 main_cst_1 reducesTo_S8192x8192_S8192_d1 h_S_
  let main_cst_2 : FVec F S_ .f32 := constant S_ .f32 0xFF800000#32
  let main_v14 : FVec F S8192 .f32 := broadcastInDim S8192 ![] bcast_S_S8192 main_cst_2
  let main_v15 : FVec F S8192 .f32 := maximumf main_v14 main_v13
  let main_v16 : FVec F S8192x1 .f32 := broadcastInDim S8192x1 ![0] bcast_S8192_S8192x1_0 main_v15
  let main_v17 : FVec F S8192x8192 .f32 := broadcastInDim S8192x8192 ![0, 1] bcast_S8192x1_S8192x8192_0_1 main_v16
  -- the exponentials of the shifted scores, their row sums, and the quotient
  let main_v18 : FVec F S8192x8192 .f32 := subf main_v12 main_v17
  let main_v19 : FVec F S8192x8192 .f32 := Host.exp main_v18
  let main_cst_3 : FVec F S_ .f32 := constant S_ .f32 0x00000000#32
  let main_v20 : FVec F S8192 .f32 := Host.reduceAdd main_v19 main_cst_3 reducesTo_S8192x8192_S8192_d1 h_S_
  let main_v21 : FVec F S8192x1 .f32 := broadcastInDim S8192x1 ![0] bcast_S8192_S8192x1_0 main_v20
  let main_v22 : FVec F S8192x8192 .f32 := broadcastInDim S8192x8192 ![0, 1] bcast_S8192x1_S8192x8192_0_1 main_v21
  let main_v23 : FVec F S8192x8192 .f32 := Host.divf main_v19 main_v22
  -- the attention-weighted features
  let main_v24 : FVec F S8192x64 .f32 := Host.dotGeneral dot_S8192x8192_S8192x64_S8192x64_1_0_0_1_n_n none main_v23 main_v0
  -- the exponential linear unit: y where y > 0, exp (min y 0) - 1 elsewhere
  let main_call2_cst : FVec F S_ .f32 := constant S_ .f32 0x00000000#32
  let main_call2_v0 : FVec F S8192x64 .f32 := broadcastInDim S8192x64 ![] bcast_S_S8192x64 main_call2_cst
  let main_call2_v1 : IVec S8192x64 1 := cmpf .ogt main_v24 main_call2_v0
  let main_call2_cst_0 : FVec F S_ .f32 := constant S_ .f32 0x00000000#32
  let main_call2_v2 : FVec F S8192x64 .f32 := broadcastInDim S8192x64 ![] bcast_S_S8192x64 main_call2_cst_0
  let main_call2_v3 : IVec S8192x64 1 := cmpf .ogt main_v24 main_call2_v2
  let main_call2_cst_1 : FVec F S_ .f32 := constant S_ .f32 0x00000000#32
  let main_call2_call0_v0 : FVec F S_ .f32 := id main_call2_cst_1
  let main_call2_call0_v1 : FVec F S8192x64 .f32 := broadcastInDim S8192x64 ![] bcast_S_S8192x64 main_call2_call0_v0
  let main_call2_v4 : FVec F S8192x64 .f32 := select main_call2_v3 main_call2_call0_v1 main_v24
  let main_call2_v5 : FVec F S8192x64 .f32 := Host.expm1 main_call2_v4
  let main_call2_cst_2 : FVec F S_ .f32 := constant S_ .f32 0x3F800000#32
  let main_call2_v6 : FVec F S8192x64 .f32 := broadcastInDim S8192x64 ![] bcast_S_S8192x64 main_call2_cst_2
  let main_call2_v7 : FVec F S8192x64 .f32 := mulf main_call2_v6 main_call2_v5
  let main_v25 : FVec F S8192x64 .f32 := select main_call2_v1 main_v24 main_call2_v7
  main_v25

end Cert.ReferenceIdeal.Hand

end
-- ==== Proof.RefRun.lean ====
import proofs.«416619_j37056977830238_3_alg».proof.Proof.RefTerm
import Idealize.ShloMosaic.Lib.StableHlo.Run

/-!
# The reference's run

The reference is a straight line of 54 tensor operations: the 29 of its main function and, at the
three places it applies an outlined function, that function's own operations over the buffers of
that application — the leaky rectifier's seven (its closing selection the one operation of the
selection function it applies), the mask selection's three, and the exponential linear unit's
fifteen (the three of the selection that clamps the argument at zero and the one of the closing
selection among them). Every operation writes one buffer no other operation writes and reads
buffers written before it, so the buffer of the last value ends at `refOut` of the four arguments'
contents at launch, and the arguments' buffers, which nothing writes, end as they began.
-/

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-- The 54 operations, in order: the projection and the two score columns (5), the pairwise scores (4),
    the slope constant and the leaky rectifier (1 + 7), the edge mask and the masked scores (4 + 3), the row
    maximum (7), the exponentials, their row sums and the quotient (7), the weighted features (1), the
    exponential linear unit (15). -/
abbrev ops : List (HloOp τ sig (Elt F)) :=
  [ binary main_arg0 main_arg2 main_v0 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    unary main_arg3 main_v1 ((extractStridedSlice S64x1 ![0, 0] · slices_S128x1_S64x1_0_0) : (⟨S128x1, .f32⟩ : BufTy).Contents (Elt F) → (⟨S64x1, .f32⟩ : BufTy).Contents (Elt F)),
    unary main_arg3 main_v2 ((extractStridedSlice S64x1 ![64, 0] · slices_S128x1_S64x1_64_0) : (⟨S128x1, .f32⟩ : BufTy).Contents (Elt F) → (⟨S64x1, .f32⟩ : BufTy).Contents (Elt F)),
    binary main_v0 main_v1 main_v3 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    binary main_v0 main_v2 main_v4 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_v4 main_v5 ((transpose S1x8192 [1, 0] · transposes_S8192x1_S1x8192_1_0) : (⟨S8192x1, .f32⟩ : BufTy).Contents (Elt F) → (⟨S1x8192, .f32⟩ : BufTy).Contents (Elt F)),
    unary main_v3 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v8) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v8) main_call0.v4 mulf,
    TRef.ternary main_call0.v1 (.of main_v8) main_call0.v4 main_call0.call0.v0 select,
    nullary main_c (constantI S_ 32 0#32),
    unary main_c main_v10 (broadcastInDim S8192x8192 ![] bcast_S_S8192x8192 : (⟨S_, .i32⟩ : BufTy).Contents (Elt F) → (⟨S8192x8192, .i32⟩ : BufTy).Contents (Elt F)),
    binary main_arg1 main_v10 main_v11 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0) main_call1.v0 id,
    TRef.unary main_call1.v0 main_call1.v1 (broadcastInDim S8192x8192 ![] bcast_S_S8192x8192),
    TRef.ternary (.of main_v11) (.of main_v9) main_call1.v1 main_call1.v2 select,
    nullary main_cst_1 (constant S_ .f32 0xFF800000#32),
    binary main_v12 main_cst_1 main_v13 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v14 (broadcastInDim S8192 ![] bcast_S_S8192 : (⟨S_, .f32⟩ : BufTy).Contents (Elt F) → (⟨S8192, .f32⟩ : BufTy).Contents (Elt F)),
    binary main_v14 main_v13 main_v15 (maximumf : (⟨S8192, .f32⟩ : BufTy).Contents (Elt F) → (⟨S8192, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    binary main_v12 main_v17 main_v18 (subf : (⟨S8192x8192, .f32⟩ : BufTy).Contents (Elt F) → (⟨S8192x8192, .f32⟩ : BufTy).Contents (Elt F) → (⟨S8192x8192, .f32⟩ : BufTy).Contents (Elt F)),
    unary main_v18 main_v19 (Host.exp : (⟨S8192x8192, .f32⟩ : BufTy).Contents (Elt F) → (⟨S8192x8192, .f32⟩ : BufTy).Contents (Elt F)),
    nullary main_cst_3 (constant S_ .f32 0x00000000#32),
    binary main_v19 main_cst_3 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)),
    binary main_v23 main_v0 main_v24 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    TRef.nullary main_call2.cst (constant S_ .f32 0x00000000#32),
    TRef.unary main_call2.cst main_call2.v0 (broadcastInDim S8192x64 ![] bcast_S_S8192x64),
    TRef.binary (.of main_v24) main_call2.v0 main_call2.v1 (cmpf .ogt),
    TRef.nullary main_call2.cst_0 (constant S_ .f32 0x00000000#32),
    TRef.unary main_call2.cst_0 main_call2.v2 (broadcastInDim S8192x64 ![] bcast_S_S8192x64),
    TRef.binary (.of main_v24) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x64 ![] bcast_S_S8192x64),
    TRef.ternary main_call2.v3 main_call2.call0.v1 (.of main_v24) main_call2.call0.v2 select,
    TRef.unary main_call2.call0.v2 main_call2.v5 Host.expm1,
    TRef.nullary main_call2.cst_2 (constant S_ .f32 0x3F800000#32),
    TRef.unary main_call2.cst_2 main_call2.v6 (broadcastInDim S8192x64 ![] bcast_S_S8192x64),
    TRef.binary main_call2.v6 main_call2.v5 main_call2.v7 mulf,
    TRef.ternary main_call2.v1 (.of main_v24) main_call2.v7 main_call2.call1.v0 select ]

set_option maxRecDepth 1024 in
/-- The main function is that straight line: with each outlined function replaced by its body at the place it
    is applied, both sides are one chain of single operations once the sequencing is associated to the right. -/
theorem main_eq (c : Dev nD) : main (F := F) c = seq ops := by
  simp only [main, fn_leaky_relu.body, fn_where.body, fn_where_0.body, fn_elu.body, fn_where_1.body, fn_where_2.body,
    seq, bind_assoc, pure_bind]

/-- No buffer of the reference is scoped. -/
theorem scopedRefs_eq : (Finset.univ.filter fun b : Ref sig .tc => b.isScoped) = ∅ := by decide
/-- The reference has no semaphore. -/
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

attribute [local irreducible] Host.reduce Host.reduceAdd in
set_option maxRecDepth 8192 in
set_option maxHeartbeats 1000000 in
/-- The last value's buffer after the 54 operations, from any contents: each operation's result is its function
    of the contents of the buffers it reads, every one of them written once and earlier, so the fold is the
    composition `refOut` of the arguments' contents. -/
theorem out_eq (V : Valuation τ sig (Elt F)) :
    after ops V (main_v25 : DevRef τ sig)
      = refOut (V (main_arg0 : DevRef τ sig)) (V (main_arg1 : DevRef τ sig)) (V (main_arg2 : DevRef τ sig))
          (V (main_arg3 : DevRef τ sig)) := by
  after_results_simp <;> (try simp only [TRef.ofBuf, TRef.toBuf, cast_eq]) <;> rfl

/-- No operation writes the first argument's buffer. -/
theorem arg0_eq (V : Valuation τ sig (Elt F)) : after ops V (main_arg0 : DevRef τ sig) = V (main_arg0 : DevRef τ sig) := by
  after_results_simp
/-- No operation writes the second argument's buffer. -/
theorem arg1_eq (V : Valuation τ sig (Elt F)) : after ops V (main_arg1 : DevRef τ sig) = V (main_arg1 : DevRef τ sig) := by
  after_results_simp
/-- No operation writes the third argument's buffer. -/
theorem arg2_eq (V : Valuation τ sig (Elt F)) : after ops V (main_arg2 : DevRef τ sig) = V (main_arg2 : DevRef τ sig) := by
  after_results_simp
/-- No operation writes the fourth argument's buffer. -/
theorem arg3_eq (V : Valuation τ sig (Elt F)) : after ops V (main_arg3 : DevRef τ sig) = V (main_arg3 : DevRef τ sig) := by
  after_results_simp

/-- On every device, for any float values, from any memory with zero counters: every weakly fair execution of
    the reference terminates with the result buffer at `refOut` of the arguments' contents at launch and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v25).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.Hand

end
-- ==== Proof.RefOps.lean ====
/-
  The reference's operations that move or combine entries, each read at explicit coordinates, at exact arithmetic.

  * A matrix product is, entry by entry, the sum over the contracted coordinate of the products of the entries.
  * A row reduction with the maximum is the fold of the maximum over the row from the initial value; with the sum it is
    the initial value plus the sum of the row.
  * A slice reads the source at the shifted coordinate; a transpose swaps the coordinates; a broadcast of a column
    repeats it along the rows, of a row along the columns, of a vector into a one-column matrix, of a scalar everywhere.
-/
import proofs.«416619_j37056977830238_3_alg».proof.ReferenceIdeal
import proofs.«416619_j37056977830238_3_alg».proof.Proof.LibERealRows
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Idealize.ShloMosaic.PureOps.Ideal.Laws

noncomputable section

namespace Cert.ReferenceIdeal.Hand

open Cert.ReferenceIdeal Idealize.ShloMosaic Idealize.ShloMosaic.ValueIdx Idealize.SL.Sem

variable [Facts]
open Facts₀ Facts

/-! ## The three matrix products -/

/-- The projection `x · w` at `(i, d)`: the sum over the 256 input features. -/
theorem dot_xw_apply (l : FVec Ideal S8192x256 .f32) (r : FVec Ideal S256x64 .f32) (i : Fin 8192) (d : Fin 64) :
    Host.dotGeneral dot_S8192x256_S256x64_S8192x64_1_0_0_1_n_n none l r (ix2 i d)
      = ∑ k : Fin 256, l (ix2 i k) * r (ix2 k d) :=
  StackMember.dotGeneral_plain_apply none l r i d

/-- A score column `h · a` at `(i, 0)`: the sum over the 64 projected features. -/
theorem dot_ha_apply (l : FVec Ideal S8192x64 .f32) (r : FVec Ideal S64x1 .f32) (i : Fin 8192) :
    Host.dotGeneral dot_S8192x64_S64x1_S8192x1_1_0_0_1_n_n none l r (ix2 i (0 : Fin 1))
      = ∑ d : Fin 64, l (ix2 i d) * r (ix2 d (0 : Fin 1)) :=
  StackMember.dotGeneral_plain_apply none l r i 0

/-- The attention-weighted features `p · h` at `(i, d)`: the sum over the 8192 keys. -/
theorem dot_ph_apply (l : FVec Ideal S8192x8192 .f32) (r : FVec Ideal S8192x64 .f32) (i : Fin 8192) (d : Fin 64) :
    Host.dotGeneral dot_S8192x8192_S8192x64_S8192x64_1_0_0_1_n_n none l r (ix2 i d)
      = ∑ j : Fin 8192, l (ix2 i j) * r (ix2 j d) :=
  StackMember.dotGeneral_plain_apply none l r i d

/-! ## The two row reductions -/

/-- The reduced index `i` with column `k` put back is `(i, k)`. -/
theorem lift_row (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- The row maximum: the fold of the maximum over row `i`, from the initial scalar. -/
theorem rowReduceMax_apply (x : FVec Ideal S8192x8192 .f32) (v : FVec Ideal S_ .f32) (i : Fin 8192) :
    Host.reduce FloatOps.maximumf x v reducesTo_S8192x8192_S8192_d1 h_S_ (ix1 i)
      = (Finset.univ : Finset (Fin 8192)).fold max (v ix0) (fun j : Fin 8192 => x (ix2 i j)) := by
  have h' := reducesTo_S8192x8192_S8192_d1
  have h : S8192x8192.Reduces [1] S8192 := ⟨h'.1, Nat.one_pos, h'.2⟩
  rw [Host.reduce_eq_fold_single FloatOps.maximumf x v h' h h_S_]
  have hf : (x ∘ h.lift (ix1 i)) = fun j : Fin 8192 => x (ix2 i j) := funext fun k => congrArg x (lift_row h i k)
  have h0 : Shape.Idx.first h_S_ = ix0 := eq_ix0 _
  rw [h0]
  exact congrArg (fun f => Finset.fold max (v ix0) f (Finset.univ : Finset (Fin 8192))) hf

/-- The row sum: the initial scalar plus the sum of row `i`. -/
theorem rowReduceAdd_apply (x : FVec Ideal S8192x8192 .f32) (v : FVec Ideal S_ .f32) (i : Fin 8192) :
    Host.reduceAdd x v reducesTo_S8192x8192_S8192_d1 h_S_ (ix1 i) = v ix0 + ∑ j : Fin 8192, x (ix2 i j) := by
  have h' := reducesTo_S8192x8192_S8192_d1
  have h : S8192x8192.Reduces [1] S8192 := ⟨h'.1, Nat.one_pos, h'.2⟩
  rw [hostReduceAdd_apply, Ideal.hostReduceAdd_single h' h]
  have h0 : Shape.Idx.first h_S_ = ix0 := eq_ix0 _
  rw [h0]
  exact congrArg (v ix0 + ·) (Finset.sum_congr rfl fun k _ => congrArg x (lift_row h i k))

/-! ## The layout operations -/

section Layout
variable {α : Type}

/-- The first half of the stacked score vector: entry `d` of the slice is entry `d` of the source. -/
theorem slice_lo_apply (a : S128x1.Idx → α) (d : Fin 64) :
    extractStridedSlice S64x1 ![0, 0] a slices_S128x1_S64x1_0_0 (ix2 d (0 : Fin 1))
      = a (ix2 (⟨d.val, by omega⟩ : Fin 128) (0 : Fin 1)) :=
  slice2_axis0_apply 0 a slices_S128x1_S64x1_0_0 d 0 ⟨d.val, by omega⟩ (Nat.zero_add _).symm

/-- The second half: entry `d` of the slice is entry `64 + d` of the source. -/
theorem slice_hi_apply (a : S128x1.Idx → α) (d : Fin 64) :
    extractStridedSlice S64x1 ![64, 0] a slices_S128x1_S64x1_64_0 (ix2 d (0 : Fin 1))
      = a (ix2 (⟨64 + d.val, by omega⟩ : Fin 128) (0 : Fin 1)) :=
  slice2_axis0_apply 64 a slices_S128x1_S64x1_64_0 d 0 ⟨64 + d.val, by omega⟩ rfl

/-- The transposed column read at `(0, j)` is the column at `(j, 0)`. -/
theorem transpose_col_apply (c : S8192x1.Idx → α) (j : Fin 8192) :
    transpose S1x8192 [1, 0] c transposes_S8192x1_S1x8192_1_0 (ix2 (0 : Fin 1) j) = c (ix2 j (0 : Fin 1)) :=
  transpose_ix2_apply c transposes_S8192x1_S1x8192_1_0 0 j

/-- A column broadcast over the columns reads, at `(i, j)`, the column at `(i, 0)`. -/
theorem bcast_col_apply (c : S8192x1.Idx → α) (i j : Fin 8192) :
    broadcastInDim S8192x8192 ![0, 1] bcast_S8192x1_S8192x8192_0_1 c (ix2 i j) = c (ix2 i (0 : Fin 1)) :=
  broadcastInDim_apply _ _ c (ix2 i j) (ix2 i (0 : Fin 1)) fun ax => by
    match ax with
    | ⟨0, _⟩ => rfl
    | ⟨1, _⟩ => rfl

/-- A row broadcast over the rows reads, at `(i, j)`, the row at `(0, j)`. -/
theorem bcast_row_apply (r : S1x8192.Idx → α) (i j : Fin 8192) :
    broadcastInDim S8192x8192 ![0, 1] bcast_S1x8192_S8192x8192_0_1 r (ix2 i j) = r (ix2 (0 : Fin 1) j) :=
  broadcastInDim_apply _ _ r (ix2 i j) (ix2 (0 : Fin 1) j) fun ax => by
    match ax with
    | ⟨0, _⟩ => rfl
    | ⟨1, _⟩ => rfl

/-- A vector made a one-column matrix reads, at `(i, 0)`, the vector at `i`. -/
theorem bcast_vec_col_apply (u : S8192.Idx → α) (i : Fin 8192) :
    broadcastInDim S8192x1 ![0] bcast_S8192_S8192x1_0 u (ix2 i (0 : Fin 1)) = u (ix1 i) :=
  broadcastInDim_apply _ _ u (ix2 i (0 : Fin 1)) (ix1 i) fun ax => by
    match ax with
    | ⟨0, _⟩ => rfl

/-- A scalar broadcast to the square matrix reads the scalar everywhere. -/
theorem bcast_scalar_sq_apply (x : S_.Idx → α) (j : S8192x8192.Idx) :
    broadcastInDim S8192x8192 ![] bcast_S_S8192x8192 x j = x ix0 :=
  broadcastInDim_scalar_apply bcast_S_S8192x8192 x j

/-- A scalar broadcast to the vector reads the scalar everywhere. -/
theorem bcast_scalar_vec_apply (x : S_.Idx → α) (j : S8192.Idx) :
    broadcastInDim S8192 ![] bcast_S_S8192 x j = x ix0 :=
  broadcastInDim_scalar_apply bcast_S_S8192 x j

/-- A scalar broadcast to the output's shape reads the scalar everywhere. -/
theorem bcast_scalar_out_apply (x : S_.Idx → α) (j : S8192x64.Idx) :
    broadcastInDim S8192x64 ![] bcast_S_S8192x64 x j = x ix0 :=
  broadcastInDim_scalar_apply bcast_S_S8192x64 x j

end Layout

/-! ## The two reductions from the reference's own initial values -/

/-- From the pattern of `-∞` the row maximum is the fold from the bottom element. -/
theorem rowReduceMax_negInf_apply (x : FVec Ideal S8192x8192 .f32) (i : Fin 8192) :
    Host.reduce FloatOps.maximumf x (constant (F := Ideal) S_ .f32 0xFF800000#32) reducesTo_S8192x8192_S8192_d1 h_S_ (ix1 i)
      = (Finset.univ : Finset (Fin 8192)).fold max (⊥ : EReal) (fun j : Fin 8192 => x (ix2 i j)) := by
  rw [rowReduceMax_apply, constant_apply, Cert.ERealRows.ofBits_negInf]

/-- From the pattern of `0.0` the row sum is the plain sum of the row. -/
theorem rowReduceAdd_zero_apply (x : FVec Ideal S8192x8192 .f32) (i : Fin 8192) :
    Host.reduceAdd x (constant (F := Ideal) S_ .f32 0x00000000#32) reducesTo_S8192x8192_S8192_d1 h_S_ (ix1 i)
      = ∑ j : Fin 8192, x (ix2 i j) := by
  rw [rowReduceAdd_apply, constant_apply, Ideal.ofBits_zero_f32, zero_add]

end Cert.ReferenceIdeal.Hand

end
-- ==== Proof.RefVal.lean ====
/-
  The reference's result read at an entry.

  The reference computes a graph-attention layer densely. With `h = x · w` the projected features, `f1 i = Σ_d h i d · a d`
  and `f2 j = Σ_d h j d · a (64 + d)` the two score columns, the score of the pair `(i, j)` is the leaky rectifier of
  `f1 i + f2 j` where the adjacency word is positive and a large negative constant elsewhere; each row of scores is
  normalised by a softmax (the row maximum subtracted, each exponential divided by the row's sum of exponentials), the
  weights multiply `h`, and an exponential linear unit finishes.

  Here each intermediate array the argument reads is named as a function of the arrays it is computed from, with the
  reference's own operations in their own order; each is read at an entry, the non-pointwise operations (the three
  matrix products, the two row reductions, the slices, the transpose and the broadcasts) by their own lemmas and the
  pointwise ones by unfolding; the reference's term is the composition of these stages, and so its entry `(i, d)` is
  the dense form `Cert.Attn.outDense` of the layer at that entry.
-/
import proofs.«416619_j37056977830238_3_alg».proof.Proof.RefTerm
import proofs.«416619_j37056977830238_3_alg».proof.Proof.RefOps
import proofs.«416619_j37056977830238_3_alg».proof.Proof.Spec
import proofs.«416619_j37056977830238_3_alg».proof.Proof.LibERealRows
import Idealize.ShloMosaic.Lib.ValueIdx
import Idealize.ShloMosaic.Lib.IdealHost
import Idealize.ShloMosaic.PureOps.Ideal.Laws

noncomputable section

namespace Cert.ReferenceIdeal.Hand

open Idealize.ShloMosaic Idealize.ShloMosaic.ValueIdx Idealize.SL.Sem
open Cert.ReferenceIdeal

variable [Facts]
open Facts₀ Facts

/-! ## The stages of the reference

Each intermediate array of the reference that the proof reads is named here, as a function of the arrays it is
computed from, with the printed operations in the printed order; under each, the array read at an entry. -/

/-- The projection `h = x · w`. -/
def projArr (x : FVec Ideal S8192x256 .f32) (w : FVec Ideal S256x64 .f32) : FVec Ideal S8192x64 .f32 :=
  Host.dotGeneral dot_S8192x256_S256x64_S8192x64_1_0_0_1_n_n none x w

theorem projArr_apply (x : FVec Ideal S8192x256 .f32) (w : FVec Ideal S256x64 .f32) (i : Fin 8192) (d : Fin 64) :
    projArr x w (ix2 i d) = Cert.Attn.hProj (fun i k => x (ix2 i k)) (fun k d => w (ix2 k d)) i d :=
  dot_xw_apply x w i d

/-- The source column `f1 = h · a[0:64]`. -/
def srcArr (h : FVec Ideal S8192x64 .f32) (a : FVec Ideal S128x1 .f32) : FVec Ideal S8192x1 .f32 :=
  Host.dotGeneral dot_S8192x64_S64x1_S8192x1_1_0_0_1_n_n none h (extractStridedSlice S64x1 ![0, 0] a slices_S128x1_S64x1_0_0)

theorem srcArr_apply (h : FVec Ideal S8192x64 .f32) (a : FVec Ideal S128x1 .f32) (i : Fin 8192) :
    srcArr h a (ix2 i (0 : Fin 1)) = Cert.Attn.f1Of (fun i d => h (ix2 i d)) (fun q => a (ix2 q 0)) i := by
  unfold srcArr
  rw [dot_ha_apply]
  exact Finset.sum_congr rfl fun k _ => by rw [slice_lo_apply]

/-- The target column `f2 = h · a[64:128]`. -/
def dstArr (h : FVec Ideal S8192x64 .f32) (a : FVec Ideal S128x1 .f32) : FVec Ideal S8192x1 .f32 :=
  Host.dotGeneral dot_S8192x64_S64x1_S8192x1_1_0_0_1_n_n none h (extractStridedSlice S64x1 ![64, 0] a slices_S128x1_S64x1_64_0)

theorem dstArr_apply (h : FVec Ideal S8192x64 .f32) (a : FVec Ideal S128x1 .f32) (j : Fin 8192) :
    dstArr h a (ix2 j (0 : Fin 1)) = Cert.Attn.f2Of (fun i d => h (ix2 i d)) (fun q => a (ix2 q 0)) j := by
  unfold dstArr
  rw [dot_ha_apply]
  exact Finset.sum_congr rfl fun k _ => by rw [slice_hi_apply]

/-- The pairwise sums `f1 i + f2 j`: the source column broadcast along the rows plus the transposed target column
    broadcast down the columns. -/
def pairArr (f1 f2 : FVec Ideal S8192x1 .f32) : FVec Ideal S8192x8192 .f32 :=
  addf (broadcastInDim S8192x8192 ![0, 1] bcast_S8192x1_S8192x8192_0_1 f1)
    (broadcastInDim S8192x8192 ![0, 1] bcast_S1x8192_S8192x8192_0_1 (transpose S1x8192 [1, 0] f2 transposes_S8192x1_S1x8192_1_0))

theorem pairArr_apply (f1 f2 : FVec Ideal S8192x1 .f32) (i j : Fin 8192) :
    pairArr f1 f2 (ix2 i j) = f1 (ix2 i 0) + f2 (ix2 j 0) := by
  unfold pairArr
  rw [addf_apply, bcast_col_apply, bcast_row_apply, transpose_col_apply]

/-- The masked scores: the leaky rectifier of the pairwise sums where the adjacency word is positive, the large
    negative constant elsewhere. -/
def scoreArr (s : FVec Ideal S8192x8192 .f32) (adj : IVec S8192x8192 32) : FVec Ideal S8192x8192 .f32 :=
  select (cmpi .sgt adj (broadcastInDim S8192x8192 ![] bcast_S_S8192x8192 (constantI S_ 32 0#32)))
    (select (cmpf .oge s (broadcastInDim S8192x8192 ![] bcast_S_S8192x8192 (constant S_ .f32 0x00000000#32))) s
      (mulf (broadcastInDim S8192x8192 ![] bcast_S_S8192x8192 (id (constant S_ .f32 0x3E4CCCCD#32))) s))
    (broadcastInDim S8192x8192 ![] bcast_S_S8192x8192 (id (constant S_ .f32 0xD9FFCB9E#32)))

theorem scoreArr_apply (s : FVec Ideal S8192x8192 .f32) (adj : IVec S8192x8192 32) (y : S8192x8192.Idx) :
    scoreArr s adj y = Cert.Attn.score (s y) (adj y) := rfl

/-- The row maxima, floored at `-∞`. -/
def rowMaxArr (e : FVec Ideal S8192x8192 .f32) : FVec Ideal S8192 .f32 :=
  maximumf (broadcastInDim S8192 ![] bcast_S_S8192 (constant S_ .f32 0xFF800000#32))
    (Host.reduce FloatOps.maximumf e (constant S_ .f32 0xFF800000#32) reducesTo_S8192x8192_S8192_d1 h_S_)

theorem rowMaxArr_apply (e : FVec Ideal S8192x8192 .f32) (i : Fin 8192) :
    rowMaxArr e (ix1 i) = Cert.Attn.rowMax (fun j => e (ix2 i j)) := by
  unfold rowMaxArr
  rw [maximumf_apply, rowReduceMax_negInf_apply]
  exact max_eq_right (le_of_eq_of_le (show _ = (⊥ : EReal) from Cert.ERealRows.ofBits_negInf) bot_le)

/-- The exponentials of the scores shifted by their row maximum. -/
def expArr (e : FVec Ideal S8192x8192 .f32) : FVec Ideal S8192x8192 .f32 :=
  Host.exp (subf e (broadcastInDim S8192x8192 ![0, 1] bcast_S8192x1_S8192x8192_0_1
    (broadcastInDim S8192x1 ![0] bcast_S8192_S8192x1_0 (rowMaxArr e))))

theorem expArr_apply (e : FVec Ideal S8192x8192 .f32) (i j : Fin 8192) :
    expArr e (ix2 i j) = Ideal.exp (e (ix2 i j) - Cert.Attn.rowMax (fun j => e (ix2 i j))) := by
  unfold expArr
  show Ideal.exp (subf e _ (ix2 i j)) = _
  rw [subf_apply, bcast_col_apply, bcast_vec_col_apply, rowMaxArr_apply]

/-- The softmax weights: each exponential over its row's sum. -/
def softArr (e : FVec Ideal S8192x8192 .f32) : FVec Ideal S8192x8192 .f32 :=
  Host.divf (expArr e) (broadcastInDim S8192x8192 ![0, 1] bcast_S8192x1_S8192x8192_0_1
    (broadcastInDim S8192x1 ![0] bcast_S8192_S8192x1_0
      (Host.reduceAdd (expArr e) (constant S_ .f32 0x00000000#32) reducesTo_S8192x8192_S8192_d1 h_S_)))

theorem softArr_apply (e : FVec Ideal S8192x8192 .f32) (i j : Fin 8192) :
    softArr e (ix2 i j)
      = Ideal.div (Ideal.exp (e (ix2 i j) - Cert.Attn.rowMax (fun j => e (ix2 i j))))
          (∑ j', Ideal.exp (e (ix2 i j') - Cert.Attn.rowMax (fun j => e (ix2 i j)))) := by
  unfold softArr
  rw [hostDivf_apply, bcast_col_apply, bcast_vec_col_apply, rowReduceAdd_zero_apply, expArr_apply]
  exact congrArg (Ideal.div _) (Finset.sum_congr rfl fun j' _ => expArr_apply e i j')

/-- The attention-weighted features. -/
def attnArr (e : FVec Ideal S8192x8192 .f32) (h : FVec Ideal S8192x64 .f32) : FVec Ideal S8192x64 .f32 :=
  Host.dotGeneral dot_S8192x8192_S8192x64_S8192x64_1_0_0_1_n_n none (softArr e) h

theorem attnArr_apply (e : FVec Ideal S8192x8192 .f32) (h : FVec Ideal S8192x64 .f32) (i : Fin 8192) (d : Fin 64) :
    attnArr e h (ix2 i d) = Cert.Attn.dense (fun j => e (ix2 i j)) (fun j => h (ix2 j d)) := by
  unfold attnArr Cert.Attn.dense
  rw [dot_ph_apply]
  refine Finset.sum_congr rfl fun j _ => ?_
  rw [softArr_apply]

/-- The exponential linear unit, as the reference spells it. -/
def eluArr (y : FVec Ideal S8192x64 .f32) : FVec Ideal S8192x64 .f32 :=
  select (cmpf .ogt y (broadcastInDim S8192x64 ![] bcast_S_S8192x64 (constant S_ .f32 0x00000000#32))) y
    (mulf (broadcastInDim S8192x64 ![] bcast_S_S8192x64 (constant S_ .f32 0x3F800000#32))
      (Host.expm1 (select (cmpf .ogt y (broadcastInDim S8192x64 ![] bcast_S_S8192x64 (constant S_ .f32 0x00000000#32)))
        (broadcastInDim S8192x64 ![] bcast_S_S8192x64 (id (constant S_ .f32 0x00000000#32))) y)))

theorem eluArr_apply (y : FVec Ideal S8192x64 .f32) (z : S8192x64.Idx) :
    eluArr y z = Cert.Attn.eluRef (y z) := rfl

/-! ## The reference's result at an entry -/

/-- The reference's result is the unit applied to the attention-weighted features of the masked scores. -/
theorem refOut_eq (x : FVec Ideal S8192x256 .f32) (adj : IVec S8192x8192 32) (w : FVec Ideal S256x64 .f32)
    (a : FVec Ideal S128x1 .f32) :
    refOut (F := Ideal) x adj w a
      = eluArr (attnArr (scoreArr (pairArr (srcArr (projArr x w) a) (dstArr (projArr x w) a)) adj) (projArr x w)) := rfl

/-- Entry `(i, d)` of the reference's result is the dense form of the layer at that entry. -/
theorem refOut_apply (x : FVec Ideal S8192x256 .f32) (adj : IVec S8192x8192 32) (w : FVec Ideal S256x64 .f32)
    (a : FVec Ideal S128x1 .f32) (i : Fin 8192) (d : Fin 64) :
    refOut (F := Ideal) x adj w a (ValueIdx.ix2 i d)
      = Cert.Attn.outDense (fun i k => x (ValueIdx.ix2 i k)) (fun k d => w (ValueIdx.ix2 k d))
          (fun q => a (ValueIdx.ix2 q 0)) (fun i j => adj (ValueIdx.ix2 i j)) i d := by
  have hp : (fun i d => projArr x w (ix2 i d))
      = Cert.Attn.hProj (fun i k => x (ix2 i k)) (fun k d => w (ix2 k d)) :=
    funext fun i => funext fun d => projArr_apply x w i d
  rw [refOut_eq, eluArr_apply, attnArr_apply]
  simp only [scoreArr_apply, pairArr_apply, srcArr_apply, dstArr_apply, hp, projArr_apply]
  rfl

end Cert.ReferenceIdeal.Hand

end
-- ==== Proof.AttnMath.lean ====
/-
  The mathematics joining the two readings of one attention row.

  * The online form, walking a real row in eight tiles of 1024 while carrying the running maximum, denominator and
    numerator, ends in the same quotient as the dense softmax-weighted sum over all 8192 keys.
  * The score of a real pre-activation is a real, whatever the adjacency word.
  * The exponential linear unit spelled through `exp x − 1` on the clamped argument is the plain select form.
  * For real inputs every entry of the layer's output is the same in the online and in the dense form.
-/
import proofs.«416619_j37056977830238_3_alg».proof.Proof.Spec
import proofs.«416619_j37056977830238_3_alg».proof.Proof.LibERealRows
import Mathlib.Analysis.SpecialFunctions.Exp
import Mathlib.Algebra.BigOperators.Fin
import Mathlib.Data.Fintype.BigOperators
import Mathlib.Logic.Equiv.Fin.Basic

noncomputable section

namespace Cert.Attn

open Idealize.ShloMosaic
open Cert.ERealRows

/-! ## The tile maximum and one step, in reals -/

/-- The maximum of one tile of real scores, as a real. -/
def tileMax (e : Fin 1024 → ℝ) : ℝ := (rowMax (fun j => ((e j : ℝ) : EReal))).toReal

/-- The folded maximum of a tile of coerced reals is the coerced tile maximum. -/
theorem rowMax_coe (e : Fin 1024 → ℝ) : rowMax (fun j => ((e j : ℝ) : EReal)) = ((tileMax e : ℝ) : EReal) := by
  obtain ⟨M, hM⟩ := fold_max_real (ι := Fin 1024) e
  have hM' : rowMax (fun j => ((e j : ℝ) : EReal)) = (M : EReal) := hM
  rw [tileMax, hM', EReal.toReal_coe]

/-- The coercion of reals commutes with the binary maximum. -/
theorem coe_max (a b : ℝ) : max (a : EReal) (b : EReal) = ((max a b : ℝ) : EReal) :=
  (EReal.coe_strictMono.monotone.map_max).symm

/-- One tile of the online form on real state. -/
def rStep (e h : Fin 1024 → ℝ) (s : ℝ × ℝ × ℝ) : ℝ × ℝ × ℝ :=
  (max s.1 (tileMax e),
   Real.exp (s.1 - max s.1 (tileMax e)) * s.2.1 + ∑ j, Real.exp (e j - max s.1 (tileMax e)),
   Real.exp (s.1 - max s.1 (tileMax e)) * s.2.2 + ∑ j, Real.exp (e j - max s.1 (tileMax e)) * h j)

/-- The real state after tile `0`, then stepped through tiles `1, …, k`. -/
def rAt (e h : ℕ → Fin 1024 → ℝ) : ℕ → ℝ × ℝ × ℝ
  | 0 => (tileMax (e 0), ∑ j, Real.exp (e 0 j - tileMax (e 0)), ∑ j, Real.exp (e 0 j - tileMax (e 0)) * h 0 j)
  | k + 1 => rStep (e (k + 1)) (h (k + 1)) (rAt e h k)

/-- The coercion of a real triple. -/
def coe3 (s : ℝ × ℝ × ℝ) : EReal × EReal × EReal := ((s.1 : EReal), (s.2.1 : EReal), (s.2.2 : EReal))

/-- On real state and real tiles one online step is the coerced real step. -/
theorem onlineStep_coe (e h : Fin 1024 → ℝ) (s : ℝ × ℝ × ℝ) :
    onlineStep (fun j => ((e j : ℝ) : EReal)) (fun j => ((h j : ℝ) : EReal)) (coe3 s) = coe3 (rStep e h s) := by
  obtain ⟨a, b, c⟩ := s
  simp only [onlineStep, coe3, rStep, rowMax_coe, coe_max, ← EReal.coe_sub, Ideal.exp_coe, ← EReal.coe_mul, coe_sum,
    ← EReal.coe_add]

/-- The first online step, from `(-∞, 0, 0)`: the carried maximum is `-∞`, its rescaling factor `exp (-∞) = 0`
    kills the (zero) carried sums, and what remains is the tile's own maximum and sums. -/
theorem onlineAt_one (e h : ℕ → Fin 1024 → ℝ) :
    onlineAt (fun k j => ((e k j : ℝ) : EReal)) (fun k j => ((h k j : ℝ) : EReal)) 1 = coe3 (rAt e h 0) := by
  simp only [onlineAt, onlineStep, coe3, rAt, rowMax_coe, bot_le, max_eq_right, EReal.bot_sub, Ideal.exp_bot,
    zero_mul, zero_add, ← EReal.coe_sub, Ideal.exp_coe, ← EReal.coe_mul, coe_sum]

/-- After `k + 1` tiles the online state is the coerced real state. -/
theorem onlineAt_succ (e h : ℕ → Fin 1024 → ℝ) (k : ℕ) :
    onlineAt (fun k j => ((e k j : ℝ) : EReal)) (fun k j => ((h k j : ℝ) : EReal)) (k + 1) = coe3 (rAt e h k) := by
  induction k with
  | zero => exact onlineAt_one e h
  | succ k ih =>
    show onlineStep _ _ (onlineAt _ _ (k + 1)) = _
    rw [ih]
    exact onlineStep_coe (e (k + 1)) (h (k + 1)) (rAt e h k)

/-! ## The carried sums are the sums over the tiles seen, shifted by the carried maximum -/

/-- The denominator after tiles `0, …, k` is the sum of `exp (e − M)` over those tiles, `M` the carried maximum:
    moving the maximum from `M` to `M'` multiplies every term by `exp (M − M')`. -/
theorem rAt_den (e h : ℕ → Fin 1024 → ℝ) (k : ℕ) :
    (rAt e h k).2.1 = ∑ t ∈ Finset.range (k + 1), ∑ j, Real.exp (e t j - (rAt e h k).1) := by
  induction k with
  | zero => simp [rAt]
  | succ k ih =>
    show Real.exp ((rAt e h k).1 - max (rAt e h k).1 (tileMax (e (k + 1)))) * (rAt e h k).2.1
        + ∑ j, Real.exp (e (k + 1) j - max (rAt e h k).1 (tileMax (e (k + 1))))
      = ∑ t ∈ Finset.range (k + 1 + 1), ∑ j, Real.exp (e t j - max (rAt e h k).1 (tileMax (e (k + 1))))
    rw [Finset.sum_range_succ _ (k + 1), ih, Finset.mul_sum]
    congr 1
    refine Finset.sum_congr rfl fun t _ => ?_
    rw [Finset.mul_sum]
    refine Finset.sum_congr rfl fun j _ => ?_
    rw [← Real.exp_add]
    congr 1
    ring

/-- The numerator after tiles `0, …, k`, likewise. -/
theorem rAt_num (e h : ℕ → Fin 1024 → ℝ) (k : ℕ) :
    (rAt e h k).2.2 = ∑ t ∈ Finset.range (k + 1), ∑ j, Real.exp (e t j - (rAt e h k).1) * h t j := by
  induction k with
  | zero => simp [rAt]
  | succ k ih =>
    show Real.exp ((rAt e h k).1 - max (rAt e h k).1 (tileMax (e (k + 1)))) * (rAt e h k).2.2
        + ∑ j, Real.exp (e (k + 1) j - max (rAt e h k).1 (tileMax (e (k + 1)))) * h (k + 1) j
      = ∑ t ∈ Finset.range (k + 1 + 1), ∑ j, Real.exp (e t j - max (rAt e h k).1 (tileMax (e (k + 1)))) * h t j
    rw [Finset.sum_range_succ _ (k + 1), ih, Finset.mul_sum]
    congr 1
    refine Finset.sum_congr rfl fun t _ => ?_
    rw [Finset.mul_sum]
    refine Finset.sum_congr rfl fun j _ => ?_
    rw [← mul_assoc, ← Real.exp_add]
    congr 2
    ring

/-! ## A sum over the 8192 keys is the sum over (tile, position) -/

/-- Key `j` lies in tile `j / 1024` at position `j % 1024`, and this is a bijection of the 8192 keys with
    the eight tiles of 1024. -/
theorem sum_keys (f : ℕ → Fin 1024 → ℝ) :
    ∑ J : Fin 8192, f (tileOf J) (posOf J) = ∑ t ∈ Finset.range 8, ∑ j, f t j := by
  rw [← Fin.sum_univ_eq_sum_range (fun t => ∑ j, f t j) 8, ← Fintype.sum_prod_type' (fun (t : Fin 8) (j : Fin 1024) => f t.val j)]
  exact Fintype.sum_equiv (finProdFinEquiv (m := 8) (n := 1024)).symm _ _ (fun J => rfl)

/-! ## A softmax-weighted quotient does not see a common shift -/

/-- In reals: the quotient of `Σ exp (s − M) · v` by `Σ exp (s − M)` is `Σ exp s · (1 / Σ exp s) · v`; both sums
    carry the common factor `(exp M)⁻¹`. -/
theorem shifted_quotient {ι : Type*} [Fintype ι] [Nonempty ι] (s v : ι → ℝ) (M : ℝ) :
    (∑ I, Real.exp (s I - M) * v I) * (1 / ∑ I, Real.exp (s I - M))
      = ∑ J, Real.exp (s J) * (1 / ∑ I, Real.exp (s I)) * v J := by
  have hSpos : 0 < ∑ I, Real.exp (s I) := Finset.sum_pos (fun i _ => Real.exp_pos _) Finset.univ_nonempty
  have hE : Real.exp M ≠ 0 := (Real.exp_pos M).ne'
  have h1 : ∀ I, Real.exp (s I - M) = Real.exp (s I) * (Real.exp M)⁻¹ := fun I => by
    rw [Real.exp_sub, div_eq_mul_inv]
  have hL : ∑ I, Real.exp (s I - M) = (∑ I, Real.exp (s I)) * (Real.exp M)⁻¹ := by
    simp only [h1, Finset.sum_mul]
  have hN : ∑ I, Real.exp (s I - M) * v I = (∑ I, Real.exp (s I) * v I) * (Real.exp M)⁻¹ := by
    simp only [h1, Finset.sum_mul]
    refine Finset.sum_congr rfl fun I _ => ?_
    ring
  have hR : ∑ J, Real.exp (s J) * (1 / ∑ I, Real.exp (s I)) * v J
      = (∑ I, Real.exp (s I) * v I) * (1 / ∑ I, Real.exp (s I)) := by
    rw [Finset.sum_mul]
    refine Finset.sum_congr rfl fun I _ => ?_
    ring
  rw [hL, hN, hR]
  have hS0 : (∑ I, Real.exp (s I)) ≠ 0 := hSpos.ne'
  field_simp

/-! ## The online form is the dense form -/

/-- For a real row walked in eight tiles the online quotient is the dense softmax-weighted sum. Both sides are
    coerced reals. The online side is `N / L` with `N` and `L` the sums of `exp (e − M) · h` and `exp (e − M)`
    over all keys, `M` the carried maximum; the dense side does not see its shift at all, so it is
    `Σ exp e · (1 / Σ exp e) · h`; multiplying `N` and `L` by `exp M` joins the two. -/
theorem online_eq_dense (er hr : ℕ → Fin 1024 → ℝ) :
    Cert.Attn.online (fun k j => ((er k j : ℝ) : EReal)) (fun k j => ((hr k j : ℝ) : EReal))
      = Cert.Attn.dense (fun j : Fin 8192 => ((er (tileOf j) (posOf j) : ℝ) : EReal))
          (fun j : Fin 8192 => ((hr (tileOf j) (posOf j) : ℝ) : EReal)) := by
  -- the real row, its values, and the three sums over all keys
  set s : Fin 8192 → ℝ := fun J => er (tileOf J) (posOf J) with hs
  set v : Fin 8192 → ℝ := fun J => hr (tileOf J) (posOf J) with hv
  set M : ℝ := (rAt er hr 7).1 with hM
  have hSpos : 0 < ∑ I, Real.exp (s I) := Finset.sum_pos (fun i _ => Real.exp_pos _) Finset.univ_nonempty
  have hLpos : 0 < ∑ I, Real.exp (s I - M) := Finset.sum_pos (fun i _ => Real.exp_pos _) Finset.univ_nonempty
  -- the online side
  have hden : (rAt er hr 7).2.1 = ∑ I, Real.exp (s I - M) := by
    rw [rAt_den er hr 7, ← sum_keys (fun t j => Real.exp (er t j - (rAt er hr 7).1))]
  have hnum : (rAt er hr 7).2.2 = ∑ I, Real.exp (s I - M) * v I := by
    rw [rAt_num er hr 7, ← sum_keys (fun t j => Real.exp (er t j - (rAt er hr 7).1) * hr t j)]
  have hon : Cert.Attn.online (fun k j => ((er k j : ℝ) : EReal)) (fun k j => ((hr k j : ℝ) : EReal))
      = (((∑ I, Real.exp (s I - M) * v I) * (1 / ∑ I, Real.exp (s I - M)) : ℝ) : EReal) := by
    rw [online, onlineAt_succ er hr 7]
    show Ideal.div (((rAt er hr 7).2.2 : ℝ) : EReal) (((rAt er hr 7).2.1 : ℝ) : EReal) = _
    rw [hden, hnum, Ideal.div_coe hLpos.ne', ← EReal.coe_mul]
  -- the dense side
  obtain ⟨Md, hMd⟩ := fold_max_real (ι := Fin 8192) s
  have hMd' : rowMax (fun J : Fin 8192 => ((s J : ℝ) : EReal)) = (Md : EReal) := hMd
  have hde : Cert.Attn.dense (fun J : Fin 8192 => ((s J : ℝ) : EReal)) (fun J : Fin 8192 => ((v J : ℝ) : EReal))
      = ((∑ J, Real.exp (s J) * (1 / ∑ I, Real.exp (s I)) * v J : ℝ) : EReal) := by
    rw [dense, hMd', ← coe_sum]
    refine Finset.sum_congr rfl fun J _ => ?_
    rw [softmax_shift s Md J]
    have h2 : ∀ i, Ideal.exp (s i : EReal) = ((Real.exp (s i) : ℝ) : EReal) := fun i => rfl
    simp only [h2, coe_sum]
    rw [Ideal.div_coe hSpos.ne', one_mul, ← EReal.coe_mul, ← EReal.coe_mul]
  rw [hon, hde, shifted_quotient s v M]

/-! ## Scores of real pre-activations are real -/

/-- The leaky slope `0.2` (as a float) is a real. -/
theorem ofBits_slope_real : ∃ r : ℝ, Ideal.ofBits .f32 0x3E4CCCCD#32 = (r : EReal) := by
  simp only [Ideal.ofBits, Ideal.ieee]
  split_ifs <;> first | exact ⟨_, rfl⟩ | (exfalso; simp_all)

/-- The large negative mask value (as a float) is a real. -/
theorem ofBits_mask_real : ∃ r : ℝ, Ideal.ofBits .f32 0xD9FFCB9E#32 = (r : EReal) := by
  simp only [Ideal.ofBits, Ideal.ieee]
  split_ifs <;> first | exact ⟨_, rfl⟩ | (exfalso; simp_all)

/-- The score of a real pre-activation is a real: each branch of the two selects is one (the pre-activation itself,
    the slope times it, or the mask value). -/
theorem score_real (s : ℝ) (a : BitVec 32) : ∃ r : ℝ, Cert.Attn.score (s : EReal) a = (r : EReal) := by
  obtain ⟨c, hc⟩ := ofBits_slope_real
  obtain ⟨d, hd⟩ := ofBits_mask_real
  unfold score Scalar.select
  rw [hc, hd, ← EReal.coe_mul]
  split_ifs <;> exact ⟨_, rfl⟩

/-! ## Projections and attention terms of real inputs are real -/

/-- An entry of the projection of real matrices is a real. -/
theorem hProj_real (X : Fin 8192 → Fin 256 → EReal) (W : Fin 256 → Fin 64 → EReal)
    (hX : ∀ i k, ∃ r : ℝ, X i k = (r : EReal)) (hW : ∀ k d, ∃ r : ℝ, W k d = (r : EReal)) (i : Fin 8192) (d : Fin 64) :
    ∃ r : ℝ, hProj X W i d = (r : EReal) := by
  choose x hx using hX
  choose w hw using hW
  unfold hProj
  simp only [hx, hw]
  exact sum_mul_real (fun k => x i k) (fun k => w k d)

/-- The source term of a real projection against a real attention vector is a real. -/
theorem f1Of_real (h : Fin 8192 → Fin 64 → EReal) (a : Fin 128 → EReal)
    (hh : ∀ i d, ∃ r : ℝ, h i d = (r : EReal)) (ha : ∀ k, ∃ r : ℝ, a k = (r : EReal)) (i : Fin 8192) :
    ∃ r : ℝ, f1Of h a i = (r : EReal) := by
  choose y hy using hh
  choose b hb using ha
  unfold f1Of
  simp only [hy, hb]
  exact sum_mul_real (fun d : Fin 64 => y i d) (fun d : Fin 64 => b ⟨d.val, by omega⟩)

/-- The target term of a real projection against a real attention vector is a real. -/
theorem f2Of_real (h : Fin 8192 → Fin 64 → EReal) (a : Fin 128 → EReal)
    (hh : ∀ i d, ∃ r : ℝ, h i d = (r : EReal)) (ha : ∀ k, ∃ r : ℝ, a k = (r : EReal)) (j : Fin 8192) :
    ∃ r : ℝ, f2Of h a j = (r : EReal) := by
  choose y hy using hh
  choose b hb using ha
  unfold f2Of
  simp only [hy, hb]
  exact sum_mul_real (fun d : Fin 64 => y j d) (fun d : Fin 64 => b ⟨64 + d.val, by omega⟩)

/-! ## The exponential linear unit as the reference spells it -/

/-- The reference writes `where (x > 0) x (1.0 · (exp (where (x > 0) 0 x) − 1))`: in the branch that is taken the
    inner select is `x`, and `1.0` is the unit. No realness is needed. -/
theorem elu_ref (x : EReal) : Cert.Attn.elu x = Cert.Attn.eluRef x := by
  unfold elu eluRef Scalar.select
  by_cases hc : Ideal.cmp .ogt x (Ideal.ofBits .f32 0x00000000#32) = 1
  · rw [if_pos hc, if_pos hc]
  · rw [if_neg hc, if_neg hc, if_neg hc, ofBits_one, one_mul]

/-! ## The whole layer: the online entry is the dense entry -/

/-- Position `posOf J` of tile `tileOf J` is key `J`. -/
theorem keyAt_tileOf_posOf (J : Fin 8192) : keyAt (tileOf J) (posOf J) = J := by
  apply Fin.ext
  show (1024 * (J.val / 1024) + J.val % 1024) % 8192 = J.val
  rw [Nat.div_add_mod, Nat.mod_eq_of_lt J.isLt]

/-- For real inputs every entry of the layer's output is the same in the online and in the dense form: the scores and
    the projected values are reals, so the row's online quotient is its dense sum, and the two spellings of the
    unit agree. -/
theorem outOnline_eq_outDense (X : Fin 8192 → Fin 256 → EReal) (W : Fin 256 → Fin 64 → EReal) (a : Fin 128 → EReal)
    (adj : Fin 8192 → Fin 8192 → BitVec 32)
    (hX : ∀ i k, ∃ r : ℝ, X i k = (r : EReal)) (hW : ∀ k d, ∃ r : ℝ, W k d = (r : EReal))
    (ha : ∀ k, ∃ r : ℝ, a k = (r : EReal)) (i : Fin 8192) (d : Fin 64) :
    outOnline X W a adj i d = outDense X W a adj i d := by
  have hh := hProj_real X W hX hW
  choose f1 hf1 using f1Of_real (hProj X W) a hh ha
  choose f2 hf2 using f2Of_real (hProj X W) a hh ha
  choose hp hhp using hh
  have hsc : ∀ j, ∃ r : ℝ, score (f1Of (hProj X W) a i + f2Of (hProj X W) a j) (adj i j) = (r : EReal) := fun j => by
    rw [hf1, hf2, ← EReal.coe_add]
    exact score_real _ _
  choose sc hsc using hsc
  unfold outOnline outDense
  rw [elu_ref]
  refine congrArg eluRef ?_
  simp only [hsc, hhp]
  rw [online_eq_dense (fun k p => sc (keyAt k p)) (fun k p => hp (keyAt k p) d)]
  simp only [keyAt_tileOf_posOf]

end Cert.Attn

end
-- ==== Proof.PreReal.lean ====
/-
  From the printed precondition to "every float entry is a real".

  The precondition is the conjunction of three statements, one per float input: every entry's absolute value compares
  strictly below +∞. Each statement is a reduction by `and` over all axes of the array of comparisons, so its being 1
  gives the comparison at every index; an extended real whose absolute value `max x (−x)` is below +∞ is neither
  infinity, hence a real. The integer adjacency is not constrained.
-/
import Idealize.ShloMosaic.Lib.ReduceAll
import Idealize.ShloMosaic.Lib.ValueIdx
import Idealize.ShloMosaic.PureOps.Ideal
import proofs.«416619_j37056977830238_3_alg».proof.Pre_finite_inputs
import proofs.«416619_j37056977830238_3_alg».proof.Proof.LibERealRows

noncomputable section

namespace Cert.PreReal

open Idealize.ShloMosaic Cert.Pre_finite_inputs

/-- The shape of rank 0 has one index. -/
instance subsingleton_S_Idx : Subsingleton S_.Idx := ⟨fun a b => funext fun d => d.elim0⟩

variable [Facts]

/-- Under the precondition every entry of the three float inputs is a real number. -/
theorem real_of_pre (x : FVec Ideal S8192x256 .f32) (adj : IVec S8192x8192 32) (w : FVec Ideal S256x64 .f32)
    (a : FVec Ideal S128x1 .f32) (h : fn (F := Ideal) x adj w a = fun _ => 1#1) :
    (∀ i, ∃ r : ℝ, x i = (r : EReal)) ∧ (∀ i, ∃ r : ℝ, w i = (r : EReal)) ∧ (∀ i, ∃ r : ℝ, a i = (r : EReal)) := by
  have h0 := congrFun h ValueIdx.ix0
  dsimp only [fn, andi] at h0
  obtain ⟨h12, h3⟩ := IntOp.andi_eq_one.1 h0
  obtain ⟨h1, h2⟩ := IntOp.andi_eq_one.1 h12
  refine ⟨fun i => ?_, fun i => ?_, fun i => ?_⟩
  · exact Cert.ERealRows.real_of_abs_lt_inf (x i) (Host.reduce_andi_all _ _ _ _ _ h1 i)
  · exact Cert.ERealRows.real_of_abs_lt_inf (w i) (Host.reduce_andi_all _ _ _ _ _ h2 i)
  · exact Cert.ERealRows.real_of_abs_lt_inf (a i) (Host.reduce_andi_all _ _ _ _ _ h3 i)

end Cert.PreReal

end
-- ==== Proof.lean ====
/-
  A graph-attention layer computed two ways is one function of its inputs at exact arithmetic.

  The kernel program projects the features (`h = X · W`, with the two score columns `f1 = h · a₁`, `f2 = h · a₂`) in a
  first grid of eight row blocks, and then, for each block of 1024 queries, walks the 8192 keys in eight tiles, keeping
  per query the running maximum of the masked leaky scores, the running sum of their exponentials and the running
  exponential-weighted sum of the keys' features, rescaled by `exp (m − m')` whenever the maximum moves; after the last
  tile it divides and applies the exponential linear unit. The reference forms all 8192 × 8192 scores, normalises each
  row's exponentials by their sum and multiplies by `h`.

  Over finite inputs every score is a real, the rescalings telescope (`exp (m − m') · exp (e − m) = exp (e − m')`), the
  denominator is a positive real, and dividing a sum is summing the quotients: the two results agree entry by entry.
  The frames are the two regions' launches (each argument array is only ever read) and the reference's straight run.
-/
import proofs.«416619_j37056977830238_3_alg».proof.Defs
import proofs.«416619_j37056977830238_3_alg».proof.Proof.Gen.Kernel
import proofs.«416619_j37056977830238_3_alg».proof.Proof.Gen.KernelIdeal
import proofs.«416619_j37056977830238_3_alg».proof.Proof.Gen.ReferenceIdeal
import proofs.«416619_j37056977830238_3_alg».proof.Proof.Gen.Pre_finite_inputs
import proofs.«416619_j37056977830238_3_alg».proof.Proof.KRun
import proofs.«416619_j37056977830238_3_alg».proof.Proof.KIRun
import proofs.«416619_j37056977830238_3_alg».proof.Proof.KIOut
import proofs.«416619_j37056977830238_3_alg».proof.Proof.RefRun
import proofs.«416619_j37056977830238_3_alg».proof.Proof.RefVal
import proofs.«416619_j37056977830238_3_alg».proof.Proof.AttnMath
import proofs.«416619_j37056977830238_3_alg».proof.Proof.PreReal

noncomputable section

namespace Cert.Proof

open Idealize.ShloMosaic Idealize.ShloMosaic.TcCoe Idealize.SL.Sem

/-- The word-level program runs to the end and leaves its four arguments as launched. -/
theorem frame_k : Cert.frame_Kernel := fun m ρ _ => Cert.Kernel.Hand.frame (F := Bits) m ρ

/-- So does the program read at exact arithmetic. -/
theorem frame_ki : Cert.frame_KernelIdeal := fun m ρ _ => Cert.KernelIdeal.Hand.frame (F := Ideal) m ρ

/-- The reference's run, with its result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- Both programs end with the same array: entry `(i, d)` of the kernel's is the online form, of the reference's the
    dense form, and over the finite inputs the precondition grants the two forms are equal. -/
theorem algebraic : Cert.algebraic_KernelIdeal_ReferenceIdeal := by
  intro m ρ m' ρ' hpre hagree
  refine ⟨fun c => Cert.KernelIdeal.Hand.W4 m ρ c (Proc.devRef .tc Cert.KernelIdeal.main_v6), ?_, ?_⟩
  · refine (θ_run Cert.KernelIdeal.defs _ _).mono (fun r h c => ⟨?_, ?_, ?_, ?_, ?_⟩)
      (Cert.KernelIdeal.Hand.run_all (F := Ideal) m ρ)
    · exact h c _ (Cert.KernelIdeal.Hand.mem_uc Cert.KernelIdeal.main_v6 (by decide))
    · exact (h c _ (Cert.KernelIdeal.Hand.mem_uc Cert.KernelIdeal.main_arg0 (by decide))).trans
        (Cert.KernelIdeal.Hand.W4_main_arg0 m ρ c)
    · exact (h c _ (Cert.KernelIdeal.Hand.mem_uc Cert.KernelIdeal.main_arg1 (by decide))).trans
        (Cert.KernelIdeal.Hand.W4_main_arg1 m ρ c)
    · exact (h c _ (Cert.KernelIdeal.Hand.mem_uc Cert.KernelIdeal.main_arg2 (by decide))).trans
        (Cert.KernelIdeal.Hand.W4_main_arg2 m ρ c)
    · exact (h c _ (Cert.KernelIdeal.Hand.mem_uc Cert.KernelIdeal.main_arg3 (by decide))).trans
        (Cert.KernelIdeal.Hand.W4_main_arg3 m ρ c)
  · refine (θ_run Cert.ReferenceIdeal.defs _ _).mono (fun r h c => ⟨(h c).1.trans ?_, (h c).2⟩)
      (Cert.ReferenceIdeal.Hand.run (F := Ideal) m' ρ')
    rw [(hagree c).1, (hagree c).2.1, (hagree c).2.2.1, (hagree c).2.2.2]
    obtain ⟨hX, hW, ha⟩ := Cert.PreReal.real_of_pre _ _ _ _ (hpre c)
    funext j
    obtain ⟨i, d, rfl⟩ : ∃ (i : Fin 8192) (d : Fin 64), j = ValueIdx.ix2 i d := ⟨j 0, j 1, ValueIdx.eq_ix2 j⟩
    refine (Cert.ReferenceIdeal.Hand.refOut_apply _ _ _ _ i d).trans ?_
    refine Eq.trans ?_ (Cert.KernelIdeal.Val.kernel_out_apply m ρ c i d).symm
    exact (Cert.Attn.outOnline_eq_outDense _ _ _ _ (fun i k => hX _) (fun k d => hW _) (fun q => ha _) i d).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
